-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x256 : Shape := ⟨4, ![8, 64, 64, 256]⟩
abbrev S256x256 : Shape := ⟨2, ![256, 256]⟩
abbrev S_ : Shape := ⟨0, ![]⟩

class Facts : Prop where
  bcast_S_S8x64x64x256 : S_.BroadcastsInDim S8x64x64x256 (![] : Fin 0 → Fin S8x64x64x256.rank)
  reducesTo_S8x64x64x256_S_d0_1_2_3 : S8x64x64x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S8x64x64x256 .f32) (main_arg1 : FVec F S256x256 .f32) (main_arg2 : FVec F S256x256 .f32) (main_arg3 : FVec F S256x256 .f32) : IVec S_ 1 :=
  let main_v0 : FVec F S8x64x64x256 .f32 := Host.absf main_arg0
  let main_cst : FVec F S_ .f32 := constant S_ .f32 0x7F800000#32
  let main_v1 : FVec F S8x64x64x256 .f32 := broadcastInDim S8x64x64x256 ![] bcast_S_S8x64x64x256 main_cst
  let main_v2 : IVec S8x64x64x256 1 := cmpf .olt main_v0 main_v1
  let main_c : IVec S_ 1 := constantI S_ 1 1#1
  let main_v3 : IVec S_ 1 := (fun x v => Host.reduce IntOp.andi x v reducesTo_S8x64x64x256_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S8x64x64x256 : Shape := ⟨4, ![8, 64, 64, 256]⟩
abbrev S256x256 : Shape := ⟨2, ![256, 256]⟩
abbrev S8x4096x256 : Shape := ⟨3, ![8, 4096, 256]⟩
abbrev S256x512 : Shape := ⟨2, ![256, 512]⟩
abbrev S1x1024x256 : Shape := ⟨3, ![1, 1024, 256]⟩
abbrev S1024x256 : Shape := ⟨2, ![1024, 256]⟩
abbrev S1024x512 : Shape := ⟨2, ![1024, 512]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S8x64x64x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x4096x256, .f32⟩
  | .hbm, ⟨5, _⟩ => ⟨S256x256, .bf16⟩
  | .hbm, ⟨6, _⟩ => ⟨S256x256, .bf16⟩
  | .hbm, ⟨7, _⟩ => ⟨S256x512, .bf16⟩
  | .hbm, ⟨8, _⟩ => ⟨S256x256, .bf16⟩
  | .hbm, ⟨9, _⟩ => ⟨S8x4096x256, .bf16⟩
  | .hbm, ⟨10, _⟩ => ⟨S8x4096x256, .bf16⟩
  | .hbm, ⟨11, _⟩ => ⟨S8x4096x256, .f32⟩
  | .hbm, ⟨12, _⟩ => ⟨S8x64x64x256, .f32⟩
  | .local _ .vmem, ⟨0, _⟩ => ⟨S1x1024x256, .f32⟩
  | .local _ .vmem, ⟨1, _⟩ => ⟨S1x1024x256, .f32⟩
  | .local _ .vmem, ⟨2, _⟩ => ⟨S256x512, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .f32⟩
  | .local _ .vmem, ⟨8, _⟩ => ⟨S1x1024x256, .f32⟩
  | .local _ .vmem, ⟨9, _⟩ => ⟨S256x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .f32⟩
  | .local _ .vmem, ⟨15, _⟩ => ⟨S1x1024x256, .f32⟩
  | .local _ .vmem, ⟨16, _⟩ => ⟨S1024x256, .bf16⟩
  | .local _ .vmem, ⟨17, _⟩ => ⟨S1024x1, .f32⟩
  | .local _ .vmem, ⟨18, _⟩ => ⟨S1024x1, .f32⟩
  | .local _ .vmem, ⟨19, _⟩ => ⟨S1024x256, .f32⟩
  | _, _ => ⟨S8x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc1_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v39 : BitVec 1 := Scalar.cmpi .eq arg2 c3_i32
  let v40 : BitVec 32 := Scalar.extui v39
  let c0_i32_25 : BitVec 32 := 0#32
  let v41 : BitVec 1 := Scalar.cmpi .ne v40 c0_i32_25
  v41

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1x1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S8x64x64x256_S8x4096x256 : S8x64x64x256.ShapeCasts S8x4096x256
  bitsLt_bf16_f32 : FTy.bits .bf16 < FTy.bits .f32
  concatenates_S256x256_S256x256_S256x512_d1 : Shape.Concatenates [S256x256, S256x256] S256x512 1
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S1024x512_o0_0_S1024x256 : S1024x512.Slices ![0, 0] S1024x256
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  slices_S1024x512_o0_256_S1024x256 : S1024x512.Slices ![0, 256] S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  shapeCasts_S8x4096x256_S8x64x64x256 : S8x4096x256.ShapeCasts S8x64x64x256
  dot_S1024x256_S256x512_S1024x512_1_0_0_1_n_n_wf : DotDims.WF S1024x256 S256x512 S1024x512 [1] [0] [0] [1] [] []
  dot_S1024x256_S256x256_S1024x256_1_0_0_1_n_n_wf : DotDims.WF S1024x256 S256x256 S1024x256 [1] [0] [0] [1] [] []
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x4096x256.size a
  hwx0_0 : ∀ i : grid0.Coords, EltTy.bits .f32 = 32 ∨ (Rect.block (s := S8x4096x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S8x4096x256.size a
  hwx0_2 : ∀ i : grid0.Coords, EltTy.bits .bf16 = 32 ∨ (Rect.block (s := S8x4096x256) S1x1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S8x4096x256.size a
  hwx0_3 : ∀ i : grid0.Coords, EltTy.bits .bf16 = 32 ∨ (Rect.block (s := S8x4096x256) S1x1024x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S8x4096x256.size a
  hwx1_0 : ∀ i : grid1.Coords, EltTy.bits .f32 = 32 ∨ (Rect.block (s := S8x4096x256) S1x1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x256.size a ≤ S8x4096x256.size a
  hwx1_2 : ∀ i : grid1.Coords, EltTy.bits .bf16 = 32 ∨ (Rect.block (s := S8x4096x256) S1x1024x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x256.size a ≤ S8x4096x256.size a
  hwx1_3 : ∀ i : grid1.Coords, EltTy.bits .bf16 = 32 ∨ (Rect.block (s := S8x4096x256) S1x1024x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x256.size a ≤ S8x4096x256.size a
  hwx1_4 : ∀ i : grid1.Coords, EltTy.bits .f32 = 32 ∨ (Rect.block (s := S8x4096x256) S1x1024x256.size (cc1_transform_4 i) (hinb1_4 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S1x1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S1x1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5_0) S1x1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_1) S1x1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8x64x64x256 : Shape := ⟨4, ![8, 64, 64, 256]⟩
abbrev S256x256 : Shape := ⟨2, ![256, 256]⟩
abbrev S8x4096x256 : Shape := ⟨3, ![8, 4096, 256]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S8x64x64x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x4096x256, .f32⟩
  | .hbm, ⟨5, _⟩ => ⟨S8x4096x256, .f32⟩
  | .hbm, ⟨6, _⟩ => ⟨S8x4096x256, .f32⟩
  | .hbm, ⟨7, _⟩ => ⟨S8x4096x256, .f32⟩
  | .hbm, ⟨8, _⟩ => ⟨S8x4096x4096, .f32⟩
  | .hbm, ⟨9, _⟩ => ⟨S_, .f32⟩
  | .hbm, ⟨10, _⟩ => ⟨S8x4096, .f32⟩
  | .hbm, ⟨11, _⟩ => ⟨S_, .f32⟩
  | .hbm, ⟨12, _⟩ => ⟨S8x4096, .f32⟩
  | .hbm, ⟨13, _⟩ => ⟨S8x4096, .f32⟩
  | .hbm, ⟨14, _⟩ => ⟨S8x4096x1, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S8x4096x4096, .f32⟩
  | .hbm, ⟨22, _⟩ => ⟨S8x4096x4096, .f32⟩
  | .hbm, ⟨23, _⟩ => ⟨S8x4096x256, .f32⟩
  | .hbm, ⟨24, _⟩ => ⟨S8x64x64x256, .f32⟩
  | .hbm, ⟨25, _⟩ => ⟨S8x64x64x256, .f32⟩
  | _, _ => ⟨S8x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  shapeCasts_S8x64x64x256_S8x4096x256 : S8x64x64x256.ShapeCasts S8x4096x256
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  shapeCasts_S8x4096x256_S8x64x64x256 : S8x4096x256.ShapeCasts S8x64x64x256
  dot_S8x4096x256_S256x256_S8x4096x256_2_0_01_1_n_n_wf : DotDims.WF S8x4096x256 S256x256 S8x4096x256 [2] [0] [0, 1] [1] [] []
  dot_S8x4096x256_S8x4096x256_S8x4096x4096_2_2_1_1_0_0_wf : DotDims.WF S8x4096x256 S8x4096x256 S8x4096x4096 [2] [2] [1] [1] [0] [0]
  dot_S8x4096x4096_S8x4096x256_S8x4096x256_2_1_1_2_0_0_wf : DotDims.WF S8x4096x4096 S8x4096x256 S8x4096x256 [2] [1] [1] [2] [0] [0]

variable [Facts₀]

def dot_S8x4096x256_S256x256_S8x4096x256_2_0_01_1_n_n : DotDims S8x4096x256 S256x256 S8x4096x256 where
  lhsContracting := [2]
  rhsContracting := [0]
  lhsNonContracting := [0, 1]
  rhsNonContracting := [1]
  lhsBatch := []
  rhsBatch := []
  wf := dot_S8x4096x256_S256x256_S8x4096x256_2_0_01_1_n_n_wf
def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x4096_S8x4096x256_S8x4096x256_2_1_1_2_0_0 : DotDims S8x4096x4096 S8x4096x256 S8x4096x256 where
  lhsContracting := [2]
  rhsContracting := [1]
  lhsNonContracting := [1]
  rhsNonContracting := [2]
  lhsBatch := [0]
  rhsBatch := [0]
  wf := dot_S8x4096x4096_S8x4096x256_S8x4096x256_2_1_1_2_0_0_wf

class Facts : Prop extends Facts₀ where

variable [Facts]
-- ==== Proof.K.Step.lean ====
/-
  What the two kernels compute at a grid point, as pure functions of the blocks they are handed.

  The projection kernel stores two column halves of one product. The attention kernel keeps four scratch arrays
  between the key blocks of one query block: the projected queries, the running row maximum, the running row sum of
  exponentials and the running weighted sum of value rows. At the first key block it resets them; at every key block
  it moves them one step of the online softmax; at the last key block it writes the query block's rows of the result,
  the input rows times the weighted sum over the row sum.
-/
import proofs.«402299_j61332132987363_3_alg».proof.Proof.Gen.Kernel.Skeleton
import proofs.«402299_j61332132987363_3_alg».proof.Proof.Gen.Kernel.Launch
import proofs.«402299_j61332132987363_3_alg».proof.Proof.Gen.Kernel.Points
import Idealize.ShloMosaic.Lib.Pipeline.FrameBody

noncomputable section

namespace Cert.Kernel.Hand

open Idealize.ShloMosaic Idealize.ShloMosaic.TcCoe
open Idealize.SL Idealize.SL.Sem
open Cert.Kernel Cert.Kernel.Gen
open Idealize.ShloMosaic.Pipeline (Dat)

variable {F : FTy → Type} [FloatOps F]

/-! ## The attention kernel's carried state -/

/-- The four scratch arrays: projected queries, running row maximum, running row sum, running weighted sum. -/
abbrev St (F : FTy → Type) [FloatOps F] : Type :=
  Vec F S1024x256 .bf16 × Vec F S1024x1 .f32 × Vec F S1024x1 .f32 × Vec F S1024x256 .f32

/-- The state a query block starts from: the queries projected from the input rows, the maximum at -∞, the sums at 0. -/
def stInit (x : Vec F S1x1024x256 .f32) (wq : Vec F S256x256 .bf16) : St F :=
  (k1_pay4 x wq, k1_pay5 (F := F), k1_pay6 (F := F), k1_pay7 (F := F))

/-- One key block: the scores of the queries against the block's keys move the maximum, rescale the row sum and the
    weighted sum, and add the block's exponentials and its exponentials times the block's values. -/
def stStep (s : St F) (kb vb : Vec F S1x1024x256 .bf16) : St F :=
  (s.1,
   k1_pay2 (k1_pay10 s.1 kb s.2.1),
   k1_pay13 s.1 kb s.2.1 s.2.1 s.2.2.1,
   k1_pay1 (k1_pay8 vb) (k1_pay14 s.1 kb s.2.1 s.2.1 s.2.2.2) (k1_pay15 s.1 kb s.2.1)
     (constant S1024x256 .f32 0x00000000#32))

/-- The rows written at the last key block: the input rows times the weighted sum over the row sum. -/
def outOf (s : St F) (x : Vec F S1x1024x256 .f32) : Vec F S1x1024x256 .f32 :=
  k1_pay3 s.2.2.2 s.2.2.1 x

/-! ## The branch conditions of the attention kernel, over the grid -/

/-- The reset branch is taken: the key-block coordinate is 0. -/
abbrev cond1_0 (i : grid1.Coords) : Prop :=
  (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The write branch is taken: the key-block coordinate is the last one. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## The blocks a point is handed, read off the arrays a region finds -/

section Blocks

variable (V : (c : Dev nD) → (b : Ref sig .tc) → Buf (Elt F) ((c : Thread nD τ).loc b))

/-- Window `w`'s block of the projection kernel at point `t`. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Window `w`'s block of the attention kernel at point `t`. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The projection kernel's two results at a point: the key half and the value half of the product. -/
def kOut (c : Dev nD) (t : Fin cfg0.N) : Vec F S1x1024x256 .bf16 := k0_pay2 (iblk0 V c 0 t) (iblk0 V c 1 t)
def vOut (c : Dev nD) (t : Fin cfg0.N) : Vec F S1x1024x256 .bf16 := k0_pay3 (iblk0 V c 0 t) (iblk0 V c 1 t)

/-- The attention kernel's scratch after the point at position `n`: a reset and a step at the first key block of a
    query block, a step over what the point before left otherwise. -/
def stAt (c : Dev nD) : (n : ℕ) → n < cfg1.N → St F
  | 0, hn => stStep (stInit (iblk1 V c 0 ⟨0, hn⟩) (iblk1 V c 1 ⟨0, hn⟩)) (iblk1 V c 2 ⟨0, hn⟩) (iblk1 V c 3 ⟨0, hn⟩)
  | n + 1, hn =>
    if (n + 1) % 4 = 0 then
      stStep (stInit (iblk1 V c 0 ⟨n + 1, hn⟩) (iblk1 V c 1 ⟨n + 1, hn⟩)) (iblk1 V c 2 ⟨n + 1, hn⟩) (iblk1 V c 3 ⟨n + 1, hn⟩)
    else
      stStep (stAt c n (Nat.lt_of_succ_lt hn)) (iblk1 V c 2 ⟨n + 1, hn⟩) (iblk1 V c 3 ⟨n + 1, hn⟩)

/-- At the first key block of a query block. -/
theorem stAt_first (c : Dev nD) (t : Fin cfg1.N) (h : t.val % 4 = 0) :
    stAt V c t.val t.isLt = stStep (stInit (iblk1 V c 0 t) (iblk1 V c 1 t)) (iblk1 V c 2 t) (iblk1 V c 3 t) := by
  obtain ⟨n, hn⟩ := t
  cases n with
  | zero => rfl
  | succ n => exact if_pos h

/-- At a later key block. -/
theorem stAt_next (c : Dev nD) (t : Fin cfg1.N) (h : ¬ t.val % 4 = 0) :
    stAt V c t.val t.isLt
      = stStep (stAt V c (t.val - 1) (Nat.lt_of_le_of_lt (Nat.sub_le _ _) t.isLt)) (iblk1 V c 2 t) (iblk1 V c 3 t) := by
  obtain ⟨n, hn⟩ := t
  cases n with
  | zero => exact absurd (Nat.zero_mod _) h
  | succ n => exact if_neg h

/-- What the attention kernel leaves in its result window at the point at position `n` (meaningful at the last key
    block of a query block; elsewhere the window is idle and this is never consulted). -/
def oAt (c : Dev nD) (t : Fin cfg1.N) : Vec F S1x1024x256 .f32 :=
  outOf (stAt V c t.val t.isLt) (iblk1 V c 0 t)

end Blocks

end Cert.Kernel.Hand

end
-- ==== Proof.K.Run0.lean ====
/-
  The projection kernel's body at a grid point: it reads the input rows and the packed weights and stores the key half
  and the value half of their product into its two result blocks, whole.
-/
import proofs.«402299_j61332132987363_3_alg».proof.Proof.K.Step
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of the full rectangle of a rank-three block are all zero. -/
private theorem offs3_zero : (![0, 0, 0] : Fin S1x1024x256.rank → Nat) = fun _ => 0 :=
  funext fun a => by fin_cases a <;> rfl

/-- The offsets of the full rectangle of the weights' block are all zero. -/
private theorem offs2_zero : (![0, 0] : Fin S256x512.rank → Nat) = fun _ => 0 :=
  funext fun a => by fin_cases a <;> rfl

/-- One store through the full rectangle of a result block tiles the block, so it covers it. -/
private theorem cover_full (p : Vec F S1x1024x256 .bf16) (y : S1x1024x256.Idx) :
    ∃ pc ∈ ([⟨Rect.unit (s := S1x1024x256) ![0, 0, 0] S1x1024x256.size inb_S1x1024x256_S1x1024x256_0_0_0, p⟩] :
        List (View.Piece (Elt F) S1x1024x256 .bf16)), y ∈ pc.1.set :=
  View.cover_of_tiled [⟨Rect.unit (s := S1x1024x256) ![0, 0, 0] S1x1024x256.size inb_S1x1024x256_S1x1024x256_0_0_0, p⟩]
    S1x1024x256.size (by rfl) y

/-- On whole staging memrefs, the inputs' at contents x0 and x1 and the results' at anything, the body runs to the
    continuation holding the inputs' as they were and the results' at the two halves of the product. -/
theorem sound_kernel0 (c : Dev nD) (E : Set ℕ) (i : grid0.Coords)
    (arg2 : Memref sig .tc .vmem S1x1024x256 .f32) (harg2 : arg2.IsWhole) (arg3 : Memref sig .tc .vmem S256x512 .bf16) (harg3 : arg3.IsWhole)
    (arg4 : Memref sig .tc .vmem S1x1024x256 .bf16) (harg4 : arg4.IsWhole) (arg5 : Memref sig .tc .vmem S1x1024x256 .bf16) (harg5 : arg5.IsWhole)
    (x0 : Vec F S1x1024x256 .f32) (x1 : Vec F S256x512 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay3 x0 x1)) -∗ K ⟨⟩))
      ⊢ wp frame (wpE (defs₀ (F := F)) Variants.none c none) E (cc0_kv_proj_kernel i arg2 harg2 arg3 harg3 arg4 harg4 arg5 harg5) K := by
  simp only [cc0_kv_proj_kernel_eq_skeleton]; unfold cc0_kv_proj_kernel_skel
  unfold owns
  iintro ⟨⟨%f0, %hf0, H0⟩, ⟨%f1, %hf1, H1⟩, ⟨%d4, %f4, -, H4⟩, ⟨%d5, %f5, -, H5⟩, Hk⟩
  subst hf0
  subst hf1
  sl_exec
  sl_step
  iapply Hk
  -- the inputs' blocks are held as they were
  isplitl [H0]
  · iexists f0; isplitr; · ipureintro; rfl
    iexact H0
  isplitl [H1]
  · iexists f1; isplitr; · ipureintro; rfl
    iexact H1
  -- the key half: the one store covers the block, so the block reads as the payload, and a load through the
  -- full rectangle reads the whole input
  isplitl [H4]
  · iexists _; isplitr
    swap; · iexact H4
    ipureintro
    rw [View.read_writes_eq_canon _ _ _ (cover_full _), View.canon_unit_zero offs3_zero]
    simp only [View.readAt_eq_ld, View.ld_unit_zero (S := S1x1024x256) offs3_zero,
      View.ld_unit_zero (S := S256x512) offs2_zero]
  -- the value half, the same way
  iexists _; isplitr
  swap; · iexact H5
  ipureintro
  rw [View.read_writes_eq_canon _ _ _ (cover_full _), View.canon_unit_zero offs3_zero]
  simp only [View.readAt_eq_ld, View.ld_unit_zero (S := S1x1024x256) offs3_zero,
    View.ld_unit_zero (S := S256x512) offs2_zero]

end Cert.Kernel.Hand

end
-- ==== Proof.K.Dat0.lean ====
/-
  The projection kernel's region: what each window's staging buffer holds after the body at every grid point, and that
  the body does leave exactly that. Both inputs stay at their blocks (the rows' block changes with the point, the packed
  weights' never does); the two results hold the key half and the value half of the product of the point's blocks.
-/
import proofs.«402299_j61332132987363_3_alg».proof.Proof.K.Run0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The proof data -/

/-- The arrays as the region finds them; after the body each input's buffer at its block and the results' at the two
    halves of the product; the invariant the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => kOut V c t
    | ⟨3, _⟩ => vOut V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = kOut V c t := by dsimp only [dat0]
theorem after0_3 (c : Dev nD) (t : Fin cfg0.N) : (dat0 V c).after 3 t = vOut V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the kernel's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Run1A.lean ====
/-
  The attention kernel's body at the first key block of a query block: it resets the four scratch arrays from the input
  rows and the query weights, takes one step of the online softmax over the key block, and leaves the result block alone.
-/
import proofs.«402299_j61332132987363_3_alg».proof.Proof.K.Step
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-two block, however they are spelt. -/
private theorem hz2 : (![0, 0] : Fin 2 → Nat) = fun _ => 0 := funext fun a => by fin_cases a <;> rfl

/-- The zero offsets of a rank-three block. -/
private theorem hz3 : (![0, 0, 0] : Fin 3 → Nat) = fun _ => 0 := funext fun a => by fin_cases a <;> rfl

section Whole

variable {sig' : RefSig} {κ : Kind} {sp : Space} {S : Shape} {e : EltTy} {Val : EltTy → Type} [∀ e, Nonempty (Val e)]

/-- After a last store through its whole block a buffer reads as that store's payload, whatever was stored before:
    the store's rectangle holds every index, so the earlier pieces and the prior contents are not consulted. -/
private theorem read_writes_cons_whole (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _
      (fun y => ⟨⟨Rect.unit off S.size inb, w⟩, List.mem_cons_self, View.mem_set_unit_zero h inb y⟩),
    View.canon_cons_unit_zero h]

/-- A load of a whole buffer whose contents read as `X` reads `X`. -/
private theorem readAt_unread_whole (m : Memref sig' κ sp S e) (hm : m.IsWhole) {off : Fin S.rank → Nat}
    (h : off = fun _ => 0) (inb : ∀ a, off a + S.size a ≤ S.size a) (X : S.Idx → Val e) :
    View.readAt Val m.view (Rect.unit off S.size inb).toLoadRect (hm.unread X) = X := by
  rw [View.readAt_eq_ld, hm.read_unread, View.ld_unit_zero h]

end Whole

set_option maxHeartbeats 4000000 in
/-- The reset branch taken, the write branch not: from the four inputs' blocks, the result's buffer at xi and the scratch
    at anything, the body runs to the continuation holding the inputs and the result's buffer as they were and the
    scratch at one step from the reset state. -/
theorem run1_first (c : Dev nD) (E : Set ℕ) (i : grid1.Coords)
    (arg3 : Memref sig .tc .vmem S1x1024x256 .f32) (harg3 : arg3.IsWhole) (arg4 : Memref sig .tc .vmem S256x256 .bf16) (harg4 : arg4.IsWhole)
    (arg5 : Memref sig .tc .vmem S1x1024x256 .bf16) (harg5 : arg5.IsWhole) (arg6 : Memref sig .tc .vmem S1x1024x256 .bf16) (harg6 : arg6.IsWhole)
    (arg7 : Memref sig .tc .vmem S1x1024x256 .f32) (harg7 : arg7.IsWhole) (arg8 : Memref sig .tc .vmem S1024x256 .bf16) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x256 .f32) (harg11 : arg11.IsWhole)
    (hc0 : cond1_0 i) (hc1 : ¬ cond1_1 i)
    (x : Vec F S1x1024x256 .f32) (wq : Vec F S256x256 .bf16) (kb vb : Vec F S1x1024x256 .bf16) (xi : Vec F S1x1024x256 .f32)
    (K : PUnit → sProp 𝕄) :
    iprop(owns (c : Thread nD τ) arg3 fullShare x ∗ owns (c : Thread nD τ) arg4 fullShare wq ∗ owns (c : Thread nD τ) arg5 fullShare kb ∗ owns (c : Thread nD τ) arg6 fullShare vb ∗ owns (c : Thread nD τ) arg7 fullShare xi
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg3 fullShare x ∗ owns (c : Thread nD τ) arg4 fullShare wq ∗ owns (c : Thread nD τ) arg5 fullShare kb ∗ owns (c : Thread nD τ) arg6 fullShare vb ∗ owns (c : Thread nD τ) arg7 fullShare xi
            ∗ owns (c : Thread nD τ) arg8 fullShare (stStep (stInit x wq) kb vb).1 ∗ owns (c : Thread nD τ) arg9 fullShare (stStep (stInit x wq) kb vb).2.1 ∗ owns (c : Thread nD τ) arg10 fullShare (stStep (stInit x wq) kb vb).2.2.1 ∗ owns (c : Thread nD τ) arg11 fullShare (stStep (stInit x wq) kb vb).2.2.2) -∗ K ⟨⟩))
      ⊢ wp frame (wpE (defs₀ (F := F)) Variants.none c none) E (cc1_flash_attn_kernel i arg3 harg3 arg4 harg4 arg5 harg5 arg6 harg6 arg7 harg7 arg8 harg8 arg9 harg9 arg10 harg10 arg11 harg11) K := by
  sl_unfold [cc1_flash_attn_kernel]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact hf7
    iexact H7
  -- the projected queries: stored once, by the reset
  isplitl [H8]
  · iexists _; isplitr
    swap; · iexact H8
    ipureintro
    sl_unfold_words
    rw [read_writes_cons_whole (S := S1024x256) _ _ hz2]
    rw [readAt_unread_whole arg3 harg3 hz3, readAt_unread_whole arg4 harg4 hz2]
    rfl
  -- the running maximum: -∞ from the reset, read back, then the maximum with the block's row maxima
  isplitl [H9]
  · iexists _; isplitr
    swap; · iexact H9
    ipureintro
    sl_unfold_words
    rw [read_writes_cons_whole (S := S1024x1) _ _ hz2]
    rw [View.readCov_unit_zero (S := S1024x256) _ hz2, View.readCov_unit_zero (S := S1024x1) _ hz2, readAt_unread_whole arg3 harg3 hz3, readAt_unread_whole arg4 harg4 hz2, readAt_unread_whole arg5 harg5 hz3]
    rfl
  -- the running sum: 0 from the reset, read back, rescaled, plus the block's row sums of exponentials
  isplitl [H10]
  · iexists _; isplitr
    swap; · iexact H10
    ipureintro
    sl_unfold_words
    rw [read_writes_cons_whole (S := S1024x1) _ _ hz2]
    rw [View.readCov_unit_zero (S := S1024x256) _ hz2, View.readCov_unit_zero (S := S1024x1) _ hz2,
      View.readCov_unit_zero (S := S1024x1) _ hz2, readAt_unread_whole arg3 harg3 hz3, readAt_unread_whole arg4 harg4 hz2, readAt_unread_whole arg5 harg5 hz3]
    rfl
  -- the weighted sum: 0 from the reset, read back, rescaled, plus the block's exponentials times its values
  iexists _; isplitr
  swap; · iexact H11
  ipureintro
  sl_unfold_words
  rw [read_writes_cons_whole (S := S1024x256) _ _ hz2]
  rw [View.readCov_unit_zero (S := S1024x256) _ hz2, View.readCov_unit_zero (S := S1024x256) _ hz2,
    View.readCov_unit_zero (S := S1024x1) _ hz2, readAt_unread_whole arg3 harg3 hz3, readAt_unread_whole arg4 harg4 hz2, readAt_unread_whole arg5 harg5 hz3,
    readAt_unread_whole arg6 harg6 hz3]
  rfl

end Cert.Kernel.Hand

end
-- ==== Proof.K.Run1B.lean ====
/-
  The attention kernel's body at a middle key block: one step of the online softmax over the key block from the scratch
  the block before left; the result block is left alone.
-/
import proofs.«402299_j61332132987363_3_alg».proof.Proof.K.Step
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of a whole-buffer access of rank three are all zero. -/
private theorem hz3 : (![0, 0, 0] : Fin 3 → Nat) = fun _ => 0 := funext fun a => by fin_cases a <;> rfl

/-- The offsets of a whole-buffer access of rank two are all zero. -/
private theorem hz2 : (![0, 0] : Fin 2 → Nat) = fun _ => 0 := funext fun a => by fin_cases a <;> rfl

/-- One store through the whole buffer leaves its payload, whatever the buffer held. -/
private theorem read_writes_whole {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz]

/-- Neither branch taken: from the inputs' blocks, the result's buffer at xi and the scratch at the state s, the body runs
    to the continuation holding the inputs and the result's buffer as they were and the scratch one step on. -/
theorem run1_mid (c : Dev nD) (E : Set ℕ) (i : grid1.Coords)
    (arg3 : Memref sig .tc .vmem S1x1024x256 .f32) (harg3 : arg3.IsWhole) (arg4 : Memref sig .tc .vmem S256x256 .bf16) (harg4 : arg4.IsWhole)
    (arg5 : Memref sig .tc .vmem S1x1024x256 .bf16) (harg5 : arg5.IsWhole) (arg6 : Memref sig .tc .vmem S1x1024x256 .bf16) (harg6 : arg6.IsWhole)
    (arg7 : Memref sig .tc .vmem S1x1024x256 .f32) (harg7 : arg7.IsWhole) (arg8 : Memref sig .tc .vmem S1024x256 .bf16) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x256 .f32) (harg11 : arg11.IsWhole)
    (hc0 : ¬ cond1_0 i) (hc1 : ¬ cond1_1 i)
    (x : Vec F S1x1024x256 .f32) (wq : Vec F S256x256 .bf16) (kb vb : Vec F S1x1024x256 .bf16) (xi : Vec F S1x1024x256 .f32)
    (s : St F) (K : PUnit → sProp 𝕄) :
    iprop(owns (c : Thread nD τ) arg3 fullShare x ∗ owns (c : Thread nD τ) arg4 fullShare wq ∗ owns (c : Thread nD τ) arg5 fullShare kb ∗ owns (c : Thread nD τ) arg6 fullShare vb ∗ owns (c : Thread nD τ) arg7 fullShare xi
        ∗ owns (c : Thread nD τ) arg8 fullShare (s).1 ∗ owns (c : Thread nD τ) arg9 fullShare (s).2.1 ∗ owns (c : Thread nD τ) arg10 fullShare (s).2.2.1 ∗ owns (c : Thread nD τ) arg11 fullShare (s).2.2.2
        ∗ (iprop(owns (c : Thread nD τ) arg3 fullShare x ∗ owns (c : Thread nD τ) arg4 fullShare wq ∗ owns (c : Thread nD τ) arg5 fullShare kb ∗ owns (c : Thread nD τ) arg6 fullShare vb ∗ owns (c : Thread nD τ) arg7 fullShare xi
            ∗ owns (c : Thread nD τ) arg8 fullShare (stStep s kb vb).1 ∗ owns (c : Thread nD τ) arg9 fullShare (stStep s kb vb).2.1 ∗ owns (c : Thread nD τ) arg10 fullShare (stStep s kb vb).2.2.1 ∗ owns (c : Thread nD τ) arg11 fullShare (stStep s kb vb).2.2.2) -∗ K ⟨⟩))
      ⊢ wp frame (wpE (defs₀ (F := F)) Variants.none c none) E (cc1_flash_attn_kernel i arg3 harg3 arg4 harg4 arg5 harg5 arg6 harg6 arg7 harg7 arg8 harg8 arg9 harg9 arg10 harg10 arg11 harg11) K := by
  sl_unfold [cc1_flash_attn_kernel]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  sl_exec (disch := first | exact hc0 | exact hc1)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro
    rw [read_writes_whole _ _ hz2]
    sl_unfold_words
    simp only [View.readAt_eq_ld, harg5.read_unread, harg8.read_unread, harg9.read_unread,
      View.ld_unit_zero (S := S1024x256) hz2, View.ld_unit_zero (S := S1024x1) hz2, View.ld_unit_zero (S := S1x1024x256) hz3]
    rfl
  isplitl [H10]
  · iexists _; isplitr; swap; · iexact H10
    ipureintro
    rw [read_writes_whole _ _ hz2]
    simp only [View.readAt_eq_ld, harg5.read_unread, harg8.read_unread, harg9.read_unread, harg10.read_unread,
      View.ld_unit_zero (S := S1024x256) hz2, View.ld_unit_zero (S := S1024x1) hz2, View.ld_unit_zero (S := S1x1024x256) hz3]
    rfl
  iexists _; isplitr; swap; · iexact H11
  ipureintro
  rw [read_writes_whole _ _ hz2]
  sl_unfold_words
  simp only [View.readAt_eq_ld, harg5.read_unread, harg6.read_unread, harg8.read_unread, harg9.read_unread, harg11.read_unread,
    View.ld_unit_zero (S := S1024x256) hz2, View.ld_unit_zero (S := S1024x1) hz2, View.ld_unit_zero (S := S1x1024x256) hz3]
  rfl

end Cert.Kernel.Hand

end
-- ==== Proof.K.Run1C.lean ====
/-
  The attention kernel's body at the last key block of a query block: one step of the online softmax, then the result
  block written whole: the input rows times the weighted sum over the row sum.
-/
import proofs.«402299_j61332132987363_3_alg».proof.Proof.K.Step
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of a whole-buffer access of rank three are all zero. -/
private theorem hz3 : (![0, 0, 0] : Fin 3 → Nat) = fun _ => 0 := funext fun a => by fin_cases a <;> rfl

/-- The offsets of a whole-buffer access of rank two are all zero. -/
private theorem hz2 : (![0, 0] : Fin 2 → Nat) = fun _ => 0 := funext fun a => by fin_cases a <;> rfl

/-- One store through the whole buffer leaves its payload, whatever the buffer held. -/
private theorem read_writes_whole {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz]

/-- The write branch taken, the reset branch not: from the inputs' blocks, the result's buffer at anything and the scratch
    at the state s, the body runs to the continuation holding the inputs as they were, the scratch one step on and the
    result's buffer at the rows read off that state. -/
theorem run1_last (c : Dev nD) (E : Set ℕ) (i : grid1.Coords)
    (arg3 : Memref sig .tc .vmem S1x1024x256 .f32) (harg3 : arg3.IsWhole) (arg4 : Memref sig .tc .vmem S256x256 .bf16) (harg4 : arg4.IsWhole)
    (arg5 : Memref sig .tc .vmem S1x1024x256 .bf16) (harg5 : arg5.IsWhole) (arg6 : Memref sig .tc .vmem S1x1024x256 .bf16) (harg6 : arg6.IsWhole)
    (arg7 : Memref sig .tc .vmem S1x1024x256 .f32) (harg7 : arg7.IsWhole) (arg8 : Memref sig .tc .vmem S1024x256 .bf16) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x256 .f32) (harg11 : arg11.IsWhole)
    (hc0 : ¬ cond1_0 i) (hc1 : cond1_1 i)
    (x : Vec F S1x1024x256 .f32) (wq : Vec F S256x256 .bf16) (kb vb : Vec F S1x1024x256 .bf16)
    (s : St F) (K : PUnit → sProp 𝕄) :
    iprop(owns (c : Thread nD τ) arg3 fullShare x ∗ owns (c : Thread nD τ) arg4 fullShare wq ∗ owns (c : Thread nD τ) arg5 fullShare kb ∗ owns (c : Thread nD τ) arg6 fullShare vb ∗ (∃ d, owns (c : Thread nD τ) arg7 fullShare d)
        ∗ owns (c : Thread nD τ) arg8 fullShare (s).1 ∗ owns (c : Thread nD τ) arg9 fullShare (s).2.1 ∗ owns (c : Thread nD τ) arg10 fullShare (s).2.2.1 ∗ owns (c : Thread nD τ) arg11 fullShare (s).2.2.2
        ∗ (iprop(owns (c : Thread nD τ) arg3 fullShare x ∗ owns (c : Thread nD τ) arg4 fullShare wq ∗ owns (c : Thread nD τ) arg5 fullShare kb ∗ owns (c : Thread nD τ) arg6 fullShare vb ∗ owns (c : Thread nD τ) arg7 fullShare (outOf (stStep s kb vb) x)
            ∗ owns (c : Thread nD τ) arg8 fullShare (stStep s kb vb).1 ∗ owns (c : Thread nD τ) arg9 fullShare (stStep s kb vb).2.1 ∗ owns (c : Thread nD τ) arg10 fullShare (stStep s kb vb).2.2.1 ∗ owns (c : Thread nD τ) arg11 fullShare (stStep s kb vb).2.2.2) -∗ K ⟨⟩))
      ⊢ wp frame (wpE (defs₀ (F := F)) Variants.none c none) E (cc1_flash_attn_kernel i arg3 harg3 arg4 harg4 arg5 harg5 arg6 harg6 arg7 harg7 arg8 harg8 arg9 harg9 arg10 harg10 arg11 harg11) K := by
  sl_unfold [cc1_flash_attn_kernel]
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5
  obtain rfl := harg6.eq_unread hf6; obtain rfl := harg8.eq_unread hf8
  obtain rfl := harg9.eq_unread hf9; obtain rfl := harg10.eq_unread hf10; obtain rfl := harg11.eq_unread hf11
  sl_exec (disch := first | exact hc0 | exact hc1)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro
    sl_unfold_words
    rw [read_writes_whole _ _ hz3, View.readCov_unit_zero (S := S1024x256) _ hz2, View.readCov_unit_zero (S := S1024x1) _ hz2]
    simp only [View.readAt_eq_ld, harg3.read_unread, harg5.read_unread, harg6.read_unread, harg8.read_unread, harg9.read_unread,
      harg10.read_unread, harg11.read_unread,
      View.ld_unit_zero (S := S1024x256) hz2, View.ld_unit_zero (S := S1024x1) hz2, View.ld_unit_zero (S := S1x1024x256) hz3]
    rfl
  isplitl [H8]
  · iexists _; isplitr; swap; · iexact H8
    ipureintro; exact harg8.read_unread _
  isplitl [H9]
  · iexists _; isplitr; swap; · iexact H9
    ipureintro
    sl_unfold_words
    rw [read_writes_whole _ _ hz2]
    simp only [View.readAt_eq_ld, harg5.read_unread, harg8.read_unread, harg9.read_unread,
      View.ld_unit_zero (S := S1024x256) hz2, View.ld_unit_zero (S := S1024x1) hz2, View.ld_unit_zero (S := S1x1024x256) hz3]
    rfl
  isplitl [H10]
  · iexists _; isplitr; swap; · iexact H10
    ipureintro
    sl_unfold_words
    rw [read_writes_whole _ _ hz2]
    simp only [View.readAt_eq_ld, harg5.read_unread, harg8.read_unread, harg9.read_unread, harg10.read_unread,
      View.ld_unit_zero (S := S1024x256) hz2, View.ld_unit_zero (S := S1024x1) hz2, View.ld_unit_zero (S := S1x1024x256) hz3]
    rfl
  iexists _; isplitr; swap; · iexact H11
  ipureintro
  sl_unfold_words
  rw [read_writes_whole _ _ hz2]
  simp only [View.readAt_eq_ld, harg5.read_unread, harg6.read_unread, harg8.read_unread, harg9.read_unread, harg11.read_unread,
    View.ld_unit_zero (S := S1024x256) hz2, View.ld_unit_zero (S := S1024x1) hz2, View.ld_unit_zero (S := S1x1024x256) hz3]
  rfl

end Cert.Kernel.Hand

end
-- ==== Proof.K.Dat1.lean ====
/-
  The attention kernel's region: the four scratch arrays are carried from one key block to the next, so the region's
  invariant names their contents after every grid point (the state after the point's step; before the first point they
  hold anything). The inputs' buffers hold their blocks at every point; the result block is written at the last key
  block of a query block and left alone (and not written back) at the others.
-/
import proofs.«402299_j61332132987363_3_alg».proof.Proof.K.Run1A
import proofs.«402299_j61332132987363_3_alg».proof.Proof.K.Run1B
import proofs.«402299_j61332132987363_3_alg».proof.Proof.K.Run1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Where the result window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S1x1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x256 .f32 := win1_4.stage (cfg1.slots t 4)
abbrev hs1_4 (t : Fin cfg1.N) : (ms1_4 t).IsWhole := hstage1_4 ((cfg1.slots t 4).cast nbuf1_4)
abbrev scM0 : Memref sig .tc .vmem S1024x256 .bf16 := Memref.whole cc1_scratch0
abbrev scM1 : Memref sig .tc .vmem S1024x1 .f32 := Memref.whole cc1_scratch1
abbrev scM2 : Memref sig .tc .vmem S1024x1 .f32 := Memref.whole cc1_scratch2
abbrev scM3 : Memref sig .tc .vmem S1024x256 .f32 := Memref.whole cc1_scratch3

/-- The class's invariant with the four scratch arrays as memrefs owned at some contents; the other scoped buffers (the
    projection kernel's staging buffers) ride along at anything. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest1_eq]; simp only [scM0, scM1, scM2, scM3, owns_whole]; try rfl

/-! ## The invariant: the scratch after each point -/

/-- Before the first point the class's invariant (every scratch at anything); before point n + 1 the four scratch arrays
    at the state the point at position n left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM0 fullShare (stAt V c n hn).1 ∗ owns (c : Thread nD τ) scM1 fullShare (stAt V c n hn).2.1 ∗ owns (c : Thread nD τ) scM2 fullShare (stAt V c n hn).2.2.1 ∗ owns (c : Thread nD τ) scM3 fullShare (stAt V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM0 fullShare (stAt V c n hn).1 ∗ owns (c : Thread nD τ) scM1 fullShare (stAt V c n hn).2.1 ∗ owns (c : Thread nD τ) scM2 fullShare (stAt V c n hn).2.2.1 ∗ owns (c : Thread nD τ) scM3 fullShare (stAt V c n hn).2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM0 fullShare (stAt V c (n - 1) (by omega)).1 ∗ owns (c : Thread nD τ) scM1 fullShare (stAt V c (n - 1) (by omega)).2.1 ∗ owns (c : Thread nD τ) scM2 fullShare (stAt V c (n - 1) (by omega)).2.2.1 ∗ owns (c : Thread nD τ) scM3 fullShare (stAt V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => oAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = oAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point, by the key-block coordinate: at the first key block the scratch is handed over at anything
    (the class's invariant at the very first point, else the state the query block before ended in, forgotten) and
    comes back one step from the reset state; at a middle one it goes from the state the point before left to one step
    on; at the last one also the result block is written. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · have hc0 : cond1_0 (grid1.coords t) := (hcond1_0 t).mpr h0
    have hc1 : ¬ cond1_1 (grid1.coords t) := fun h => by have := (hcond1_1 t).mp h; omega
    rw [Dat.leavesExact_idle (dat1 V c) 4 t (idleAt1_4 t hc1) (noFlush1_4 t hc1)]
    rw [stAt_first V c t h0]
    by_cases hz : t.val = 0
    · rw [PhiS_castSucc V c t, PhiS_zero V c _ _ hz, PhiA1_eq]
      iintro ⟨⟨⟨HA0, HA1, HA2, HA3, HA4, HA5, HA6, HS0, HS1, HS2, HS3⟩, Hg⟩, Ho, ⟨%d0, H0⟩, ⟨%d1, H1⟩, ⟨%d2, H2⟩, ⟨%d3, H3⟩, ⟨%d4, H4⟩⟩
      iapply (run1_first c Set.univ (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) scM3 (Memref.isWhole_whole _) hc0 hc1 (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HA0 HA1 HA2 HA3 HA4 HA5 HA6 HS0 HS1 HS2 HS3 Hg]
      · isplitr [Hg]
        swap; · iexact Hg
        isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HS0]; · iexact HS0
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HA0, HA1, HA2, HA3, HA4, HA5, HA6, HS0, HS1, HS2, HS3⟩, Hg⟩, Ho, ⟨%d0, H0⟩, ⟨%d1, H1⟩, ⟨%d2, H2⟩, ⟨%d3, H3⟩, ⟨%d4, H4⟩⟩
      iapply (run1_first c Set.univ (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) scM3 (Memref.isWhole_whole _) hc0 hc1 (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, HS0, HS1, HS2, HS3⟩
      isplitl [HA0 HA1 HA2 HA3 HA4 HA5 HA6 HS0 HS1 HS2 HS3 Hg]
      · isplitr [Hg]
        swap; · iexact Hg
        isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HS0]; · iexact HS0
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      iexists _; iexact H4
  · have hc0 : ¬ cond1_0 (grid1.coords t) := fun h => h0 ((hcond1_0 t).mp h)
    have hz : t.val ≠ 0 := fun e => h0 (by rw [e])
    rw [stAt_next V c t h0, PhiS_castSucc V c t, PhiS_pos V c _ _ hz]
    by_cases h1 : t.val % 4 = 3
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      unfold oAt
      rw [stAt_next V c t h0]
      iintro ⟨⟨⟨HA0, HA1, HA2, HA3, HA4, HA5, HA6, HS0, HS1, HS2, HS3⟩, Hg⟩, Ho, ⟨%d0, H0⟩, ⟨%d1, H1⟩, ⟨%d2, H2⟩, ⟨%d3, H3⟩, ⟨%d4, H4⟩⟩
      iapply (run1_last c Set.univ (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) scM3 (Memref.isWhole_whole _) hc0 hc1 (iblk1 V c 0 t) (iblk1 V c 1 t) (iblk1 V c 2 t) (iblk1 V c 3 t) (stAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HA0 HA1 HA2 HA3 HA4 HA5 HA6 HS0 HS1 HS2 HS3 Hg]
      · isplitr [Hg]
        swap; · iexact Hg
        isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HS0]; · iexact HS0
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      iexact H4
    · have hc1 : ¬ cond1_1 (grid1.coords t) := fun h => h1 ((hcond1_1 t).mp h)
      rw [Dat.leavesExact_idle (dat1 V c) 4 t (idleAt1_4 t hc1) (noFlush1_4 t hc1)]
      iintro ⟨⟨⟨HA0, HA1, HA2, HA3, HA4, HA5, HA6, HS0, HS1, HS2, HS3⟩, Hg⟩, Ho, ⟨%d0, H0⟩, ⟨%d1, H1⟩, ⟨%d2, H2⟩, ⟨%d3, H3⟩, ⟨%d4, H4⟩⟩
      iapply (run1_mid c Set.univ (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) scM3 (Memref.isWhole_whole _) hc0 hc1 (iblk1 V c 0 t) (iblk1 V c 1 t) (iblk1 V c 2 t) (iblk1 V c 3 t) ((dat1 V c).before 4 t d4) (stAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HA0 HA1 HA2 HA3 HA4 HA5 HA6 HS0 HS1 HS2 HS3 Hg]
      · isplitr [Hg]
        swap; · iexact Hg
        isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HS0]; · iexact HS0
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl,
    PhiS_pos V c _ _ hne, PhiA1_eq]
  iintro ⟨⟨HA0, HA1, HA2, HA3, HA4, HA5, HA6, HS0, HS1, HS2, HS3⟩, Hg⟩
  isplitr [Hg]
  swap; · iexact Hg
  isplitl [HA0]; · iexact HA0
  isplitl [HA1]; · iexact HA1
  isplitl [HA2]; · iexact HA2
  isplitl [HA3]; · iexact HA3
  isplitl [HA4]; · iexact HA4
  isplitl [HA5]; · iexact HA5
  isplitl [HA6]; · iexact HA6
  isplitl [HS0]; · iexists _; iexact HS0
  isplitl [HS1]; · iexists _; iexact HS1
  isplitl [HS2]; · iexists _; iexact HS2
  iexists _; iexact HS3

end Cert.Kernel.Hand

end
-- ==== Proof.K.Launch.lean ====
/-
  The program's run: the host stretch before the kernels, the projection region, the attention region, the closing
  reshape. Between two items every unscoped buffer of the core is held at a named valuation: the launch memory, then
  what the host stretch computes, then each region's arrays overwritten by what its write-backs leave. Every weakly
  fair execution terminates with every unscoped buffer at the last valuation.
-/
import proofs.«402299_j61332132987363_3_alg».proof.Proof.K.Dat0
import proofs.«402299_j61332132987363_3_alg».proof.Proof.K.Dat1
import proofs.«402299_j61332132987363_3_alg».proof.Proof.Gen.Kernel.Regions

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host stretch before the kernels. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: its arrays at what its write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the closing reshape. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection region: entered from every unscoped buffer at the contents after the host stretch, left with its
    arrays at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from the contents the projection region left, left with its result array at what its
    write-backs leave; the scratch's named contents go back into the scoped rest at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- From any memory with zero counters every weakly fair execution of the program terminates, nothing faulting, with every
    unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.Hand

end
-- ==== Proof.K.Ends.lean ====
/-
  What the last valuation holds at the buffers the claims read: each argument as launched (no host operation writes one,
  no region may change one), the result the closing reshape of what the attention region's write-backs leave.
-/
import proofs.«402299_j61332132987363_3_alg».proof.Proof.K.Launch
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W4_of (c : Dev nD) (r : Ref sig .tc) (h : r ∉ hostOps2_W) : W4 m c (Proc.devRef .tc r) = W3 m c (Proc.devRef .tc r) :=
  StableHlo.after_of_writes_sub hostOps2 _ hostOps2_writes h

theorem W4_main_arg0 (c : Dev nD) : W4 m c (Proc.devRef .tc main_arg0) = m ((c : Thread nD τ).loc main_arg0) :=
  (W4_of m c main_arg0 (by decide)).trans <| (W3_of_ne m c main_arg0 (by decide)).trans <| (W2_of_ne m c main_arg0 (by decide)).trans <|
    (W1_of m c main_arg0 (by decide)).trans rfl
theorem W4_main_arg1 (c : Dev nD) : W4 m c (Proc.devRef .tc main_arg1) = m ((c : Thread nD τ).loc main_arg1) :=
  (W4_of m c main_arg1 (by decide)).trans <| (W3_of_ne m c main_arg1 (by decide)).trans <| (W2_of_ne m c main_arg1 (by decide)).trans <|
    (W1_of m c main_arg1 (by decide)).trans rfl
theorem W4_main_arg2 (c : Dev nD) : W4 m c (Proc.devRef .tc main_arg2) = m ((c : Thread nD τ).loc main_arg2) :=
  (W4_of m c main_arg2 (by decide)).trans <| (W3_of_ne m c main_arg2 (by decide)).trans <| (W2_of_ne m c main_arg2 (by decide)).trans <|
    (W1_of m c main_arg2 (by decide)).trans rfl
theorem W4_main_arg3 (c : Dev nD) : W4 m c (Proc.devRef .tc main_arg3) = m ((c : Thread nD τ).loc main_arg3) :=
  (W4_of m c main_arg3 (by decide)).trans <| (W3_of_ne m c main_arg3 (by decide)).trans <| (W2_of_ne m c main_arg3 (by decide)).trans <|
    (W1_of m c main_arg3 (by decide)).trans rfl

/-- The result buffer: the closing reshape of the attention region's result array. -/
theorem W4_main_v7 (c : Dev nD) :
    W4 m c (Proc.devRef .tc main_v7)
      = shapeCast S8x64x64x256 ((dat1 (V2 m) c).arrAt 4 cfg1.N) shapeCasts_S8x4096x256_S8x64x64x256 := by
  have e : W4 m c (Proc.devRef .tc main_v7)
      = shapeCast S8x64x64x256 (W3 m c (Proc.devRef .tc main_v6)) shapeCasts_S8x4096x256_S8x64x64x256 := by
    show StableHlo.after hostOps2 (W3 m c) (Proc.devRef .tc main_v7) = _
    after_results
    rfl
  rw [e]
  exact congrArg (fun z => shapeCast S8x64x64x256 z shapeCasts_S8x4096x256_S8x64x64x256) (W3_arr m c 4)

/-- The frame claim's post from the run's. -/
theorem frame_of_run (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.Kernel.Hand

end
-- ==== Proof.KI.Step.lean ====
/-
  What the two kernels compute at a grid point, as pure functions of the blocks they are handed.

  The projection kernel stores two column halves of one product. The attention kernel keeps four scratch arrays
  between the key blocks of one query block: the projected queries, the running row maximum, the running row sum of
  exponentials and the running weighted sum of value rows. At the first key block it resets them; at every key block
  it moves them one step of the online softmax; at the last key block it writes the query block's rows of the result,
  the input rows times the weighted sum over the row sum.
-/
import proofs.«402299_j61332132987363_3_alg».proof.Proof.Gen.KernelIdeal.Skeleton
import proofs.«402299_j61332132987363_3_alg».proof.Proof.Gen.KernelIdeal.Launch
import proofs.«402299_j61332132987363_3_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.Sem
open Cert.KernelIdeal Cert.KernelIdeal.Gen
open Idealize.ShloMosaic.Pipeline (Dat)

variable {F : FTy → Type} [FloatOps F]

/-! ## The attention kernel's carried state -/

/-- The four scratch arrays: projected queries, running row maximum, running row sum, running weighted sum. -/
abbrev St (F : FTy → Type) [FloatOps F] : Type :=
  Vec F S1024x256 .bf16 × Vec F S1024x1 .f32 × Vec F S1024x1 .f32 × Vec F S1024x256 .f32

/-- The state a query block starts from: the queries projected from the input rows, the maximum at -∞, the sums at 0. -/
def stInit (x : Vec F S1x1024x256 .f32) (wq : Vec F S256x256 .bf16) : St F :=
  (k1_pay4 x wq, k1_pay5 (F := F), k1_pay6 (F := F), k1_pay7 (F := F))

/-- One key block: the scores of the queries against the block's keys move the maximum, rescale the row sum and the
    weighted sum, and add the block's exponentials and its exponentials times the block's values. -/
def stStep (s : St F) (kb vb : Vec F S1x1024x256 .bf16) : St F :=
  (s.1,
   k1_pay2 (k1_pay10 s.1 kb s.2.1),
   k1_pay13 s.1 kb s.2.1 s.2.1 s.2.2.1,
   k1_pay1 (k1_pay8 vb) (k1_pay14 s.1 kb s.2.1 s.2.1 s.2.2.2) (k1_pay15 s.1 kb s.2.1)
     (constant S1024x256 .f32 0x00000000#32))

/-- The rows written at the last key block: the input rows times the weighted sum over the row sum. -/
def outOf (s : St F) (x : Vec F S1x1024x256 .f32) : Vec F S1x1024x256 .f32 :=
  k1_pay3 s.2.2.2 s.2.2.1 x

/-! ## The branch conditions of the attention kernel, over the grid -/

/-- The reset branch is taken: the key-block coordinate is 0. -/
abbrev cond1_0 (i : grid1.Coords) : Prop :=
  (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The write branch is taken: the key-block coordinate is the last one. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## The blocks a point is handed, read off the arrays a region finds -/

section Blocks

variable (V : (c : Dev nD) → (b : Ref sig .tc) → Buf (Elt F) ((c : Thread nD τ).loc b))

/-- Window `w`'s block of the projection kernel at point `t`. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Window `w`'s block of the attention kernel at point `t`. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The projection kernel's two results at a point: the key half and the value half of the product. -/
def kOut (c : Dev nD) (t : Fin cfg0.N) : Vec F S1x1024x256 .bf16 := k0_pay2 (iblk0 V c 0 t) (iblk0 V c 1 t)
def vOut (c : Dev nD) (t : Fin cfg0.N) : Vec F S1x1024x256 .bf16 := k0_pay3 (iblk0 V c 0 t) (iblk0 V c 1 t)

/-- The attention kernel's scratch after the point at position `n`: a reset and a step at the first key block of a
    query block, a step over what the point before left otherwise. -/
def stAt (c : Dev nD) : (n : ℕ) → n < cfg1.N → St F
  | 0, hn => stStep (stInit (iblk1 V c 0 ⟨0, hn⟩) (iblk1 V c 1 ⟨0, hn⟩)) (iblk1 V c 2 ⟨0, hn⟩) (iblk1 V c 3 ⟨0, hn⟩)
  | n + 1, hn =>
    if (n + 1) % 4 = 0 then
      stStep (stInit (iblk1 V c 0 ⟨n + 1, hn⟩) (iblk1 V c 1 ⟨n + 1, hn⟩)) (iblk1 V c 2 ⟨n + 1, hn⟩) (iblk1 V c 3 ⟨n + 1, hn⟩)
    else
      stStep (stAt c n (Nat.lt_of_succ_lt hn)) (iblk1 V c 2 ⟨n + 1, hn⟩) (iblk1 V c 3 ⟨n + 1, hn⟩)

/-- At the first key block of a query block. -/
theorem stAt_first (c : Dev nD) (t : Fin cfg1.N) (h : t.val % 4 = 0) :
    stAt V c t.val t.isLt = stStep (stInit (iblk1 V c 0 t) (iblk1 V c 1 t)) (iblk1 V c 2 t) (iblk1 V c 3 t) := by
  obtain ⟨n, hn⟩ := t
  cases n with
  | zero => rfl
  | succ n => exact if_pos h

/-- At a later key block. -/
theorem stAt_next (c : Dev nD) (t : Fin cfg1.N) (h : ¬ t.val % 4 = 0) :
    stAt V c t.val t.isLt
      = stStep (stAt V c (t.val - 1) (Nat.lt_of_le_of_lt (Nat.sub_le _ _) t.isLt)) (iblk1 V c 2 t) (iblk1 V c 3 t) := by
  obtain ⟨n, hn⟩ := t
  cases n with
  | zero => exact absurd (Nat.zero_mod _) h
  | succ n => exact if_neg h

/-- What the attention kernel leaves in its result window at the point at position `n` (meaningful at the last key
    block of a query block; elsewhere the window is idle and this is never consulted). -/
def oAt (c : Dev nD) (t : Fin cfg1.N) : Vec F S1x1024x256 .f32 :=
  outOf (stAt V c t.val t.isLt) (iblk1 V c 0 t)

end Blocks

end Cert.KernelIdeal.Hand

end
-- ==== Proof.KI.Run0.lean ====
/-
  The projection kernel's body at a grid point: it reads the input rows and the packed weights and stores the key half
  and the value half of their product into its two result blocks, whole.
-/
import proofs.«402299_j61332132987363_3_alg».proof.Proof.KI.Step
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of the full rectangle of a rank-three block are all zero. -/
private theorem offs3_zero : (![0, 0, 0] : Fin S1x1024x256.rank → Nat) = fun _ => 0 :=
  funext fun a => by fin_cases a <;> rfl

/-- The offsets of the full rectangle of the weights' block are all zero. -/
private theorem offs2_zero : (![0, 0] : Fin S256x512.rank → Nat) = fun _ => 0 :=
  funext fun a => by fin_cases a <;> rfl

/-- One store through the full rectangle of a result block tiles the block, so it covers it. -/
private theorem cover_full (p : Vec F S1x1024x256 .bf16) (y : S1x1024x256.Idx) :
    ∃ pc ∈ ([⟨Rect.unit (s := S1x1024x256) ![0, 0, 0] S1x1024x256.size inb_S1x1024x256_S1x1024x256_0_0_0, p⟩] :
        List (View.Piece (Elt F) S1x1024x256 .bf16)), y ∈ pc.1.set :=
  View.cover_of_tiled [⟨Rect.unit (s := S1x1024x256) ![0, 0, 0] S1x1024x256.size inb_S1x1024x256_S1x1024x256_0_0_0, p⟩]
    S1x1024x256.size (by rfl) y

/-- On whole staging memrefs, the inputs' at contents x0 and x1 and the results' at anything, the body runs to the
    continuation holding the inputs' as they were and the results' at the two halves of the product. -/
theorem sound_kernel0 (c : Dev nD) (E : Set ℕ) (i : grid0.Coords)
    (arg2 : Memref sig .tc .vmem S1x1024x256 .f32) (harg2 : arg2.IsWhole) (arg3 : Memref sig .tc .vmem S256x512 .bf16) (harg3 : arg3.IsWhole)
    (arg4 : Memref sig .tc .vmem S1x1024x256 .bf16) (harg4 : arg4.IsWhole) (arg5 : Memref sig .tc .vmem S1x1024x256 .bf16) (harg5 : arg5.IsWhole)
    (x0 : Vec F S1x1024x256 .f32) (x1 : Vec F S256x512 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay3 x0 x1)) -∗ K ⟨⟩))
      ⊢ wp frame (wpE (defs₀ (F := F)) Variants.none c none) E (cc0_kv_proj_kernel i arg2 harg2 arg3 harg3 arg4 harg4 arg5 harg5) K := by
  simp only [cc0_kv_proj_kernel_eq_skeleton]; unfold cc0_kv_proj_kernel_skel
  unfold owns
  iintro ⟨⟨%f0, %hf0, H0⟩, ⟨%f1, %hf1, H1⟩, ⟨%d4, %f4, -, H4⟩, ⟨%d5, %f5, -, H5⟩, Hk⟩
  subst hf0
  subst hf1
  sl_exec
  sl_step
  iapply Hk
  -- the inputs' blocks are held as they were
  isplitl [H0]
  · iexists f0; isplitr; · ipureintro; rfl
    iexact H0
  isplitl [H1]
  · iexists f1; isplitr; · ipureintro; rfl
    iexact H1
  -- the key half: the one store covers the block, so the block reads as the payload, and a load through the
  -- full rectangle reads the whole input
  isplitl [H4]
  · iexists _; isplitr
    swap; · iexact H4
    ipureintro
    rw [View.read_writes_eq_canon _ _ _ (cover_full _), View.canon_unit_zero offs3_zero]
    simp only [View.readAt_eq_ld, View.ld_unit_zero (S := S1x1024x256) offs3_zero,
      View.ld_unit_zero (S := S256x512) offs2_zero]
  -- the value half, the same way
  iexists _; isplitr
  swap; · iexact H5
  ipureintro
  rw [View.read_writes_eq_canon _ _ _ (cover_full _), View.canon_unit_zero offs3_zero]
  simp only [View.readAt_eq_ld, View.ld_unit_zero (S := S1x1024x256) offs3_zero,
    View.ld_unit_zero (S := S256x512) offs2_zero]

end Cert.KernelIdeal.Hand

end
-- ==== Proof.KI.Dat0.lean ====
/-
  The projection kernel's region: what each window's staging buffer holds after the body at every grid point, and that
  the body does leave exactly that. Both inputs stay at their blocks (the rows' block changes with the point, the packed
  weights' never does); the two results hold the key half and the value half of the product of the point's blocks.
-/
import proofs.«402299_j61332132987363_3_alg».proof.Proof.KI.Run0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The proof data -/

/-- The arrays as the region finds them; after the body each input's buffer at its block and the results' at the two
    halves of the product; the invariant the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => kOut V c t
    | ⟨3, _⟩ => vOut V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = kOut V c t := by dsimp only [dat0]
theorem after0_3 (c : Dev nD) (t : Fin cfg0.N) : (dat0 V c).after 3 t = vOut V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the kernel's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Run1A.lean ====
/-
  The attention kernel's body at the first key block of a query block: it resets the four scratch arrays from the input
  rows and the query weights, takes one step of the online softmax over the key block, and leaves the result block alone.
-/
import proofs.«402299_j61332132987363_3_alg».proof.Proof.KI.Step
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-two block, however they are spelt. -/
private theorem hz2 : (![0, 0] : Fin 2 → Nat) = fun _ => 0 := funext fun a => by fin_cases a <;> rfl

/-- The zero offsets of a rank-three block. -/
private theorem hz3 : (![0, 0, 0] : Fin 3 → Nat) = fun _ => 0 := funext fun a => by fin_cases a <;> rfl

section Whole

variable {sig' : RefSig} {κ : Kind} {sp : Space} {S : Shape} {e : EltTy} {Val : EltTy → Type} [∀ e, Nonempty (Val e)]

/-- After a last store through its whole block a buffer reads as that store's payload, whatever was stored before:
    the store's rectangle holds every index, so the earlier pieces and the prior contents are not consulted. -/
private theorem read_writes_cons_whole (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _
      (fun y => ⟨⟨Rect.unit off S.size inb, w⟩, List.mem_cons_self, View.mem_set_unit_zero h inb y⟩),
    View.canon_cons_unit_zero h]

/-- A load of a whole buffer whose contents read as `X` reads `X`. -/
private theorem readAt_unread_whole (m : Memref sig' κ sp S e) (hm : m.IsWhole) {off : Fin S.rank → Nat}
    (h : off = fun _ => 0) (inb : ∀ a, off a + S.size a ≤ S.size a) (X : S.Idx → Val e) :
    View.readAt Val m.view (Rect.unit off S.size inb).toLoadRect (hm.unread X) = X := by
  rw [View.readAt_eq_ld, hm.read_unread, View.ld_unit_zero h]

end Whole

set_option maxHeartbeats 4000000 in
/-- The reset branch taken, the write branch not: from the four inputs' blocks, the result's buffer at xi and the scratch
    at anything, the body runs to the continuation holding the inputs and the result's buffer as they were and the
    scratch at one step from the reset state. -/
theorem run1_first (c : Dev nD) (E : Set ℕ) (i : grid1.Coords)
    (arg3 : Memref sig .tc .vmem S1x1024x256 .f32) (harg3 : arg3.IsWhole) (arg4 : Memref sig .tc .vmem S256x256 .bf16) (harg4 : arg4.IsWhole)
    (arg5 : Memref sig .tc .vmem S1x1024x256 .bf16) (harg5 : arg5.IsWhole) (arg6 : Memref sig .tc .vmem S1x1024x256 .bf16) (harg6 : arg6.IsWhole)
    (arg7 : Memref sig .tc .vmem S1x1024x256 .f32) (harg7 : arg7.IsWhole) (arg8 : Memref sig .tc .vmem S1024x256 .bf16) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x256 .f32) (harg11 : arg11.IsWhole)
    (hc0 : cond1_0 i) (hc1 : ¬ cond1_1 i)
    (x : Vec F S1x1024x256 .f32) (wq : Vec F S256x256 .bf16) (kb vb : Vec F S1x1024x256 .bf16) (xi : Vec F S1x1024x256 .f32)
    (K : PUnit → sProp 𝕄) :
    iprop(owns (c : Thread nD τ) arg3 fullShare x ∗ owns (c : Thread nD τ) arg4 fullShare wq ∗ owns (c : Thread nD τ) arg5 fullShare kb ∗ owns (c : Thread nD τ) arg6 fullShare vb ∗ owns (c : Thread nD τ) arg7 fullShare xi
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg3 fullShare x ∗ owns (c : Thread nD τ) arg4 fullShare wq ∗ owns (c : Thread nD τ) arg5 fullShare kb ∗ owns (c : Thread nD τ) arg6 fullShare vb ∗ owns (c : Thread nD τ) arg7 fullShare xi
            ∗ owns (c : Thread nD τ) arg8 fullShare (stStep (stInit x wq) kb vb).1 ∗ owns (c : Thread nD τ) arg9 fullShare (stStep (stInit x wq) kb vb).2.1 ∗ owns (c : Thread nD τ) arg10 fullShare (stStep (stInit x wq) kb vb).2.2.1 ∗ owns (c : Thread nD τ) arg11 fullShare (stStep (stInit x wq) kb vb).2.2.2) -∗ K ⟨⟩))
      ⊢ wp frame (wpE (defs₀ (F := F)) Variants.none c none) E (cc1_flash_attn_kernel i arg3 harg3 arg4 harg4 arg5 harg5 arg6 harg6 arg7 harg7 arg8 harg8 arg9 harg9 arg10 harg10 arg11 harg11) K := by
  sl_unfold [cc1_flash_attn_kernel]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact hf7
    iexact H7
  -- the projected queries: stored once, by the reset
  isplitl [H8]
  · iexists _; isplitr
    swap; · iexact H8
    ipureintro
    sl_unfold_words
    rw [read_writes_cons_whole (S := S1024x256) _ _ hz2]
    rw [readAt_unread_whole arg3 harg3 hz3, readAt_unread_whole arg4 harg4 hz2]
    rfl
  -- the running maximum: -∞ from the reset, read back, then the maximum with the block's row maxima
  isplitl [H9]
  · iexists _; isplitr
    swap; · iexact H9
    ipureintro
    sl_unfold_words
    rw [read_writes_cons_whole (S := S1024x1) _ _ hz2]
    rw [View.readCov_unit_zero (S := S1024x256) _ hz2, View.readCov_unit_zero (S := S1024x1) _ hz2, readAt_unread_whole arg3 harg3 hz3, readAt_unread_whole arg4 harg4 hz2, readAt_unread_whole arg5 harg5 hz3]
    rfl
  -- the running sum: 0 from the reset, read back, rescaled, plus the block's row sums of exponentials
  isplitl [H10]
  · iexists _; isplitr
    swap; · iexact H10
    ipureintro
    sl_unfold_words
    rw [read_writes_cons_whole (S := S1024x1) _ _ hz2]
    rw [View.readCov_unit_zero (S := S1024x256) _ hz2, View.readCov_unit_zero (S := S1024x1) _ hz2,
      View.readCov_unit_zero (S := S1024x1) _ hz2, readAt_unread_whole arg3 harg3 hz3, readAt_unread_whole arg4 harg4 hz2, readAt_unread_whole arg5 harg5 hz3]
    rfl
  -- the weighted sum: 0 from the reset, read back, rescaled, plus the block's exponentials times its values
  iexists _; isplitr
  swap; · iexact H11
  ipureintro
  sl_unfold_words
  rw [read_writes_cons_whole (S := S1024x256) _ _ hz2]
  rw [View.readCov_unit_zero (S := S1024x256) _ hz2, View.readCov_unit_zero (S := S1024x256) _ hz2,
    View.readCov_unit_zero (S := S1024x1) _ hz2, readAt_unread_whole arg3 harg3 hz3, readAt_unread_whole arg4 harg4 hz2, readAt_unread_whole arg5 harg5 hz3,
    readAt_unread_whole arg6 harg6 hz3]
  rfl

end Cert.KernelIdeal.Hand

end
-- ==== Proof.KI.Run1B.lean ====
/-
  The attention kernel's body at a middle key block: one step of the online softmax over the key block from the scratch
  the block before left; the result block is left alone.
-/
import proofs.«402299_j61332132987363_3_alg».proof.Proof.KI.Step
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a whole-buffer access of rank three are all zero. -/
private theorem hz3 : (![0, 0, 0] : Fin 3 → Nat) = fun _ => 0 := funext fun a => by fin_cases a <;> rfl

/-- The offsets of a whole-buffer access of rank two are all zero. -/
private theorem hz2 : (![0, 0] : Fin 2 → Nat) = fun _ => 0 := funext fun a => by fin_cases a <;> rfl

/-- One store through the whole buffer leaves its payload, whatever the buffer held. -/
private theorem read_writes_whole {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz]

/-- Neither branch taken: from the inputs' blocks, the result's buffer at xi and the scratch at the state s, the body runs
    to the continuation holding the inputs and the result's buffer as they were and the scratch one step on. -/
theorem run1_mid (c : Dev nD) (E : Set ℕ) (i : grid1.Coords)
    (arg3 : Memref sig .tc .vmem S1x1024x256 .f32) (harg3 : arg3.IsWhole) (arg4 : Memref sig .tc .vmem S256x256 .bf16) (harg4 : arg4.IsWhole)
    (arg5 : Memref sig .tc .vmem S1x1024x256 .bf16) (harg5 : arg5.IsWhole) (arg6 : Memref sig .tc .vmem S1x1024x256 .bf16) (harg6 : arg6.IsWhole)
    (arg7 : Memref sig .tc .vmem S1x1024x256 .f32) (harg7 : arg7.IsWhole) (arg8 : Memref sig .tc .vmem S1024x256 .bf16) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x256 .f32) (harg11 : arg11.IsWhole)
    (hc0 : ¬ cond1_0 i) (hc1 : ¬ cond1_1 i)
    (x : Vec F S1x1024x256 .f32) (wq : Vec F S256x256 .bf16) (kb vb : Vec F S1x1024x256 .bf16) (xi : Vec F S1x1024x256 .f32)
    (s : St F) (K : PUnit → sProp 𝕄) :
    iprop(owns (c : Thread nD τ) arg3 fullShare x ∗ owns (c : Thread nD τ) arg4 fullShare wq ∗ owns (c : Thread nD τ) arg5 fullShare kb ∗ owns (c : Thread nD τ) arg6 fullShare vb ∗ owns (c : Thread nD τ) arg7 fullShare xi
        ∗ owns (c : Thread nD τ) arg8 fullShare (s).1 ∗ owns (c : Thread nD τ) arg9 fullShare (s).2.1 ∗ owns (c : Thread nD τ) arg10 fullShare (s).2.2.1 ∗ owns (c : Thread nD τ) arg11 fullShare (s).2.2.2
        ∗ (iprop(owns (c : Thread nD τ) arg3 fullShare x ∗ owns (c : Thread nD τ) arg4 fullShare wq ∗ owns (c : Thread nD τ) arg5 fullShare kb ∗ owns (c : Thread nD τ) arg6 fullShare vb ∗ owns (c : Thread nD τ) arg7 fullShare xi
            ∗ owns (c : Thread nD τ) arg8 fullShare (stStep s kb vb).1 ∗ owns (c : Thread nD τ) arg9 fullShare (stStep s kb vb).2.1 ∗ owns (c : Thread nD τ) arg10 fullShare (stStep s kb vb).2.2.1 ∗ owns (c : Thread nD τ) arg11 fullShare (stStep s kb vb).2.2.2) -∗ K ⟨⟩))
      ⊢ wp frame (wpE (defs₀ (F := F)) Variants.none c none) E (cc1_flash_attn_kernel i arg3 harg3 arg4 harg4 arg5 harg5 arg6 harg6 arg7 harg7 arg8 harg8 arg9 harg9 arg10 harg10 arg11 harg11) K := by
  sl_unfold [cc1_flash_attn_kernel]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  sl_exec (disch := first | exact hc0 | exact hc1)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro
    rw [read_writes_whole _ _ hz2]
    sl_unfold_words
    simp only [View.readAt_eq_ld, harg5.read_unread, harg8.read_unread, harg9.read_unread,
      View.ld_unit_zero (S := S1024x256) hz2, View.ld_unit_zero (S := S1024x1) hz2, View.ld_unit_zero (S := S1x1024x256) hz3]
    rfl
  isplitl [H10]
  · iexists _; isplitr; swap; · iexact H10
    ipureintro
    rw [read_writes_whole _ _ hz2]
    simp only [View.readAt_eq_ld, harg5.read_unread, harg8.read_unread, harg9.read_unread, harg10.read_unread,
      View.ld_unit_zero (S := S1024x256) hz2, View.ld_unit_zero (S := S1024x1) hz2, View.ld_unit_zero (S := S1x1024x256) hz3]
    rfl
  iexists _; isplitr; swap; · iexact H11
  ipureintro
  rw [read_writes_whole _ _ hz2]
  sl_unfold_words
  simp only [View.readAt_eq_ld, harg5.read_unread, harg6.read_unread, harg8.read_unread, harg9.read_unread, harg11.read_unread,
    View.ld_unit_zero (S := S1024x256) hz2, View.ld_unit_zero (S := S1024x1) hz2, View.ld_unit_zero (S := S1x1024x256) hz3]
  rfl

end Cert.KernelIdeal.Hand

end
-- ==== Proof.KI.Run1C.lean ====
/-
  The attention kernel's body at the last key block of a query block: one step of the online softmax, then the result
  block written whole: the input rows times the weighted sum over the row sum.
-/
import proofs.«402299_j61332132987363_3_alg».proof.Proof.KI.Step
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a whole-buffer access of rank three are all zero. -/
private theorem hz3 : (![0, 0, 0] : Fin 3 → Nat) = fun _ => 0 := funext fun a => by fin_cases a <;> rfl

/-- The offsets of a whole-buffer access of rank two are all zero. -/
private theorem hz2 : (![0, 0] : Fin 2 → Nat) = fun _ => 0 := funext fun a => by fin_cases a <;> rfl

/-- One store through the whole buffer leaves its payload, whatever the buffer held. -/
private theorem read_writes_whole {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz]

/-- The write branch taken, the reset branch not: from the inputs' blocks, the result's buffer at anything and the scratch
    at the state s, the body runs to the continuation holding the inputs as they were, the scratch one step on and the
    result's buffer at the rows read off that state. -/
theorem run1_last (c : Dev nD) (E : Set ℕ) (i : grid1.Coords)
    (arg3 : Memref sig .tc .vmem S1x1024x256 .f32) (harg3 : arg3.IsWhole) (arg4 : Memref sig .tc .vmem S256x256 .bf16) (harg4 : arg4.IsWhole)
    (arg5 : Memref sig .tc .vmem S1x1024x256 .bf16) (harg5 : arg5.IsWhole) (arg6 : Memref sig .tc .vmem S1x1024x256 .bf16) (harg6 : arg6.IsWhole)
    (arg7 : Memref sig .tc .vmem S1x1024x256 .f32) (harg7 : arg7.IsWhole) (arg8 : Memref sig .tc .vmem S1024x256 .bf16) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x256 .f32) (harg11 : arg11.IsWhole)
    (hc0 : ¬ cond1_0 i) (hc1 : cond1_1 i)
    (x : Vec F S1x1024x256 .f32) (wq : Vec F S256x256 .bf16) (kb vb : Vec F S1x1024x256 .bf16)
    (s : St F) (K : PUnit → sProp 𝕄) :
    iprop(owns (c : Thread nD τ) arg3 fullShare x ∗ owns (c : Thread nD τ) arg4 fullShare wq ∗ owns (c : Thread nD τ) arg5 fullShare kb ∗ owns (c : Thread nD τ) arg6 fullShare vb ∗ (∃ d, owns (c : Thread nD τ) arg7 fullShare d)
        ∗ owns (c : Thread nD τ) arg8 fullShare (s).1 ∗ owns (c : Thread nD τ) arg9 fullShare (s).2.1 ∗ owns (c : Thread nD τ) arg10 fullShare (s).2.2.1 ∗ owns (c : Thread nD τ) arg11 fullShare (s).2.2.2
        ∗ (iprop(owns (c : Thread nD τ) arg3 fullShare x ∗ owns (c : Thread nD τ) arg4 fullShare wq ∗ owns (c : Thread nD τ) arg5 fullShare kb ∗ owns (c : Thread nD τ) arg6 fullShare vb ∗ owns (c : Thread nD τ) arg7 fullShare (outOf (stStep s kb vb) x)
            ∗ owns (c : Thread nD τ) arg8 fullShare (stStep s kb vb).1 ∗ owns (c : Thread nD τ) arg9 fullShare (stStep s kb vb).2.1 ∗ owns (c : Thread nD τ) arg10 fullShare (stStep s kb vb).2.2.1 ∗ owns (c : Thread nD τ) arg11 fullShare (stStep s kb vb).2.2.2) -∗ K ⟨⟩))
      ⊢ wp frame (wpE (defs₀ (F := F)) Variants.none c none) E (cc1_flash_attn_kernel i arg3 harg3 arg4 harg4 arg5 harg5 arg6 harg6 arg7 harg7 arg8 harg8 arg9 harg9 arg10 harg10 arg11 harg11) K := by
  sl_unfold [cc1_flash_attn_kernel]
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5
  obtain rfl := harg6.eq_unread hf6; obtain rfl := harg8.eq_unread hf8
  obtain rfl := harg9.eq_unread hf9; obtain rfl := harg10.eq_unread hf10; obtain rfl := harg11.eq_unread hf11
  sl_exec (disch := first | exact hc0 | exact hc1)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro
    sl_unfold_words
    rw [read_writes_whole _ _ hz3, View.readCov_unit_zero (S := S1024x256) _ hz2, View.readCov_unit_zero (S := S1024x1) _ hz2]
    simp only [View.readAt_eq_ld, harg3.read_unread, harg5.read_unread, harg6.read_unread, harg8.read_unread, harg9.read_unread,
      harg10.read_unread, harg11.read_unread,
      View.ld_unit_zero (S := S1024x256) hz2, View.ld_unit_zero (S := S1024x1) hz2, View.ld_unit_zero (S := S1x1024x256) hz3]
    rfl
  isplitl [H8]
  · iexists _; isplitr; swap; · iexact H8
    ipureintro; exact harg8.read_unread _
  isplitl [H9]
  · iexists _; isplitr; swap; · iexact H9
    ipureintro
    sl_unfold_words
    rw [read_writes_whole _ _ hz2]
    simp only [View.readAt_eq_ld, harg5.read_unread, harg8.read_unread, harg9.read_unread,
      View.ld_unit_zero (S := S1024x256) hz2, View.ld_unit_zero (S := S1024x1) hz2, View.ld_unit_zero (S := S1x1024x256) hz3]
    rfl
  isplitl [H10]
  · iexists _; isplitr; swap; · iexact H10
    ipureintro
    sl_unfold_words
    rw [read_writes_whole _ _ hz2]
    simp only [View.readAt_eq_ld, harg5.read_unread, harg8.read_unread, harg9.read_unread, harg10.read_unread,
      View.ld_unit_zero (S := S1024x256) hz2, View.ld_unit_zero (S := S1024x1) hz2, View.ld_unit_zero (S := S1x1024x256) hz3]
    rfl
  iexists _; isplitr; swap; · iexact H11
  ipureintro
  sl_unfold_words
  rw [read_writes_whole _ _ hz2]
  simp only [View.readAt_eq_ld, harg5.read_unread, harg6.read_unread, harg8.read_unread, harg9.read_unread, harg11.read_unread,
    View.ld_unit_zero (S := S1024x256) hz2, View.ld_unit_zero (S := S1024x1) hz2, View.ld_unit_zero (S := S1x1024x256) hz3]
  rfl

end Cert.KernelIdeal.Hand

end
-- ==== Proof.KI.Dat1.lean ====
/-
  The attention kernel's region: the four scratch arrays are carried from one key block to the next, so the region's
  invariant names their contents after every grid point (the state after the point's step; before the first point they
  hold anything). The inputs' buffers hold their blocks at every point; the result block is written at the last key
  block of a query block and left alone (and not written back) at the others.
-/
import proofs.«402299_j61332132987363_3_alg».proof.Proof.KI.Run1A
import proofs.«402299_j61332132987363_3_alg».proof.Proof.KI.Run1B
import proofs.«402299_j61332132987363_3_alg».proof.Proof.KI.Run1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Where the result window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S1x1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x256 .f32 := win1_4.stage (cfg1.slots t 4)
abbrev hs1_4 (t : Fin cfg1.N) : (ms1_4 t).IsWhole := hstage1_4 ((cfg1.slots t 4).cast nbuf1_4)
abbrev scM0 : Memref sig .tc .vmem S1024x256 .bf16 := Memref.whole cc1_scratch0
abbrev scM1 : Memref sig .tc .vmem S1024x1 .f32 := Memref.whole cc1_scratch1
abbrev scM2 : Memref sig .tc .vmem S1024x1 .f32 := Memref.whole cc1_scratch2
abbrev scM3 : Memref sig .tc .vmem S1024x256 .f32 := Memref.whole cc1_scratch3

/-- The class's invariant with the four scratch arrays as memrefs owned at some contents; the other scoped buffers (the
    projection kernel's staging buffers) ride along at anything. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest1_eq]; simp only [scM0, scM1, scM2, scM3, owns_whole]; try rfl

/-! ## The invariant: the scratch after each point -/

/-- Before the first point the class's invariant (every scratch at anything); before point n + 1 the four scratch arrays
    at the state the point at position n left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM0 fullShare (stAt V c n hn).1 ∗ owns (c : Thread nD τ) scM1 fullShare (stAt V c n hn).2.1 ∗ owns (c : Thread nD τ) scM2 fullShare (stAt V c n hn).2.2.1 ∗ owns (c : Thread nD τ) scM3 fullShare (stAt V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM0 fullShare (stAt V c n hn).1 ∗ owns (c : Thread nD τ) scM1 fullShare (stAt V c n hn).2.1 ∗ owns (c : Thread nD τ) scM2 fullShare (stAt V c n hn).2.2.1 ∗ owns (c : Thread nD τ) scM3 fullShare (stAt V c n hn).2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM0 fullShare (stAt V c (n - 1) (by omega)).1 ∗ owns (c : Thread nD τ) scM1 fullShare (stAt V c (n - 1) (by omega)).2.1 ∗ owns (c : Thread nD τ) scM2 fullShare (stAt V c (n - 1) (by omega)).2.2.1 ∗ owns (c : Thread nD τ) scM3 fullShare (stAt V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => oAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = oAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point, by the key-block coordinate: at the first key block the scratch is handed over at anything
    (the class's invariant at the very first point, else the state the query block before ended in, forgotten) and
    comes back one step from the reset state; at a middle one it goes from the state the point before left to one step
    on; at the last one also the result block is written. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · have hc0 : cond1_0 (grid1.coords t) := (hcond1_0 t).mpr h0
    have hc1 : ¬ cond1_1 (grid1.coords t) := fun h => by have := (hcond1_1 t).mp h; omega
    rw [Dat.leavesExact_idle (dat1 V c) 4 t (idleAt1_4 t hc1) (noFlush1_4 t hc1)]
    rw [stAt_first V c t h0]
    by_cases hz : t.val = 0
    · rw [PhiS_castSucc V c t, PhiS_zero V c _ _ hz, PhiA1_eq]
      iintro ⟨⟨⟨HA0, HA1, HA2, HA3, HA4, HA5, HA6, HS0, HS1, HS2, HS3⟩, Hg⟩, Ho, ⟨%d0, H0⟩, ⟨%d1, H1⟩, ⟨%d2, H2⟩, ⟨%d3, H3⟩, ⟨%d4, H4⟩⟩
      iapply (run1_first c Set.univ (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) scM3 (Memref.isWhole_whole _) hc0 hc1 (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HA0 HA1 HA2 HA3 HA4 HA5 HA6 HS0 HS1 HS2 HS3 Hg]
      · isplitr [Hg]
        swap; · iexact Hg
        isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HS0]; · iexact HS0
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HA0, HA1, HA2, HA3, HA4, HA5, HA6, HS0, HS1, HS2, HS3⟩, Hg⟩, Ho, ⟨%d0, H0⟩, ⟨%d1, H1⟩, ⟨%d2, H2⟩, ⟨%d3, H3⟩, ⟨%d4, H4⟩⟩
      iapply (run1_first c Set.univ (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) scM3 (Memref.isWhole_whole _) hc0 hc1 (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, HS0, HS1, HS2, HS3⟩
      isplitl [HA0 HA1 HA2 HA3 HA4 HA5 HA6 HS0 HS1 HS2 HS3 Hg]
      · isplitr [Hg]
        swap; · iexact Hg
        isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HS0]; · iexact HS0
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      iexists _; iexact H4
  · have hc0 : ¬ cond1_0 (grid1.coords t) := fun h => h0 ((hcond1_0 t).mp h)
    have hz : t.val ≠ 0 := fun e => h0 (by rw [e])
    rw [stAt_next V c t h0, PhiS_castSucc V c t, PhiS_pos V c _ _ hz]
    by_cases h1 : t.val % 4 = 3
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      unfold oAt
      rw [stAt_next V c t h0]
      iintro ⟨⟨⟨HA0, HA1, HA2, HA3, HA4, HA5, HA6, HS0, HS1, HS2, HS3⟩, Hg⟩, Ho, ⟨%d0, H0⟩, ⟨%d1, H1⟩, ⟨%d2, H2⟩, ⟨%d3, H3⟩, ⟨%d4, H4⟩⟩
      iapply (run1_last c Set.univ (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) scM3 (Memref.isWhole_whole _) hc0 hc1 (iblk1 V c 0 t) (iblk1 V c 1 t) (iblk1 V c 2 t) (iblk1 V c 3 t) (stAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HA0 HA1 HA2 HA3 HA4 HA5 HA6 HS0 HS1 HS2 HS3 Hg]
      · isplitr [Hg]
        swap; · iexact Hg
        isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HS0]; · iexact HS0
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      iexact H4
    · have hc1 : ¬ cond1_1 (grid1.coords t) := fun h => h1 ((hcond1_1 t).mp h)
      rw [Dat.leavesExact_idle (dat1 V c) 4 t (idleAt1_4 t hc1) (noFlush1_4 t hc1)]
      iintro ⟨⟨⟨HA0, HA1, HA2, HA3, HA4, HA5, HA6, HS0, HS1, HS2, HS3⟩, Hg⟩, Ho, ⟨%d0, H0⟩, ⟨%d1, H1⟩, ⟨%d2, H2⟩, ⟨%d3, H3⟩, ⟨%d4, H4⟩⟩
      iapply (run1_mid c Set.univ (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) scM3 (Memref.isWhole_whole _) hc0 hc1 (iblk1 V c 0 t) (iblk1 V c 1 t) (iblk1 V c 2 t) (iblk1 V c 3 t) ((dat1 V c).before 4 t d4) (stAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HA0 HA1 HA2 HA3 HA4 HA5 HA6 HS0 HS1 HS2 HS3 Hg]
      · isplitr [Hg]
        swap; · iexact Hg
        isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HS0]; · iexact HS0
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl,
    PhiS_pos V c _ _ hne, PhiA1_eq]
  iintro ⟨⟨HA0, HA1, HA2, HA3, HA4, HA5, HA6, HS0, HS1, HS2, HS3⟩, Hg⟩
  isplitr [Hg]
  swap; · iexact Hg
  isplitl [HA0]; · iexact HA0
  isplitl [HA1]; · iexact HA1
  isplitl [HA2]; · iexact HA2
  isplitl [HA3]; · iexact HA3
  isplitl [HA4]; · iexact HA4
  isplitl [HA5]; · iexact HA5
  isplitl [HA6]; · iexact HA6
  isplitl [HS0]; · iexists _; iexact HS0
  isplitl [HS1]; · iexists _; iexact HS1
  isplitl [HS2]; · iexists _; iexact HS2
  iexists _; iexact HS3

end Cert.KernelIdeal.Hand

end
-- ==== Proof.KI.Launch.lean ====
/-
  The program's run: the host stretch before the kernels, the projection region, the attention region, the closing
  reshape. Between two items every unscoped buffer of the core is held at a named valuation: the launch memory, then
  what the host stretch computes, then each region's arrays overwritten by what its write-backs leave. Every weakly
  fair execution terminates with every unscoped buffer at the last valuation.
-/
import proofs.«402299_j61332132987363_3_alg».proof.Proof.KI.Dat0
import proofs.«402299_j61332132987363_3_alg».proof.Proof.KI.Dat1
import proofs.«402299_j61332132987363_3_alg».proof.Proof.Gen.KernelIdeal.Regions

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host stretch before the kernels. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: its arrays at what its write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the closing reshape. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection region: entered from every unscoped buffer at the contents after the host stretch, left with its
    arrays at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from the contents the projection region left, left with its result array at what its
    write-backs leave; the scratch's named contents go back into the scoped rest at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- From any memory with zero counters every weakly fair execution of the program terminates, nothing faulting, with every
    unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Hand

end
-- ==== Proof.Val.Arr.lean ====
/-
  The argument arrays read as functions of plain coordinates: the input as 8 batches of 4096 rows of 256 channels (row
  n of a batch is pixel (n / 64, n % 64)), a weight matrix by row and column.
-/
import Idealize.ShloMosaic.PureOps.Ideal
import Idealize.ShloMosaic.Lib.ValueIdx

noncomputable section

namespace AttnArr

open Idealize.ShloMosaic

/-- The input's shape and a weight matrix's. -/
abbrev SX : Shape := ⟨4, ![8, 64, 64, 256]⟩
abbrev SW : Shape := ⟨2, ![256, 256]⟩

/-- Row n of batch b is pixel (n / 64, n % 64). -/
def pix (b : Fin 8) (n : Fin (4 * 1024)) (e : Fin 256) : SX.Idx :=
  ValueIdx.ix4 b (⟨n.val / 64, by have := n.isLt; omega⟩ : Fin 64) (⟨n.val % 64, Nat.mod_lt _ (by decide)⟩ : Fin 64) e

/-- The input by batch, row and channel. -/
def xOf (a : SX.Idx → EReal) (b : Fin 8) (n : Fin (4 * 1024)) (e : Fin 256) : EReal := a (pix b n e)

/-- A weight matrix by row and column. -/
def wOf (w : SW.Idx → EReal) (e c : Fin 256) : EReal := w (ValueIdx.ix2 e c)

/-- The row of a pixel. -/
def rowOf (i : SX.Idx) : Fin (4 * 1024) :=
  ⟨(i 1).val * 64 + (i 2).val, by have h1 : (i 1).val < 64 := (i 1).isLt; have h2 : (i 2).val < 64 := (i 2).isLt; omega⟩

theorem pix_rowOf (i : SX.Idx) : pix (i 0) (rowOf i) (i 3) = i := by
  funext a
  have h2 : (i 2).val < 64 := (i 2).isLt
  match a with
  | ⟨0, _⟩ => rfl
  | ⟨1, _⟩ => exact Fin.ext (show ((i 1).val * 64 + (i 2).val) / 64 = (i 1).val by omega)
  | ⟨2, _⟩ => exact Fin.ext (show ((i 1).val * 64 + (i 2).val) % 64 = (i 2).val by omega)
  | ⟨3, _⟩ => rfl

end AttnArr

end
-- ==== Proof.LibOnlineSoftmax.lean ====
/-
  The online softmax against the plain one, over the extended reals.

  A row of real logits is cut into n blocks of B columns. The online softmax walks the blocks keeping the
  running maximum m and the running sum l of the exponentials relative to it; a new block with maximum m₀ moves
  the state to (max m m₀, exp (m - max m m₀) · l + Σ_q exp (s q - max m m₀)). The state before the first block is
  (-∞, 0). After the last block the state is (M, Σ exp (s - M)) with M the maximum of the whole row, so
  m + log l is the row's log-sum-exp, and the cross-entropy term read off it equals the one read off the
  plain log-softmax over all n · B columns.
-/
import Idealize.ShloMosaic.PureOps.Ideal
import Mathlib.Data.Finset.Fold
import Mathlib.Algebra.BigOperators.Fin
import Mathlib.Logic.Equiv.Fin.Basic
import Mathlib.Analysis.SpecialFunctions.Log.Basic
import Mathlib.Analysis.SpecialFunctions.Exp

noncomputable section

namespace OnlineSoftmax

open Idealize.ShloMosaic

/-! ### Coercion facts -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with the binary maximum. -/
theorem coe_max (x y : ℝ) : ((max x y : ℝ) : EReal) = max (x : EReal) (y : EReal) :=
  EReal.coe_strictMono.monotone.map_max

/-- The maximum of a nonempty finite family of reals, folded from -∞ in the extended reals, is the real
    maximum of the family: it bounds the family, is attained, and is the fold's value. -/
theorem fold_max_real {N : ℕ} (hN : 0 < N) (f : Fin N → ℝ) :
    ∃ M : ℝ, (∀ j, f j ≤ M) ∧ (∃ j, f j = M) ∧
      Finset.univ.fold max (⊥ : EReal) (fun j => ((f j : ℝ) : EReal)) = (M : EReal) := by
  obtain ⟨j0, -, hj0⟩ := Finset.exists_max_image Finset.univ f ⟨⟨0, hN⟩, Finset.mem_univ _⟩
  refine ⟨f j0, fun j => hj0 j (Finset.mem_univ j), ⟨j0, rfl⟩, le_antisymm ?_ ?_⟩
  · rw [Finset.fold_max_le]
    exact ⟨bot_le, fun x _ => EReal.coe_le_coe_iff.mpr (hj0 x (Finset.mem_univ x))⟩
  · rw [Finset.le_fold_max]
    exact Or.inr ⟨j0, Finset.mem_univ _, le_rfl⟩

/-! ### The online softmax's state -/

/-- One step of the online softmax: the state (m, l) — the running maximum and the running sum of the
    exponentials relative to it — meets a block of B columns. The new maximum m' is the larger of m and the
    block's maximum; the old sum is rescaled by exp (m - m') and the block's exponentials relative to m' are
    added. -/
def upd {B : ℕ} (row : Fin B → EReal) (ml : EReal × EReal) : EReal × EReal :=
  let m' := max ml.1 (Finset.univ.fold max (⊥ : EReal) row)
  (m', Ideal.exp (ml.1 - m') * ml.2 + ∑ q, Ideal.exp (row q - m'))

/-- The online softmax's state after the first k blocks of the row s; before the first block it is
    (-∞, 0). -/
def acc {B : ℕ} (s : ℕ → Fin B → EReal) : ℕ → EReal × EReal
  | 0 => (⊥, 0)
  | k + 1 => upd (s k) (acc s k)

/-- The new running maximum of a step. -/
theorem upd_fst {B : ℕ} (row : Fin B → EReal) (ml : EReal × EReal) :
    (upd row ml).1 = max ml.1 (Finset.univ.fold max (⊥ : EReal) row) := rfl

/-- The new running sum of a step. -/
theorem upd_snd {B : ℕ} (row : Fin B → EReal) (ml : EReal × EReal) :
    (upd row ml).2 = Ideal.exp (ml.1 - (upd row ml).1) * ml.2 + ∑ q, Ideal.exp (row q - (upd row ml).1) := rfl

/-- The state before the first block. -/
theorem acc_zero {B : ℕ} (s : ℕ → Fin B → EReal) : acc s 0 = (⊥, 0) := rfl

/-- The state after one more block. -/
theorem acc_succ {B : ℕ} (s : ℕ → Fin B → EReal) (k : ℕ) : acc s (k + 1) = upd (s k) (acc s k) := rfl

/-- The exponentials of a real block relative to a real maximum sum to a real. -/
theorem sum_exp_coe {B : ℕ} (row : Fin B → ℝ) (M : ℝ) :
    ∑ q, Ideal.exp (((row q : ℝ) : EReal) - (M : EReal)) = ((∑ q, Real.exp (row q - M) : ℝ) : EReal) := by
  rw [coe_sum]
  refine Finset.sum_congr rfl fun q _ => ?_
  rw [← EReal.coe_sub, Ideal.exp_coe]

/-- After k ≥ 1 blocks of real logits the state is real: the running maximum is the maximum M of the logits
    seen so far (it bounds them and is attained) and the running sum is Σ exp (s - M) over them. -/
theorem acc_real {B : ℕ} (hB : 0 < B) (s : ℕ → Fin B → ℝ) (k : ℕ) (hk : 0 < k) :
    ∃ M : ℝ, (∀ j, j < k → ∀ q, s j q ≤ M) ∧ (∃ j, j < k ∧ ∃ q, s j q = M) ∧
      (acc (fun j q => ((s j q : ℝ) : EReal)) k).1 = (M : EReal) ∧
      (acc (fun j q => ((s j q : ℝ) : EReal)) k).2
        = ((∑ j ∈ Finset.range k, ∑ q, Real.exp (s j q - M) : ℝ) : EReal) := by
  obtain ⟨k, rfl⟩ : ∃ k', k = k' + 1 := ⟨k - 1, by omega⟩
  clear hk
  induction k with
  | zero =>
    obtain ⟨M, hle, ⟨q0, hq0⟩, hM⟩ := fold_max_real hB (s 0)
    have h1 : (acc (fun j q => ((s j q : ℝ) : EReal)) (0 + 1)).1 = (M : EReal) := by
      rw [acc_succ, upd_fst, acc_zero, hM]; exact max_eq_right bot_le
    refine ⟨M, ?_, ⟨0, Nat.zero_lt_one, q0, hq0⟩, h1, ?_⟩
    · intro j hj q
      obtain rfl : j = 0 := by omega
      exact hle q
    · have hu : (upd (fun q => ((s 0 q : ℝ) : EReal)) (acc (fun j q => ((s j q : ℝ) : EReal)) 0)).1
          = (M : EReal) := h1
      rw [acc_succ, upd_snd, hu, acc_zero, mul_zero, zero_add, sum_exp_coe, Finset.sum_range_one]
  | succ k ih =>
    obtain ⟨M, hle, ⟨j1, hj1, q1, hq1⟩, h1, h2⟩ := ih
    obtain ⟨Mk, hlek, ⟨q0, hq0⟩, hMk⟩ := fold_max_real hB (s (k + 1))
    have h1' : (acc (fun j q => ((s j q : ℝ) : EReal)) (k + 1 + 1)).1 = ((max M Mk : ℝ) : EReal) := by
      rw [acc_succ, upd_fst, h1, hMk, coe_max]
    refine ⟨max M Mk, ?_, ?_, h1', ?_⟩
    · intro j hj q
      rcases Nat.lt_succ_iff_lt_or_eq.mp hj with h | rfl
      · exact le_trans (hle j h q) (le_max_left _ _)
      · exact le_trans (hlek q) (le_max_right _ _)
    · rcases le_total M Mk with h | h
      · exact ⟨k + 1, Nat.lt_succ_self _, q0, by rw [hq0, max_eq_right h]⟩
      · exact ⟨j1, Nat.lt_succ_of_lt hj1, q1, by rw [hq1, max_eq_left h]⟩
    · have hu : (upd (fun q => ((s (k + 1) q : ℝ) : EReal))
          (acc (fun j q => ((s j q : ℝ) : EReal)) (k + 1))).1 = ((max M Mk : ℝ) : EReal) := h1'
      rw [acc_succ, upd_snd, hu, h1, h2, sum_exp_coe, ← EReal.coe_sub, Ideal.exp_coe,
        ← EReal.coe_mul, ← EReal.coe_add, Finset.sum_range_succ _ (k + 1), Finset.mul_sum]
      congr 2
      refine Finset.sum_congr rfl fun j _ => ?_
      rw [Finset.mul_sum]
      refine Finset.sum_congr rfl fun q _ => ?_
      rw [← Real.exp_add]
      congr 1
      ring

/-! ### The blocks of a row -/

/-- Column q of block j lies in the row: j · B + q < n · B for j < n. -/
theorem blk_lt {n B j : ℕ} (h : j < n) (q : Fin B) : j * B + q.val < n * B :=
  calc j * B + q.val < j * B + B := Nat.add_lt_add_left q.isLt _
    _ = (j + 1) * B := (Nat.succ_mul j B).symm
    _ ≤ n * B := Nat.mul_le_mul_right B h

/-- A sum over the n · B columns of a row is the sum over its n blocks of the sums over each block's B
    columns, column q of block j being column j · B + q. -/
theorem sum_blocks {n B : ℕ} (g : Fin (n * B) → ℝ) :
    ∑ j : Fin n, ∑ q : Fin B, g ⟨j.val * B + q.val, blk_lt j.isLt q⟩ = ∑ c : Fin (n * B), g c := by
  rw [← Fintype.sum_prod_type'
    (f := fun (j : Fin n) (q : Fin B) => g ⟨j.val * B + q.val, blk_lt j.isLt q⟩)]
  refine Fintype.sum_equiv finProdFinEquiv _ _ fun p => ?_
  congr 1
  apply Fin.ext
  simp [finProdFinEquiv, mul_comm, add_comm]

/-- The same with the blocks counted by a natural number below n and the row's columns read through a
    function F: the block-wise double sum of F over the row is the sum of F over all n · B columns. -/
theorem sum_range_blocks {n B : ℕ} (sf : Fin (n * B) → ℝ) (F : ℝ → ℝ) :
    ∑ j ∈ Finset.range n, ∑ q : Fin B, F (if h : j < n then sf ⟨j * B + q.val, blk_lt h q⟩ else 0)
      = ∑ c : Fin (n * B), F (sf c) := by
  rw [← sum_blocks (fun c => F (sf c)), ← Fin.sum_univ_eq_sum_range
    (fun j => ∑ q : Fin B, F (if h : j < n then sf ⟨j * B + q.val, blk_lt h q⟩ else 0)) n]
  refine Finset.sum_congr rfl fun j _ => Finset.sum_congr rfl fun q _ => ?_
  rw [dif_pos j.isLt]

/-! ### The cross-entropy term of a row -/

/-- The online softmax's final state over the n blocks of a row of n · B real logits sf (column q of block j
    is column j · B + q): the running maximum is the row's maximum M — it bounds the row, is attained, and is
    the value of the row's fold from -∞ — and the running sum is Σ_c exp (sf c - M) over all the columns. -/
theorem acc_row {n B : ℕ} (hn : 0 < n) (hB : 0 < B) (sf : Fin (n * B) → ℝ) :
    ∃ M : ℝ, (∀ c, sf c ≤ M) ∧ (∃ c, sf c = M) ∧
      Finset.univ.fold max (⊥ : EReal) (fun j => ((sf j : ℝ) : EReal)) = (M : EReal) ∧
      (acc (fun j (q : Fin B) =>
        (((if h : j < n then sf ⟨j * B + q.val, blk_lt h q⟩ else 0 : ℝ)) : EReal)) n).1 = (M : EReal) ∧
      (acc (fun j (q : Fin B) =>
        (((if h : j < n then sf ⟨j * B + q.val, blk_lt h q⟩ else 0 : ℝ)) : EReal)) n).2
          = ((∑ c, Real.exp (sf c - M) : ℝ) : EReal) := by
  obtain ⟨M, hMle, ⟨jM, hjM, qM, hqM⟩, ha1, ha2⟩ :=
    acc_real hB (fun j q => if h : j < n then sf ⟨j * B + q.val, blk_lt h q⟩ else 0) n hn
  obtain ⟨M', hM'le, ⟨c0, hc0⟩, hM'⟩ := fold_max_real (Nat.mul_pos hn hB) sf
  -- the blocks' maximum is the row's maximum
  have hMM : M' = M := by
    apply le_antisymm
    · rw [← hc0]
      have hdiv : c0.val / B < n := Nat.div_lt_of_lt_mul (lt_of_lt_of_eq c0.isLt (Nat.mul_comm n B))
      have hb : (if h : c0.val / B < n then
          sf ⟨c0.val / B * B + c0.val % B, blk_lt h ⟨c0.val % B, Nat.mod_lt _ hB⟩⟩ else 0) ≤ M :=
        hMle (c0.val / B) hdiv ⟨c0.val % B, Nat.mod_lt _ hB⟩
      rw [dif_pos hdiv] at hb
      have hc : (⟨c0.val / B * B + c0.val % B, blk_lt hdiv ⟨c0.val % B, Nat.mod_lt _ hB⟩⟩ : Fin (n * B))
          = c0 := Fin.ext (Nat.div_add_mod' _ _)
      rw [hc] at hb
      exact hb
    · rw [← hqM]
      show (if h : jM < n then sf ⟨jM * B + qM.val, blk_lt h qM⟩ else 0) ≤ M'
      rw [dif_pos hjM]
      exact hM'le _
  subst hMM
  refine ⟨M', hM'le, ⟨c0, hc0⟩, hM', ha1, ?_⟩
  -- the blocks' sum of exponentials is the row's
  rw [ha2, sum_range_blocks sf (fun x => Real.exp (x - M'))]

/-- The cross-entropy term of one row of n · B real logits sf with label weight lab at column i. On the left
    the row's log-sum-exp is m + log l for the online softmax's final state (m, l) over the n blocks of B
    columns (column q of block j is column j · B + q); on the right it is the plain log-softmax: the maximum
    Mref over all columns (folded from -∞), the logits shifted by it, and a sum over the columns in which only
    column i carries the label weight. The two are equal. -/
theorem row_loss {n B : ℕ} (hn : 0 < n) (hB : 0 < B) (sf : Fin (n * B) → ℝ) (lab : ℝ) (i : Fin (n * B)) :
    let sb : ℕ → Fin B → ℝ := fun j q => if h : j < n then sf ⟨j * B + q.val, blk_lt h q⟩ else 0
    let a := acc (fun j q => ((sb j q : ℝ) : EReal)) n
    let Mref : EReal := max ⊥ (Finset.univ.fold max (⊥ : EReal) (fun j => ((sf j : ℝ) : EReal)))
    (0 - (lab : EReal)) * (((sf i : ℝ) : EReal) - (a.1 + Ideal.log a.2))
      = (0 : EReal) + ∑ j : Fin (n * B), (-(if j = i then (lab : EReal) else 0)) *
          ((((sf j : ℝ) : EReal) - Mref) - Ideal.log ((0 : EReal) +
            ∑ j' : Fin (n * B), Ideal.exp (((sf j' : ℝ) : EReal) - Mref))) := by
  intro sb a Mref
  obtain ⟨M, -, -, hM, ha1, ha2⟩ := acc_row hn hB sf
  have hSpos : 0 < ∑ c, Real.exp (sf c - M) :=
    Finset.sum_pos (fun _ _ => Real.exp_pos _) ⟨i, Finset.mem_univ _⟩
  have ha1' : a.1 = (M : EReal) := ha1
  have ha2' : a.2 = ((∑ c, Real.exp (sf c - M) : ℝ) : EReal) := ha2
  have hMref : Mref = (M : EReal) := by
    show max ⊥ (Finset.univ.fold max (⊥ : EReal) (fun j => ((sf j : ℝ) : EReal))) = (M : EReal)
    rw [hM, max_eq_right bot_le]
  have hlog : Ideal.log ((∑ c, Real.exp (sf c - M) : ℝ) : EReal)
      = ((Real.log (∑ c, Real.exp (sf c - M)) : ℝ) : EReal) := by
    rw [Ideal.log_coe, if_neg (not_le.mpr hSpos)]
  rw [ha1', ha2', hMref, zero_add, zero_add, sum_exp_coe, hlog]
  refine Eq.trans ?_ (Finset.sum_eq_single i ?_ ?_).symm
  · have hr : sf i - (M + Real.log (∑ c, Real.exp (sf c - M)))
        = sf i - M - Real.log (∑ c, Real.exp (sf c - M)) := by ring
    rw [if_pos rfl, zero_sub, ← EReal.coe_add, ← EReal.coe_sub, ← EReal.coe_sub, ← EReal.coe_sub, hr]
  · intro j _ hji
    rw [if_neg hji, neg_zero, ← EReal.coe_sub, ← EReal.coe_sub, zero_mul]
  · intro h
    exact absurd (Finset.mem_univ i) h

end OnlineSoftmax
-- ==== Proof.LibOnlineWeightedSum.lean ====
/-
  The weighted sum that rides along an online softmax, against the plain softmax-weighted sum.

  A row of real scores s and a row of real values v are walked in n blocks of B columns. Beside the online
  softmax's state (m, l) — the running maximum and the running sum of exp (s - m), see LibOnlineSoftmax — a
  running weighted sum a is kept: a new block moves it to exp (m - m') · a + Σ_q exp (s q - m') · v q, with m' the new
  maximum; before the first block it is 0. After the last block a = Σ_c exp (s c - M) · v c over all n · B columns,
  M the row's maximum, so a / l is the softmax-weighted average Σ_c v c · (exp (s c - M) / Σ_c' exp (s c' - M)):
  what a blocked attention kernel computes against a reference that materialises the softmax. Everything is
  stated over the extended reals with real scores and values (at an infinite score a difference of infinities
  is a convention, not a number).
-/
import proofs.«402299_j61332132987363_3_alg».proof.Proof.LibOnlineSoftmax

noncomputable section

namespace OnlineSoftmax

open Idealize.ShloMosaic

/-! ### The running weighted sum -/

/-- One step of the running weighted sum: the state (m, l) of the online softmax meets a block of B columns
    with scores row and values val; the old weighted sum a is rescaled by exp (m - m'), m' the new maximum,
    and the block's values weighted by the exponentials relative to m' are added. -/
def updA {B : ℕ} (row val : Fin B → EReal) (ml : EReal × EReal) (a : EReal) : EReal :=
  Ideal.exp (ml.1 - (upd row ml).1) * a + ∑ q, Ideal.exp (row q - (upd row ml).1) * val q

/-- The running weighted sum after the first k blocks; before the first block it is 0. -/
def accA {B : ℕ} (s v : ℕ → Fin B → EReal) : ℕ → EReal
  | 0 => 0
  | k + 1 => updA (s k) (v k) (acc s k) (accA s v k)

/-- Before the first block. -/
theorem accA_zero {B : ℕ} (s v : ℕ → Fin B → EReal) : accA s v 0 = 0 := rfl

/-- After one more block. -/
theorem accA_succ {B : ℕ} (s v : ℕ → Fin B → EReal) (k : ℕ) :
    accA s v (k + 1) = Ideal.exp ((acc s k).1 - (acc s (k + 1)).1) * accA s v k
      + ∑ q, Ideal.exp (s k q - (acc s (k + 1)).1) * v k q := rfl

/-- Block j of a row of n · B reals: column q of block j is column j · B + q (0 past the last block). -/
def blk {n B : ℕ} (f : Fin (n * B) → ℝ) : ℕ → Fin B → ℝ :=
  fun j q => if h : j < n then f ⟨j * B + q.val, blk_lt h q⟩ else 0

/-- The exponentials of a real block relative to a real maximum, times real values, sum to a real. -/
theorem sum_exp_mul_coe {B : ℕ} (row val : Fin B → ℝ) (M : ℝ) :
    ∑ q, Ideal.exp (((row q : ℝ) : EReal) - (M : EReal)) * ((val q : ℝ) : EReal)
      = ((∑ q, Real.exp (row q - M) * val q : ℝ) : EReal) := by
  rw [coe_sum]
  refine Finset.sum_congr rfl fun q _ => ?_
  rw [← EReal.coe_sub, Ideal.exp_coe, ← EReal.coe_mul]

/-- After k ≥ 1 blocks of real scores s and real values v the running weighted sum is
    Σ_{j < k} Σ_q exp (s j q - M) · v j q, M the running maximum after those blocks: the step multiplies the old sum
    by exp (M_old - M_new), and exp (M_old - M_new) · exp (s - M_old) = exp (s - M_new). -/
theorem accA_real {B : ℕ} (hB : 0 < B) (s v : ℕ → Fin B → ℝ) (k : ℕ) (hk : 0 < k) (M : ℝ)
    (hM : (acc (fun j q => ((s j q : ℝ) : EReal)) k).1 = (M : EReal)) :
    accA (fun j q => ((s j q : ℝ) : EReal)) (fun j q => ((v j q : ℝ) : EReal)) k
      = ((∑ j ∈ Finset.range k, ∑ q, Real.exp (s j q - M) * v j q : ℝ) : EReal) := by
  obtain ⟨k, rfl⟩ : ∃ k', k = k' + 1 := ⟨k - 1, by omega⟩
  clear hk
  induction k generalizing M with
  | zero =>
    rw [accA_succ, hM, accA_zero, mul_zero, zero_add, sum_exp_mul_coe, Finset.sum_range_one]
  | succ k ih =>
    obtain ⟨Mk, -, -, h1, -⟩ := acc_real hB s (k + 1) (Nat.succ_pos k)
    rw [accA_succ, hM, h1, ih Mk h1, sum_exp_mul_coe, ← EReal.coe_sub, Ideal.exp_coe, ← EReal.coe_mul,
      ← EReal.coe_add]
    congr 1
    rw [Finset.sum_range_succ _ (k + 1), Finset.mul_sum]
    congr 1
    refine Finset.sum_congr rfl fun j _ => ?_
    rw [Finset.mul_sum]
    refine Finset.sum_congr rfl fun q _ => ?_
    rw [← mul_assoc, ← Real.exp_add]
    congr 2
    ring

/-- A block-wise double sum of a function of a row's score and value is the sum over all the row's
    columns. -/
theorem sum_range_blocks2 {n B : ℕ} (sf vf : Fin (n * B) → ℝ) (F : ℝ → ℝ → ℝ) :
    ∑ j ∈ Finset.range n, ∑ q : Fin B, F (blk sf j q) (blk vf j q) = ∑ c : Fin (n * B), F (sf c) (vf c) := by
  rw [← sum_blocks (fun c => F (sf c) (vf c)),
    ← Fin.sum_univ_eq_sum_range (fun j => ∑ q : Fin B, F (blk sf j q) (blk vf j q)) n]
  refine Finset.sum_congr rfl fun j _ => Finset.sum_congr rfl fun q _ => ?_
  unfold blk
  rw [dif_pos j.isLt, dif_pos j.isLt]

/-- THE ROW: for a row of n · B real scores sf and real values vf, walked in n blocks of B columns, the
    final weighted sum divided by the final sum of exponentials is the plain softmax-weighted sum of the
    values over all columns, the plain softmax written as a host reference computes it (the row maximum folded
    from -∞ and once more against -∞, the exponentials divided by 0 + their sum). The law is
    (Σ_j e_j · v_j) / S = Σ_j v_j · (e_j / S), with S real and positive because every score is real. -/
theorem row_attn {n B : ℕ} (hn : 0 < n) (hB : 0 < B) (sf vf : Fin (n * B) → ℝ) :
    Ideal.div (accA (fun j q => ((blk sf j q : ℝ) : EReal)) (fun j q => ((blk vf j q : ℝ) : EReal)) n)
        (acc (fun j q => ((blk sf j q : ℝ) : EReal)) n).2
      = ∑ j : Fin (n * B), ((vf j : ℝ) : EReal) *
          Ideal.div (Ideal.exp (((sf j : ℝ) : EReal)
              - max ⊥ (Finset.univ.fold max (⊥ : EReal) (fun j => ((sf j : ℝ) : EReal)))))
            ((0 : EReal) + ∑ j' : Fin (n * B), Ideal.exp (((sf j' : ℝ) : EReal)
              - max ⊥ (Finset.univ.fold max (⊥ : EReal) (fun j => ((sf j : ℝ) : EReal))))) := by
  obtain ⟨M, -, -, hM, ha1, ha2⟩ := acc_row hn hB sf
  have ha1' : (acc (fun j q => ((blk sf j q : ℝ) : EReal)) n).1 = (M : EReal) := ha1
  have ha2' : (acc (fun j q => ((blk sf j q : ℝ) : EReal)) n).2
      = ((∑ c, Real.exp (sf c - M) : ℝ) : EReal) := ha2
  have hA := accA_real hB (blk sf) (blk vf) n hn M ha1'
  have hSpos : 0 < ∑ c, Real.exp (sf c - M) :=
    Finset.sum_pos (fun _ _ => Real.exp_pos _) ⟨⟨0, Nat.mul_pos hn hB⟩, Finset.mem_univ _⟩
  have hblocks := sum_range_blocks2 sf vf (fun x y => Real.exp (x - M) * y)
  have hL : Ideal.div (accA (fun j q => ((blk sf j q : ℝ) : EReal)) (fun j q => ((blk vf j q : ℝ) : EReal)) n)
        (acc (fun j q => ((blk sf j q : ℝ) : EReal)) n).2
      = ((∑ j, vf j * (Real.exp (sf j - M) * (1 / ∑ c, Real.exp (sf c - M))) : ℝ) : EReal) := by
    rw [hA, ha2', Ideal.div_coe hSpos.ne', ← EReal.coe_mul]
    congr 1
    rw [show (∑ j ∈ Finset.range n, ∑ q : Fin B, Real.exp (blk sf j q - M) * blk vf j q)
        = ∑ c : Fin (n * B), Real.exp (sf c - M) * vf c from hblocks, Finset.sum_mul]
    refine Finset.sum_congr rfl fun j _ => ?_
    ring
  rw [hL, coe_sum]
  refine Finset.sum_congr rfl fun j _ => ?_
  rw [hM, max_eq_right bot_le, zero_add, sum_exp_coe, ← EReal.coe_sub, Ideal.exp_coe,
    Ideal.div_coe hSpos.ne', ← EReal.coe_mul, ← EReal.coe_mul]

end OnlineSoftmax

end
-- ==== Proof.Val.Spec.lean ====
/-
  The two sides of the claim as functions of the inputs, index by index over the extended reals.

  x is the input read as 8 batches of 4096 rows of 256 channels; wq, wk, wv are the three 256 × 256 weight matrices.
  Queries, keys and values are the rows' products with the weights; the score of query row n against key row j is the
  dot product of their projections. The reference materialises the softmax of every score row (maximum folded from
  -∞ and once more against -∞, exponentials divided by 0 + their sum) and takes the softmax-weighted sum of the value
  rows. The kernel walks the 4096 key rows in 4 blocks of 1024 keeping the online softmax's state and a running
  weighted sum, and divides at the end. Both multiply by the input entry (the gate) outside.
-/
import proofs.«402299_j61332132987363_3_alg».proof.Proof.LibOnlineWeightedSum

noncomputable section

namespace AttnSpec

open Idealize.ShloMosaic OnlineSoftmax

variable (x : Fin 8 → Fin (4 * 1024) → Fin 256 → EReal) (wq wk wv : Fin 256 → Fin 256 → EReal)

/-- A row's projection by a weight matrix. -/
def proj (w : Fin 256 → Fin 256 → EReal) (b : Fin 8) (n : Fin (4 * 1024)) (c : Fin 256) : EReal :=
  ∑ e : Fin 256, x b n e * w e c

/-- The score of query row n against key row j of batch b. -/
def score (b : Fin 8) (n j : Fin (4 * 1024)) : EReal :=
  ∑ c : Fin 256, proj x wq b n c * proj x wk b j c

/-- The score row's maximum as the reference computes it. -/
def rowMax (b : Fin 8) (n : Fin (4 * 1024)) : EReal :=
  max ⊥ (Finset.univ.fold max (⊥ : EReal) (fun j => score x wq wk b n j))

/-- The reference's attention output: the softmax of the score row against the value rows. -/
def attnRef (b : Fin 8) (n : Fin (4 * 1024)) (d : Fin 256) : EReal :=
  ∑ j : Fin (4 * 1024),
    Ideal.div (Ideal.exp (score x wq wk b n j - rowMax x wq wk b n))
        ((0 : EReal) + ∑ j' : Fin (4 * 1024), Ideal.exp (score x wq wk b n j' - rowMax x wq wk b n))
      * proj x wv b j d

/-- Key block k of the score row of query n: column q of block k is key row k · 1024 + q (0 past the last block). -/
def sBlk (b : Fin 8) (n : Fin (4 * 1024)) : ℕ → Fin 1024 → EReal :=
  fun k q => if h : k < 4 then score x wq wk b n ⟨k * 1024 + q.val, blk_lt h q⟩ else 0

/-- Key block k of channel d of the values. -/
def vBlk (b : Fin 8) (d : Fin 256) : ℕ → Fin 1024 → EReal :=
  fun k q => if h : k < 4 then proj x wv b ⟨k * 1024 + q.val, blk_lt h q⟩ d else 0

/-- The kernel's attention output: the running weighted sum over the running sum after the 4 key blocks. -/
def attnKer (b : Fin 8) (n : Fin (4 * 1024)) (d : Fin 256) : EReal :=
  Ideal.div (accA (sBlk x wq wk b n) (vBlk x wv b d) 4) (acc (sBlk x wq wk b n) 4).2

/-- THE LAW. With every input entry a real number the two outputs agree: the scores and values are then real, the
    online softmax's final state is the plain softmax's maximum and sum, and a real weighted sum divided by a
    positive real sum is the sum of the weights each divided by it. -/
theorem attn_eq (hx : ∀ b n e, ∃ r : ℝ, x b n e = (r : EReal)) (hwq : ∀ e c, ∃ r : ℝ, wq e c = (r : EReal))
    (hwk : ∀ e c, ∃ r : ℝ, wk e c = (r : EReal)) (hwv : ∀ e c, ∃ r : ℝ, wv e c = (r : EReal))
    (b : Fin 8) (n : Fin (4 * 1024)) (d : Fin 256) :
    attnKer x wq wk wv b n d = attnRef x wq wk wv b n d := by
  choose xr hxr using hx
  choose qr hqr using hwq
  choose kr hkr using hwk
  choose vr hvr using hwv
  -- a projection of real rows by a real matrix is the coercion of the real sum
  have hproj : ∀ (w : Fin 256 → Fin 256 → EReal) (wr : Fin 256 → Fin 256 → ℝ),
      (∀ e c, w e c = ((wr e c : ℝ) : EReal)) → ∀ (b' : Fin 8) (m : Fin (4 * 1024)) (c : Fin 256),
        proj x w b' m c = ((∑ e, xr b' m e * wr e c : ℝ) : EReal) := by
    intro w wr hw b' m c
    unfold proj
    rw [coe_sum]
    refine Finset.sum_congr rfl fun e _ => ?_
    rw [hxr, hw, EReal.coe_mul]
  -- the real score row of query n and the real value column of channel d
  let sf : Fin (4 * 1024) → ℝ := fun j => ∑ c, (∑ e, xr b n e * qr e c) * (∑ e, xr b j e * kr e c)
  let vf : Fin (4 * 1024) → ℝ := fun j => ∑ e, xr b j e * vr e d
  have hscore : ∀ j, score x wq wk b n j = ((sf j : ℝ) : EReal) := by
    intro j
    unfold score
    show _ = ((∑ c, (∑ e, xr b n e * qr e c) * (∑ e, xr b j e * kr e c) : ℝ) : EReal)
    rw [coe_sum]
    refine Finset.sum_congr rfl fun c _ => ?_
    rw [hproj wq qr hqr, hproj wk kr hkr, EReal.coe_mul]
  have hval : ∀ j, proj x wv b j d = ((vf j : ℝ) : EReal) := fun j => hproj wv vr hvr b j d
  -- the kernel's blocks are the blocks of the real rows
  have hs : sBlk x wq wk b n = fun k q => ((blk (n := 4) (B := 1024) sf k q : ℝ) : EReal) := by
    funext k q
    unfold sBlk blk
    by_cases h : k < 4
    · rw [dif_pos h, dif_pos h, hscore]
    · rw [dif_neg h, dif_neg h, EReal.coe_zero]
  have hv : vBlk x wv b d = fun k q => ((blk (n := 4) (B := 1024) vf k q : ℝ) : EReal) := by
    funext k q
    unfold vBlk blk
    by_cases h : k < 4
    · rw [dif_pos h, dif_pos h, hval]
    · rw [dif_neg h, dif_neg h, EReal.coe_zero]
  have hfun : (fun j => score x wq wk b n j) = fun j => ((sf j : ℝ) : EReal) := funext hscore
  unfold attnKer attnRef rowMax
  rw [hs, hv, row_attn (n := 4) (B := 1024) (by norm_num) (by norm_num) sf vf, hfun]
  refine Finset.sum_congr rfl fun j _ => ?_
  rw [mul_comm, hval, hscore]
  have hsum : ∀ M : EReal, ∑ j', Ideal.exp (score x wq wk b n j' - M)
      = ∑ j', Ideal.exp (((sf j' : ℝ) : EReal) - M) :=
    fun M => Finset.sum_congr rfl fun j' _ => by rw [hscore j']
  rw [hsum]

end AttnSpec

end
-- ==== Proof.Val.Payload.lean ====
/-
  The kernels' per-point functions read at an index, at the ideal instance: the projections as sums over the channels,
  one key block's step as the online softmax's step on each row, the written rows as the gate times the weighted sum
  over the row sum.
-/
import proofs.«402299_j61332132987363_3_alg».proof.Proof.KI.Step
import proofs.«402299_j61332132987363_3_alg».proof.Proof.LibOnlineWeightedSum
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe
open Cert.KernelIdeal Cert.KernelIdeal.Gen
open ValueIdx OnlineSoftmax

/-- The scores of query row r against the keys of one block. -/
def sc (q : Vec Ideal S1024x256 .bf16) (kb : Vec Ideal S1x1024x256 .bf16) (r : Fin 1024) (j : Fin 1024) : EReal :=
  ∑ c : Fin 256, (q (ix2 r c) : EReal) * (kb (ix3 (0 : Fin 1) j c) : EReal)

/-! ### The word of -∞ -/

/-- The f32 word with sign bit set, exponent all ones and fraction zero is -∞. -/
private theorem ofBits_neg_inf_f32 : Ideal.ofBits .f32 0xFF800000#32 = ⊥ := by simp [Ideal.ofBits, Ideal.ieee]

/-! ### Columns: a vector as a one-column matrix, and a one-column matrix across the lanes -/

/-- An [a] vector cast to [a, 1] reads, at (i, u), the vector at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (i, j), the column at (i, 0). -/
private theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ### A row's maximum and a row's sum over the 1024 keys -/

/-- The maximum over the lanes from -∞, at row r: the fold of max from ⊥ over the row. -/
private theorem rowMax_apply (X : FVec Ideal S1024x1024 .f32) (hφ : FKind.Formats .f32)
    (hacc : (0xFF800000#32 : BitVec 32) = 0xFF800000#32) (r : Fin 1024) :
    multiReduction (F := Ideal) .maximumf [1] S1024 X 0xFF800000#32 reduces_S1024x1024_S1024 hφ hacc (ix1 r)
      = Finset.univ.fold max (⊥ : EReal) (fun j : Fin 1024 => (X (ix2 r j) : EReal)) := by
  refine (Ideal.multiReduction_maximumf_single X 0xFF800000#32 reduces_S1024x1024_S1024 hφ hacc (ix1 r)).trans ?_
  have hl : (X ∘ reduces_S1024x1024_S1024.lift (ix1 r)) = fun j : Fin 1024 => (X (ix2 r j) : EReal) :=
    funext fun j => congrArg X (funext fun a => Fin.ext (by match a with | ⟨0, _⟩ => rfl | ⟨1, _⟩ => rfl))
  rw [hl]
  show Finset.univ.fold max (Ideal.ofBits .f32 0xFF800000#32) _ = _
  rw [ofBits_neg_inf_f32]
  rfl

/-- The sum over the lanes from 0, at row r: the sum over the row. -/
private theorem rowSum_apply (X : FVec Ideal S1024x1024 .f32) (hφ : FKind.Formats .f32)
    (hacc : (0x00000000#32 : BitVec 32) = 0x00000000#32) (r : Fin 1024) :
    multiReduction (F := Ideal) .add [1] S1024 X 0x00000000#32 reduces_S1024x1024_S1024 hφ hacc (ix1 r)
      = ∑ j : Fin 1024, (X (ix2 r j) : EReal) := by
  refine (Ideal.multiReduction_add_single X 0x00000000#32 reduces_S1024x1024_S1024 hφ hacc (ix1 r)).trans ?_
  exact Finset.sum_congr rfl fun j _ =>
    congrArg X (funext fun a => Fin.ext (by match a with | ⟨0, _⟩ => rfl | ⟨1, _⟩ => rfl))

/-! ### The projection kernel's product: [1024, 256] × [256, 512] -/

private theorem lhs_kv_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
private theorem lhs_kv_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
private theorem rhs_kv_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
private theorem rhs_kv_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- A [1024, 256] × [256, 512] product into the zero splat, at (r, c): the sum over the 256 channels. -/
private theorem mm_kv_apply (A : FVec Ideal S1024x256 .bf16) (B : FVec Ideal S256x512 .bf16) (r : Fin 1024) (c : Fin 512) :
    matmul dot_S1024x256_S256x512_S1024x512_1_0_0_1_n_n none A B (constant (F := Ideal) S1024x512 .f32 0x00000000#32) (ix2 r c)
      = ∑ e : Fin 256, A (ix2 r e) * B (ix2 e c) := by
  simp only [matmul]
  rw [Ideal.matmul_constant_zero_apply, ← Equiv.sum_comp (ValueIdx.contrEquiv1 dot_S1024x256_S256x512_S1024x512_1_0_0_1_n_n 256 rfl rfl).symm]
  refine Finset.sum_congr rfl fun e _ => ?_
  have hk := ValueIdx.contrEquiv1_symm_val dot_S1024x256_S256x512_S1024x512_1_0_0_1_n_n 256 rfl rfl e
  have el : dot_S1024x256_S256x512_S1024x512_1_0_0_1_n_n.lhsIdx (ix2 r c) ((ValueIdx.contrEquiv1 dot_S1024x256_S256x512_S1024x512_1_0_0_1_n_n 256 rfl rfl).symm e) = ix2 r e := funext fun a => Fin.ext (by
    match a with
    | ⟨0, _⟩ => exact lhs_kv_0 _ _
    | ⟨1, _⟩ => exact (lhs_kv_1 _ _).trans hk)
  have er : dot_S1024x256_S256x512_S1024x512_1_0_0_1_n_n.rhsIdx (ix2 r c) ((ValueIdx.contrEquiv1 dot_S1024x256_S256x512_S1024x512_1_0_0_1_n_n 256 rfl rfl).symm e) = ix2 e c := funext fun a => Fin.ext (by
    match a with
    | ⟨0, _⟩ => exact (rhs_kv_0 _ _).trans hk
    | ⟨1, _⟩ => exact rhs_kv_1 _ _)
  rw [el, er]

/-! ### The query projection's product: [1024, 256] × [256, 256] -/

private theorem lhs_q_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
private theorem lhs_q_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
private theorem rhs_q_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
private theorem rhs_q_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- A [1024, 256] × [256, 256] product into the zero splat, at (r, c): the sum over the 256 channels. -/
private theorem mm_q_apply (A : FVec Ideal S1024x256 .bf16) (B : FVec Ideal S256x256 .bf16) (r : Fin 1024) (c : Fin 256) :
    matmul dot_S1024x256_S256x256_S1024x256_1_0_0_1_n_n none A B (constant (F := Ideal) S1024x256 .f32 0x00000000#32) (ix2 r c)
      = ∑ e : Fin 256, A (ix2 r e) * B (ix2 e c) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun e _ => ?_
  have hk := ValueIdx.contrEquiv1_symm_val dot_S1024x256_S256x256_S1024x256_1_0_0_1_n_n 256 rfl rfl e
  have el : dot_S1024x256_S256x256_S1024x256_1_0_0_1_n_n.lhsIdx (ix2 r c) ((ValueIdx.contrEquiv1 dot_S1024x256_S256x256_S1024x256_1_0_0_1_n_n 256 rfl rfl).symm e) = ix2 r e := funext fun a => Fin.ext (by
    match a with
    | ⟨0, _⟩ => exact lhs_q_0 _ _
    | ⟨1, _⟩ => exact (lhs_q_1 _ _).trans hk)
  have er : dot_S1024x256_S256x256_S1024x256_1_0_0_1_n_n.rhsIdx (ix2 r c) ((ValueIdx.contrEquiv1 dot_S1024x256_S256x256_S1024x256_1_0_0_1_n_n 256 rfl rfl).symm e) = ix2 e c := funext fun a => Fin.ext (by
    match a with
    | ⟨0, _⟩ => exact (rhs_q_0 _ _).trans hk
    | ⟨1, _⟩ => exact rhs_q_1 _ _)
  rw [el, er]

/-! ### The scores' product: [1024, 256] against [1024, 256], both contracted along their channels -/

private theorem lhs_s_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
private theorem lhs_s_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
private theorem rhs_s_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
private theorem rhs_s_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- A [1024, 256] × [1024, 256]ᵀ product into the zero splat, at (r, c): row r against row c over the 256 channels. -/
private theorem mm_s_apply (A : FVec Ideal S1024x256 .bf16) (B : FVec Ideal S1024x256 .bf16) (r : Fin 1024) (c : Fin 1024) :
    matmul dot_S1024x256_S1024x256_S1024x1024_1_1_0_0_n_n none A B (constant (F := Ideal) S1024x1024 .f32 0x00000000#32) (ix2 r c)
      = ∑ e : Fin 256, A (ix2 r e) * B (ix2 c e) := by
  simp only [matmul]
  rw [Ideal.matmul_constant_zero_apply, ← Equiv.sum_comp (ValueIdx.contrEquiv1 dot_S1024x256_S1024x256_S1024x1024_1_1_0_0_n_n 256 rfl rfl).symm]
  refine Finset.sum_congr rfl fun e _ => ?_
  have hk := ValueIdx.contrEquiv1_symm_val dot_S1024x256_S1024x256_S1024x1024_1_1_0_0_n_n 256 rfl rfl e
  have el : dot_S1024x256_S1024x256_S1024x1024_1_1_0_0_n_n.lhsIdx (ix2 r c) ((ValueIdx.contrEquiv1 dot_S1024x256_S1024x256_S1024x1024_1_1_0_0_n_n 256 rfl rfl).symm e) = ix2 r e := funext fun a => Fin.ext (by
    match a with
    | ⟨0, _⟩ => exact lhs_s_0 _ _
    | ⟨1, _⟩ => exact (lhs_s_1 _ _).trans hk)
  have er : dot_S1024x256_S1024x256_S1024x1024_1_1_0_0_n_n.rhsIdx (ix2 r c) ((ValueIdx.contrEquiv1 dot_S1024x256_S1024x256_S1024x1024_1_1_0_0_n_n 256 rfl rfl).symm e) = ix2 c e := funext fun a => Fin.ext (by
    match a with
    | ⟨0, _⟩ => exact rhs_s_0 _ _
    | ⟨1, _⟩ => exact (rhs_s_1 _ _).trans hk)
  rw [el, er]

/-! ### The weights-times-values product: [1024, 1024] × [1024, 256] -/

private theorem lhs_pv_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
private theorem lhs_pv_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
private theorem rhs_pv_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
private theorem rhs_pv_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- A [1024, 1024] × [1024, 256] product into the zero splat, at (r, c): the sum over the 1024 keys. -/
private theorem mm_pv_apply (A : FVec Ideal S1024x1024 .bf16) (B : FVec Ideal S1024x256 .bf16) (r : Fin 1024) (c : Fin 256) :
    matmul dot_S1024x1024_S1024x256_S1024x256_1_0_0_1_n_n none A B (constant (F := Ideal) S1024x256 .f32 0x00000000#32) (ix2 r c)
      = ∑ e : Fin 1024, A (ix2 r e) * B (ix2 e c) := by
  simp only [matmul]
  rw [Ideal.matmul_constant_zero_apply, ← Equiv.sum_comp (ValueIdx.contrEquiv1 dot_S1024x1024_S1024x256_S1024x256_1_0_0_1_n_n 1024 rfl rfl).symm]
  refine Finset.sum_congr rfl fun e _ => ?_
  have hk := ValueIdx.contrEquiv1_symm_val dot_S1024x1024_S1024x256_S1024x256_1_0_0_1_n_n 1024 rfl rfl e
  have el : dot_S1024x1024_S1024x256_S1024x256_1_0_0_1_n_n.lhsIdx (ix2 r c) ((ValueIdx.contrEquiv1 dot_S1024x1024_S1024x256_S1024x256_1_0_0_1_n_n 1024 rfl rfl).symm e) = ix2 r e := funext fun a => Fin.ext (by
    match a with
    | ⟨0, _⟩ => exact lhs_pv_0 _ _
    | ⟨1, _⟩ => exact (lhs_pv_1 _ _).trans hk)
  have er : dot_S1024x1024_S1024x256_S1024x256_1_0_0_1_n_n.rhsIdx (ix2 r c) ((ValueIdx.contrEquiv1 dot_S1024x1024_S1024x256_S1024x256_1_0_0_1_n_n 1024 rfl rfl).symm e) = ix2 e c := funext fun a => Fin.ext (by
    match a with
    | ⟨0, _⟩ => exact (rhs_pv_0 _ _).trans hk
    | ⟨1, _⟩ => exact rhs_pv_1 _ _)
  rw [el, er]

/-! ### The projection kernel -/

/-- The projection kernel's product at (r, c): the input row against column c of the stacked weights. -/
private theorem k0_pay1_apply (x : Vec Ideal S1x1024x256 .f32) (w : Vec Ideal S256x512 .bf16) (r : Fin 1024) (c : Fin 512) :
    (k0_pay1 x w (ix2 r c) : EReal) = ∑ e : Fin 256, (x (ix3 (0 : Fin 1) r e) : EReal) * (w (ix2 e c) : EReal) := by
  unfold k0_pay1
  rw [mm_kv_apply]
  refine Finset.sum_congr rfl fun e _ => ?_
  rw [truncf_apply, shapeCast_1ab_ab_apply, shapeCast_self]

theorem kOut_apply (x : Vec Ideal S1x1024x256 .f32) (w : Vec Ideal S256x512 .bf16) (r : Fin 1024) (d : Fin 256) :
    (k0_pay2 x w (ix3 (0 : Fin 1) r d) : EReal)
      = ∑ e : Fin 256, (x (ix3 (0 : Fin 1) r e) : EReal) * (w (ix2 e (⟨d.val, by have := d.isLt; omega⟩ : Fin 512)) : EReal) := by
  unfold k0_pay2
  rw [shapeCast_ab_1ab_apply, truncf_apply,
    slice2_axis1_apply 0 (k0_pay1 x w) slices_S1024x512_o0_0_S1024x256 r d ⟨d.val, by have := d.isLt; omega⟩ (Nat.zero_add _).symm]
  exact k0_pay1_apply x w r _

theorem vOut_apply (x : Vec Ideal S1x1024x256 .f32) (w : Vec Ideal S256x512 .bf16) (r : Fin 1024) (d : Fin 256) :
    (k0_pay3 x w (ix3 (0 : Fin 1) r d) : EReal)
      = ∑ e : Fin 256, (x (ix3 (0 : Fin 1) r e) : EReal) * (w (ix2 e (⟨256 + d.val, by have := d.isLt; omega⟩ : Fin 512)) : EReal) := by
  unfold k0_pay3
  rw [shapeCast_ab_1ab_apply, truncf_apply,
    slice2_axis1_apply 256 (k0_pay1 x w) slices_S1024x512_o0_256_S1024x256 r d ⟨256 + d.val, by have := d.isLt; omega⟩ rfl]
  exact k0_pay1_apply x w r _

/-! ### The attention kernel's payloads at an index -/

/-- The projected queries at (r, c): the input row against column c of the query weights. -/
private theorem k1_pay4_apply (x : Vec Ideal S1x1024x256 .f32) (wq : Vec Ideal S256x256 .bf16) (r : Fin 1024) (c : Fin 256) :
    (k1_pay4 x wq (ix2 r c) : EReal) = ∑ e : Fin 256, (x (ix3 (0 : Fin 1) r e) : EReal) * (wq (ix2 e c) : EReal) := by
  unfold k1_pay4
  rw [shapeCast_self, truncf_apply, mm_q_apply]
  refine Finset.sum_congr rfl fun e _ => ?_
  rw [truncf_apply, shapeCast_1ab_ab_apply, shapeCast_self]

/-- The scores at (r, j): query row r against key row j of the block. -/
private theorem k1_pay9_apply (q : Vec Ideal S1024x256 .bf16) (kb : Vec Ideal S1x1024x256 .bf16) (r j : Fin 1024) :
    (k1_pay9 q kb (ix2 r j) : EReal) = sc q kb r j := by
  unfold k1_pay9 sc
  rw [mm_s_apply]
  refine Finset.sum_congr rfl fun c _ => ?_
  rw [shapeCast_1ab_ab_apply]

/-- The new running maximum of row r: the old one against the maximum of the block's scores. -/
private theorem k1_pay10_apply (q : Vec Ideal S1024x256 .bf16) (kb : Vec Ideal S1x1024x256 .bf16) (m : Vec Ideal S1024x1 .f32)
    (r : Fin 1024) :
    (k1_pay10 q kb m (ix2 r (0 : Fin 1)) : EReal)
      = max (m (ix2 r (0 : Fin 1)) : EReal) (Finset.univ.fold max (⊥ : EReal) (sc q kb r)) := by
  unfold k1_pay10
  rw [maximumf_apply, shapeCast_a_a1_apply, rowMax_apply]
  have h : (fun j : Fin 1024 => (k1_pay9 q kb (ix2 r j) : EReal)) = sc q kb r := funext fun j => k1_pay9_apply q kb r j
  rw [h]

/-- The rescaling factor of row r: the exponential of an old maximum less the new one. -/
private theorem k1_pay11_apply (q : Vec Ideal S1024x256 .bf16) (kb : Vec Ideal S1x1024x256 .bf16) (m m' : Vec Ideal S1024x1 .f32)
    (r : Fin 1024) :
    (k1_pay11 q kb m m' (ix2 r (0 : Fin 1)) : EReal)
      = Ideal.exp ((m' (ix2 r (0 : Fin 1)) : EReal)
          - max (m (ix2 r (0 : Fin 1)) : EReal) (Finset.univ.fold max (⊥ : EReal) (sc q kb r))) := by
  unfold k1_pay11
  show Ideal.exp ((m' (ix2 r (0 : Fin 1)) : EReal) - (k1_pay10 q kb m (ix2 r (0 : Fin 1)) : EReal)) = _
  rw [k1_pay10_apply]

/-- The block's exponentials at (r, j): the score less the new maximum of row r. -/
private theorem k1_pay12_apply (q : Vec Ideal S1024x256 .bf16) (kb : Vec Ideal S1x1024x256 .bf16) (m : Vec Ideal S1024x1 .f32)
    (r j : Fin 1024) :
    (k1_pay12 q kb m (ix2 r j) : EReal)
      = Ideal.exp (sc q kb r j - max (m (ix2 r (0 : Fin 1)) : EReal) (Finset.univ.fold max (⊥ : EReal) (sc q kb r))) := by
  unfold k1_pay12
  show Ideal.exp ((k1_pay9 q kb (ix2 r j) : EReal)
    - broadcastTo S1024x1024 (k1_pay10 q kb m) broadcasts_S1024x1_S1024x1024 (ix2 r j)) = _
  rw [broadcastTo_a1_ab_apply, k1_pay9_apply, k1_pay10_apply]

/-- The new running sum of row r: the old one rescaled plus the block's exponentials. -/
private theorem k1_pay13_apply (q : Vec Ideal S1024x256 .bf16) (kb : Vec Ideal S1x1024x256 .bf16) (m m' l : Vec Ideal S1024x1 .f32)
    (r : Fin 1024) :
    (k1_pay13 q kb m m' l (ix2 r (0 : Fin 1)) : EReal)
      = (k1_pay11 q kb m m' (ix2 r (0 : Fin 1)) : EReal) * (l (ix2 r (0 : Fin 1)) : EReal)
        + ∑ j : Fin 1024, (k1_pay12 q kb m (ix2 r j) : EReal) := by
  unfold k1_pay13
  rw [shapeCast_self, addf_apply, mulf_apply, shapeCast_a_a1_apply, rowSum_apply]

/-- The old weighted sum rescaled, at (r, d). -/
private theorem k1_pay14_apply (q : Vec Ideal S1024x256 .bf16) (kb : Vec Ideal S1x1024x256 .bf16) (m m' : Vec Ideal S1024x1 .f32)
    (a : Vec Ideal S1024x256 .f32) (r : Fin 1024) (d : Fin 256) :
    (k1_pay14 q kb m m' a (ix2 r d) : EReal)
      = (k1_pay11 q kb m m' (ix2 r (0 : Fin 1)) : EReal) * (a (ix2 r d) : EReal) := by
  unfold k1_pay14
  rw [mulf_apply, broadcastTo_a1_ab_apply]

/-- The stored weighted sum at (r, d): what is carried plus the block's weights against the block's values. -/
private theorem k1_pay1_apply (v : FVec Ideal S1024x256 .bf16) (a : FVec Ideal S1024x256 .f32) (p : FVec Ideal S1024x1024 .bf16)
    (r : Fin 1024) (d : Fin 256) :
    (k1_pay1 v a p (constant (F := Ideal) S1024x256 .f32 0x00000000#32) (ix2 r d) : EReal)
      = (a (ix2 r d) : EReal) + ∑ j : Fin 1024, (p (ix2 r j) : EReal) * (v (ix2 j d) : EReal) := by
  unfold k1_pay1
  rw [shapeCast_self, addf_apply, mm_pv_apply]

/-! ### The attention kernel's reset state -/

theorem stInit_q (x : Vec Ideal S1x1024x256 .f32) (wq : Vec Ideal S256x256 .bf16) (r : Fin 1024) (c : Fin 256) :
    ((stInit x wq).1 (ix2 r c) : EReal) = ∑ e : Fin 256, (x (ix3 (0 : Fin 1) r e) : EReal) * (wq (ix2 e c) : EReal) :=
  k1_pay4_apply x wq r c

theorem stInit_m (x : Vec Ideal S1x1024x256 .f32) (wq : Vec Ideal S256x256 .bf16) (r : Fin 1024) :
    ((stInit x wq).2.1 (ix2 r (0 : Fin 1)) : EReal) = ⊥ := by
  show (k1_pay5 (F := Ideal)) (ix2 r (0 : Fin 1)) = ⊥
  unfold k1_pay5
  rw [shapeCast_self]
  exact ofBits_neg_inf_f32

theorem stInit_l (x : Vec Ideal S1x1024x256 .f32) (wq : Vec Ideal S256x256 .bf16) (r : Fin 1024) :
    ((stInit x wq).2.2.1 (ix2 r (0 : Fin 1)) : EReal) = 0 := by
  show (k1_pay6 (F := Ideal)) (ix2 r (0 : Fin 1)) = 0
  unfold k1_pay6
  rw [shapeCast_self]
  exact Ideal.ofBits_zero_f32

theorem stInit_a (x : Vec Ideal S1x1024x256 .f32) (wq : Vec Ideal S256x256 .bf16) (r : Fin 1024) (d : Fin 256) :
    ((stInit x wq).2.2.2 (ix2 r d) : EReal) = 0 := by
  show (k1_pay7 (F := Ideal)) (ix2 r d) = 0
  unfold k1_pay7
  rw [shapeCast_self]
  exact Ideal.ofBits_zero_f32

/-! ### One key block -/

theorem stStep_q (s : St Ideal) (kb vb : Vec Ideal S1x1024x256 .bf16) : (stStep s kb vb).1 = s.1 := rfl

/-- The running maximum and the running sum of row r move by the online softmax's step on the block's scores. -/
theorem stStep_ml (s : St Ideal) (kb vb : Vec Ideal S1x1024x256 .bf16) (r : Fin 1024) :
    (((stStep s kb vb).2.1 (ix2 r (0 : Fin 1)) : EReal), ((stStep s kb vb).2.2.1 (ix2 r (0 : Fin 1)) : EReal))
      = upd (sc s.1 kb r) ((s.2.1 (ix2 r (0 : Fin 1)) : EReal), (s.2.2.1 (ix2 r (0 : Fin 1)) : EReal)) := by
  have h1 : ((stStep s kb vb).2.1 (ix2 r (0 : Fin 1)) : EReal)
      = (upd (sc s.1 kb r) ((s.2.1 (ix2 r (0 : Fin 1)) : EReal), (s.2.2.1 (ix2 r (0 : Fin 1)) : EReal))).1 := by
    show (k1_pay2 (k1_pay10 s.1 kb s.2.1) (ix2 r (0 : Fin 1)) : EReal) = _
    unfold k1_pay2
    rw [shapeCast_self, k1_pay10_apply]
    rfl
  have h2 : ((stStep s kb vb).2.2.1 (ix2 r (0 : Fin 1)) : EReal)
      = (upd (sc s.1 kb r) ((s.2.1 (ix2 r (0 : Fin 1)) : EReal), (s.2.2.1 (ix2 r (0 : Fin 1)) : EReal))).2 := by
    show (k1_pay13 s.1 kb s.2.1 s.2.1 s.2.2.1 (ix2 r (0 : Fin 1)) : EReal) = _
    rw [k1_pay13_apply, k1_pay11_apply, Finset.sum_congr rfl fun j _ => k1_pay12_apply s.1 kb s.2.1 r j]
    rfl
  exact Prod.ext h1 h2

/-- The running weighted sum of row r, channel d, moves by the weighted sum's step on the block's scores and values. -/
theorem stStep_a (s : St Ideal) (kb vb : Vec Ideal S1x1024x256 .bf16) (r : Fin 1024) (d : Fin 256) :
    ((stStep s kb vb).2.2.2 (ix2 r d) : EReal)
      = updA (sc s.1 kb r) (fun j => (vb (ix3 (0 : Fin 1) j d) : EReal))
          ((s.2.1 (ix2 r (0 : Fin 1)) : EReal), (s.2.2.1 (ix2 r (0 : Fin 1)) : EReal)) (s.2.2.2 (ix2 r d) : EReal) := by
  show (k1_pay1 (k1_pay8 vb) (k1_pay14 s.1 kb s.2.1 s.2.1 s.2.2.2) (k1_pay15 s.1 kb s.2.1)
    (constant (F := Ideal) S1024x256 .f32 0x00000000#32) (ix2 r d) : EReal) = _
  rw [k1_pay1_apply, k1_pay14_apply, k1_pay11_apply]
  have hs : ∀ j : Fin 1024, (k1_pay15 s.1 kb s.2.1 (ix2 r j) : EReal) * (k1_pay8 vb (ix2 j d) : EReal)
      = Ideal.exp (sc s.1 kb r j - max (s.2.1 (ix2 r (0 : Fin 1)) : EReal) (Finset.univ.fold max (⊥ : EReal) (sc s.1 kb r)))
        * (vb (ix3 (0 : Fin 1) j d) : EReal) := by
    intro j
    have e1 : (k1_pay15 s.1 kb s.2.1 (ix2 r j) : EReal) = (k1_pay12 s.1 kb s.2.1 (ix2 r j) : EReal) := rfl
    have e2 : (k1_pay8 vb (ix2 j d) : EReal) = (vb (ix3 (0 : Fin 1) j d) : EReal) := by
      unfold k1_pay8
      rw [shapeCast_1ab_ab_apply]
    rw [e1, e2, k1_pay12_apply]
  rw [Finset.sum_congr rfl fun j _ => hs j]
  rfl

/-! ### The rows written at the last key block -/

theorem outOf_apply (s : St Ideal) (x : Vec Ideal S1x1024x256 .f32) (r : Fin 1024) (d : Fin 256) :
    (outOf s x (ix3 (0 : Fin 1) r d) : EReal)
      = (x (ix3 (0 : Fin 1) r d) : EReal) * Ideal.div (s.2.2.2 (ix2 r d) : EReal) (s.2.2.1 (ix2 r (0 : Fin 1)) : EReal) := by
  show (k1_pay3 s.2.2.2 s.2.2.1 x (ix3 (0 : Fin 1) r d) : EReal) = _
  unfold k1_pay3
  rw [shapeCast_ab_1ab_apply, mulf_apply, shapeCast_1ab_ab_apply, divf_apply, broadcastTo_a1_ab_apply]

end Cert.KernelIdeal.Hand

end
-- ==== Proof.Val.Args.lean ====
/-
  The kernel program's four arguments on a core, read by plain coordinates, and the grid points' coordinates: point t of
  the attention grid is batch t / 16, query block t / 4 % 4, key block t % 4; point t of the projection grid is batch
  t / 4, row block t % 4.
-/
import proofs.«402299_j61332132987363_3_alg».proof.Proof.KI.Launch
import proofs.«402299_j61332132987363_3_alg».proof.Proof.Val.Arr
import proofs.«402299_j61332132987363_3_alg».proof.Proof.Val.Spec
import proofs.«402299_j61332132987363_3_alg».proof.Proof.Val.Payload

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen
open ValueIdx OnlineSoftmax AttnArr AttnSpec

variable (m : (ℓ : Loc nD τ sig) → Buf (Elt Ideal) ℓ)

/-- The input and the three weight matrices on core c. -/
def xA (c : Dev nD) : Fin 8 → Fin (4 * 1024) → Fin 256 → EReal := xOf (m ((c : Thread nD τ).loc main_arg0))
def wqA (c : Dev nD) : Fin 256 → Fin 256 → EReal := wOf (m ((c : Thread nD τ).loc main_arg1))
def wkA (c : Dev nD) : Fin 256 → Fin 256 → EReal := wOf (m ((c : Thread nD τ).loc main_arg2))
def wvA (c : Dev nD) : Fin 256 → Fin 256 → EReal := wOf (m ((c : Thread nD τ).loc main_arg3))

/-- The attention grid's coordinates. -/
def bOf (t : Fin cfg1.N) : Fin 8 := ⟨t.val / 16, by have := lt_of_lt_of_eq t.isLt (show cfg1.N = 128 from N_1); omega⟩
def qOf (t : Fin cfg1.N) : ℕ := t.val / 4 % 4
def kOf (t : Fin cfg1.N) : ℕ := t.val % 4
/-- Row r of the point's query block, and key row j of its key block, as rows of the batch. -/
def rowQ (t : Fin cfg1.N) (r : Fin 1024) : Fin (4 * 1024) := ⟨qOf t * 1024 + r.val, by unfold qOf; have := r.isLt; omega⟩
def rowK (t : Fin cfg1.N) (j : Fin 1024) : Fin (4 * 1024) := ⟨kOf t * 1024 + j.val, by unfold kOf; have := j.isLt; omega⟩

/-- The projection grid's coordinates. -/
def b0Of (t : Fin cfg0.N) : Fin 8 := ⟨t.val / 4, by have := lt_of_lt_of_eq t.isLt (show cfg0.N = 32 from N_0); omega⟩
def row0 (t : Fin cfg0.N) (r : Fin 1024) : Fin (4 * 1024) := ⟨t.val % 4 * 1024 + r.val, by have := r.isLt; omega⟩

end Cert.KernelIdeal.Hand

end
-- ==== Proof.Val.Host.lean ====
/-
  What the host stretch before the kernels computes, read at an index: the input flattened to rows, the key and value
  weights side by side in one matrix, the query weights as they are (a change of float format is the identity).
-/
import proofs.«402299_j61332132987363_3_alg».proof.Proof.Val.Args
import Idealize.ShloMosaic.Lib.StableHlo.Run
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen
open ValueIdx OnlineSoftmax AttnArr AttnSpec

variable (m : (ℓ : Loc nD τ sig) → Buf (Elt Ideal) ℓ)

/-- The host stretch leaves in the flattened input the input itself, its two pixel axes merged into one row axis. -/
private theorem V1_v0_eq (c : Dev nD) :
    (V1 m c main_v0 : Vec Ideal S8x4096x256 .f32)
      = shapeCast _ (m ((c : Thread nD τ).loc main_arg0)) shapeCasts_S8x64x64x256_S8x4096x256 := by
  show StableHlo.after hostOps0 _ (Proc.devRef .tc main_v0) = _
  after_results
  rfl

/-- The joined weight matrix is the key weights followed, along the columns, by the value weights. -/
private theorem V1_v3_eq (c : Dev nD) :
    (V1 m c main_v3 : Vec Ideal S256x512 .bf16)
      = concatenate S256x512 1 [⟨S256x256, (m ((c : Thread nD τ).loc main_arg2) : Vec Ideal S256x256 .f32)⟩,
          ⟨S256x256, (m ((c : Thread nD τ).loc main_arg3) : Vec Ideal S256x256 .f32)⟩] concatenates_S256x256_S256x256_S256x512_d1 := by
  show StableHlo.after hostOps0 _ (Proc.devRef .tc main_v3) = _
  after_results
  rfl

/-- The query weights pass through unchanged. -/
private theorem V1_v4_eq (c : Dev nD) :
    (V1 m c main_v4 : Vec Ideal S256x256 .bf16) = (m ((c : Thread nD τ).loc main_arg1) : Vec Ideal S256x256 .f32) := by
  show StableHlo.after hostOps0 _ (Proc.devRef .tc main_v4) = _
  after_results
  rfl

theorem V1_v0_apply (c : Dev nD) (b : Fin 8) (n : Fin (4 * 1024)) (e : Fin 256) :
    ((V1 m c main_v0 : Vec Ideal S8x4096x256 .f32) (ix3 b n e) : EReal) = xA m c b n e := by
  rw [V1_v0_eq]
  unfold xA xOf
  exact shapeCast_apply _ shapeCasts_S8x64x64x256_S8x4096x256 (ix3 b n e) (pix b n e) (by
    rewrite [Shape.rowMajor_val_four, Shape.rowMajor_val_three]
    have hn := n.isLt
    show ((b.val * 64 + n.val / 64) * 64 + n.val % 64) * 256 + e.val = (b.val * 4096 + n.val) * 256 + e.val
    omega)

theorem V1_v3_k (c : Dev nD) (e d : Fin 256) :
    ((V1 m c main_v3 : Vec Ideal S256x512 .bf16) (ix2 e (⟨d.val, by have := d.isLt; omega⟩ : Fin 512)) : EReal) = wkA m c e d := by
  rw [V1_v3_eq]
  unfold wkA wOf
  exact concatenate_pair_apply_left (t := S256x512) (s₁ := S256x256) (s₂ := S256x256) 1 _ _
    concatenates_S256x256_S256x256_S256x512_d1 _ rfl (ix2 e d)
    (fun b => by match b with | ⟨0, _⟩ => rfl | ⟨1, _⟩ => rfl)

theorem V1_v3_v (c : Dev nD) (e d : Fin 256) :
    ((V1 m c main_v3 : Vec Ideal S256x512 .bf16) (ix2 e (⟨256 + d.val, by have := d.isLt; omega⟩ : Fin 512)) : EReal) = wvA m c e d := by
  rw [V1_v3_eq]
  unfold wvA wOf
  exact concatenate_pair_apply_right (t := S256x512) (s₁ := S256x256) (s₂ := S256x256) 1 _ _
    concatenates_S256x256_S256x256_S256x512_d1 _ rfl rfl (ix2 e d)
    (fun b hb => by match b, hb with | ⟨0, _⟩, _ => rfl | ⟨1, _⟩, hb => exact absurd rfl hb)
    (Nat.add_comm _ _)

theorem V1_v4_apply (c : Dev nD) (e cc : Fin 256) :
    ((V1 m c main_v4 : Vec Ideal S256x256 .bf16) (ix2 e cc) : EReal) = wqA m c e cc := by
  rw [V1_v4_eq]
  rfl

end Cert.KernelIdeal.Hand

end
-- ==== Proof.Val.Arrays0.lean ====
/-
  What the projection region leaves in its two result arrays: the keys and the values, every row's projection by the key
  and by the value weights. Each grid point writes back one block of 1024 rows of one batch; the 32 blocks tile the arrays.
-/
import proofs.«402299_j61332132987363_3_alg».proof.Proof.Val.Host

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen
open ValueIdx OnlineSoftmax AttnArr AttnSpec

variable (m : (ℓ : Loc nD τ sig) → Buf (Elt Ideal) ℓ)

/-! ## The block indices over the grid -/

/-- Point t of the grid holds rows block t % 4 of batch t / 4 in the input window and in both result windows, and the
    whole packed weight matrix. -/
private theorem blockIdx0 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = t.val % 4 ∧ win0_3.index t (2 : Fin 3) = 0 :=
  (by decide +kernel : ∀ t : Fin grid0.N, _)

/-! ## The input blocks of a point -/

/-- The rows' block at point t: row r of the block is row (t % 4) · 1024 + r of batch t / 4. -/
private theorem xBlk_apply (c : Dev nD) (t : Fin cfg0.N) (r : Fin 1024) (e : Fin 256) :
    ((iblk0 (V1 m) c 0 t : Vec Ideal S1x1024x256 .f32) (ix3 (0 : Fin 1) r e) : EReal) = xA m c (b0Of t) (row0 t r) e := by
  obtain ⟨h0, h1, h2, -⟩ := blockIdx0 t
  rw [← V1_v0_apply m c (b0Of t) (row0 t r) e]
  unfold iblk0
  rw [View.read_apply]
  show V1 m c main_v0 _ = V1 m c main_v0 _
  refine congrArg (V1 m c main_v0) (funext fun a => Fin.ext ?_)
  match a with
  | ⟨0, _⟩ => show win0_0.index t (0 : Fin 3) * 1 + 1 * 0 = t.val / 4; omega
  | ⟨1, _⟩ => show win0_0.index t (1 : Fin 3) * 1024 + 1 * r.val = t.val % 4 * 1024 + r.val; omega
  | ⟨2, _⟩ => show win0_0.index t (2 : Fin 3) * 256 + 1 * e.val = e.val; omega

/-- The weights' block at any point is the whole packed matrix. -/
private theorem wBlk_apply (c : Dev nD) (t : Fin cfg0.N) (e : Fin 256) (d : Fin 512) :
    ((iblk0 (V1 m) c 1 t : Vec Ideal S256x512 .bf16) (ix2 e d) : EReal)
      = ((V1 m c main_v3 : Vec Ideal S256x512 .bf16) (ix2 e d) : EReal) := by
  obtain ⟨-, -, -, h0, h1, -⟩ := blockIdx0 t
  unfold iblk0
  rw [View.read_apply]
  show V1 m c main_v3 _ = V1 m c main_v3 _
  refine congrArg (V1 m c main_v3) (funext fun a => Fin.ext ?_)
  match a with
  | ⟨0, _⟩ => show win0_1.index t (0 : Fin 2) * 256 + 1 * e.val = e.val; omega
  | ⟨1, _⟩ => show win0_1.index t (1 : Fin 2) * 512 + 1 * d.val = d.val; omega

/-! ## What a point leaves in the result windows -/

/-- Row r of the key half a point leaves is the projection by the key weights of row (t % 4) · 1024 + r of batch t / 4. -/
private theorem kOut_at (c : Dev nD) (t : Fin cfg0.N) (r : Fin 1024) (d : Fin 256) :
    ((kOut (V1 m) c t : Vec Ideal S1x1024x256 .bf16) (ix3 (0 : Fin 1) r d) : EReal)
      = proj (xA m c) (wkA m c) (b0Of t) (row0 t r) d := by
  unfold kOut proj
  refine (kOut_apply _ _ r d).trans (Finset.sum_congr rfl fun e _ => ?_)
  rw [xBlk_apply, wBlk_apply, V1_v3_k]

/-- Row r of the value half a point leaves is that row's projection by the value weights. -/
private theorem vOut_at (c : Dev nD) (t : Fin cfg0.N) (r : Fin 1024) (d : Fin 256) :
    ((vOut (V1 m) c t : Vec Ideal S1x1024x256 .bf16) (ix3 (0 : Fin 1) r d) : EReal)
      = proj (xA m c) (wvA m c) (b0Of t) (row0 t r) d := by
  unfold vOut proj
  refine (vOut_apply _ _ r d).trans (Finset.sum_congr rfl fun e _ => ?_)
  rw [xBlk_apply, wBlk_apply, V1_v3_v]

/-- A weight matrix's projections of every row as one array. -/
private def projArr (c : Dev nD) (w : Fin 256 → Fin 256 → EReal) : Vec Ideal S8x4096x256 .bf16 :=
  fun i => proj (xA m c) w (i 0) (i 1) (i 2)

/-- A projection depends on its coordinates only through their values. -/
private theorem proj_congr (x : Fin 8 → Fin (4 * 1024) → Fin 256 → EReal) (w : Fin 256 → Fin 256 → EReal) {b b' : Fin 8}
    {n n' : Fin (4 * 1024)} {d d' : Fin 256} (hb : b.val = b'.val) (hn : n.val = n'.val) (hd : d.val = d'.val) :
    proj x w b n d = proj x w b' n' d' := by
  obtain rfl := Fin.ext hb
  obtain rfl := Fin.ext hn
  obtain rfl := Fin.ext hd
  rfl

/-- What point t writes back to the keys is its block of the key projections' array. -/
private theorem flushedK_eq (c : Dev nD) (t : Fin cfg0.N) :
    (dat0 (V1 m) c).flushed 2 t = ((cfg0.win 2).blk t).view.read (Elt Ideal) (projArr m c (wkA m c)) := by
  show (cfg0.win 2).cut (grid0.coords t) ((dat0 (V1 m) c).after 2 t) = _
  rw [after0_2]
  funext y
  obtain ⟨-, -, -, -, -, h0, h1, h2, -⟩ := blockIdx0 t
  have hy0 : (y 0).val = 0 := by have : (y 0).val < 1 := (y 0).isLt; omega
  have hy1 : (y 1).val < 1024 := (y 1).isLt
  have hy2 : (y 2).val < 256 := (y 2).isLt
  have hL : (cfg0.win 2).xinj (grid0.coords t) y
      = ix3 (0 : Fin 1) (⟨(y 1).val, hy1⟩ : Fin 1024) (⟨(y 2).val, hy2⟩ : Fin 256) :=
    funext fun a => Fin.ext (by match a with | ⟨0, _⟩ => exact hy0 | ⟨1, _⟩ => rfl | ⟨2, _⟩ => rfl)
  show kOut (V1 m) c t ((cfg0.win 2).xinj (grid0.coords t) y) = _
  rw [View.read_apply]
  refine (congrArg (kOut (V1 m) c t) hL).trans ((kOut_at m c t _ _).trans ?_)
  show proj _ _ _ _ _ = projArr m c (wkA m c) (((cfg0.win 2).blk t).view.emb y)
  unfold projArr
  refine proj_congr _ _ ?_ ?_ ?_
  · show t.val / 4 = win0_2.index t (0 : Fin 3) * 1 + 1 * (y 0).val; omega
  · show t.val % 4 * 1024 + (y 1).val = win0_2.index t (1 : Fin 3) * 1024 + 1 * (y 1).val; omega
  · show (y 2).val = win0_2.index t (2 : Fin 3) * 256 + 1 * (y 2).val; omega

/-- What point t writes back to the values is its block of the value projections' array. -/
private theorem flushedV_eq (c : Dev nD) (t : Fin cfg0.N) :
    (dat0 (V1 m) c).flushed 3 t = ((cfg0.win 3).blk t).view.read (Elt Ideal) (projArr m c (wvA m c)) := by
  show (cfg0.win 3).cut (grid0.coords t) ((dat0 (V1 m) c).after 3 t) = _
  rw [after0_3]
  funext y
  obtain ⟨-, -, -, -, -, -, -, -, h0, h1, h2⟩ := blockIdx0 t
  have hy0 : (y 0).val = 0 := by have : (y 0).val < 1 := (y 0).isLt; omega
  have hy1 : (y 1).val < 1024 := (y 1).isLt
  have hy2 : (y 2).val < 256 := (y 2).isLt
  have hL : (cfg0.win 3).xinj (grid0.coords t) y
      = ix3 (0 : Fin 1) (⟨(y 1).val, hy1⟩ : Fin 1024) (⟨(y 2).val, hy2⟩ : Fin 256) :=
    funext fun a => Fin.ext (by match a with | ⟨0, _⟩ => exact hy0 | ⟨1, _⟩ => rfl | ⟨2, _⟩ => rfl)
  show vOut (V1 m) c t ((cfg0.win 3).xinj (grid0.coords t) y) = _
  rw [View.read_apply]
  refine (congrArg (vOut (V1 m) c t) hL).trans ((vOut_at m c t _ _).trans ?_)
  show proj _ _ _ _ _ = projArr m c (wvA m c) (((cfg0.win 3).blk t).view.emb y)
  unfold projArr
  refine proj_congr _ _ ?_ ?_ ?_
  · show t.val / 4 = win0_3.index t (0 : Fin 3) * 1 + 1 * (y 0).val; omega
  · show t.val % 4 * 1024 + (y 1).val = win0_3.index t (1 : Fin 3) * 1024 + 1 * (y 1).val; omega
  · show (y 2).val = win0_3.index t (2 : Fin 3) * 256 + 1 * (y 2).val; omega

/-! ## The blocks tile the arrays -/

/-- An index is in point t's block of the keys iff each coordinate is in the block's range on its axis. -/
private theorem mem_blkK (t : Fin cfg0.N) (i : S8x4096x256.Idx) :
    i ∈ ((cfg0.win 2).blk t).view.set ↔ ∀ a : Fin 3, win0_2.index t a * S1x1024x256.size a ≤ (i a).val
      ∧ (i a).val < win0_2.index t a * S1x1024x256.size a + S1x1024x256.size a := by
  show i ∈ ((View.whole main_v5_0).slice (win0_2.rect t)).set ↔ _
  rw [View.set_slice_whole, Rect.mem_set_unit]
  exact Iff.rfl

/-- The same for the values. -/
private theorem mem_blkV (t : Fin cfg0.N) (i : S8x4096x256.Idx) :
    i ∈ ((cfg0.win 3).blk t).view.set ↔ ∀ a : Fin 3, win0_3.index t a * S1x1024x256.size a ≤ (i a).val
      ∧ (i a).val < win0_3.index t a * S1x1024x256.size a + S1x1024x256.size a := by
  show i ∈ ((View.whole main_v5_1).slice (win0_3.rect t)).set ↔ _
  rw [View.set_slice_whole, Rect.mem_set_unit]
  exact Iff.rfl

/-- Row n of batch b is in the block of point b · 4 + n / 1024. -/
private theorem coverK (i : S8x4096x256.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 256 := (i 2).isLt
  have hN : cfg0.N = 32 := N_0
  obtain ⟨t, ht⟩ : ∃ t : Fin cfg0.N, t.val = (i 0).val * 4 + (i 1).val / 1024 :=
    ⟨⟨(i 0).val * 4 + (i 1).val / 1024, by rw [hN]; omega⟩, rfl⟩
  refine ⟨t, flush0_2 t, ?_⟩
  rw [mem_blkK]
  obtain ⟨-, -, -, -, -, h0, h1, h2, -⟩ := blockIdx0 t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 256 ≤ (i 2).val ∧ (i 2).val < win0_2.index t (2 : Fin 3) * 256 + 256; omega

/-- The same for the values. -/
private theorem coverV (i : S8x4096x256.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 256 := (i 2).isLt
  have hN : cfg0.N = 32 := N_0
  obtain ⟨t, ht⟩ : ∃ t : Fin cfg0.N, t.val = (i 0).val * 4 + (i 1).val / 1024 :=
    ⟨⟨(i 0).val * 4 + (i 1).val / 1024, by rw [hN]; omega⟩, rfl⟩
  refine ⟨t, flush0_3 t, ?_⟩
  rw [mem_blkV]
  obtain ⟨-, -, -, -, -, -, -, -, h0, h1, h2⟩ := blockIdx0 t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 256 ≤ (i 2).val ∧ (i 2).val < win0_3.index t (2 : Fin 3) * 256 + 256; omega

/-! ## The arrays after the region -/

/-- After the 32 points the keys' array is the key projections' array, -/
private theorem kArr_eq (c : Dev nD) : (dat0 (V1 m) c).arrAt 2 cfg0.N = projArr m c (wkA m c) :=
  (dat0 (V1 m) c).arrAt_eq_of_cover 2 (projArr m c (wkA m c)) (fun t _ => flushedK_eq m c t) coverK

/-- and the values' array the value projections'. -/
private theorem vArr_eq (c : Dev nD) : (dat0 (V1 m) c).arrAt 3 cfg0.N = projArr m c (wvA m c) :=
  (dat0 (V1 m) c).arrAt_eq_of_cover 3 (projArr m c (wvA m c)) (fun t _ => flushedV_eq m c t) coverV

theorem kArr_apply (c : Dev nD) (b : Fin 8) (n : Fin (4 * 1024)) (d : Fin 256) :
    (((dat0 (V1 m) c).arrAt 2 cfg0.N : Vec Ideal S8x4096x256 .bf16) (ix3 b n d) : EReal)
      = proj (xA m c) (wkA m c) b n d :=
  congrFun (kArr_eq m c) (ix3 b n d)

theorem vArr_apply (c : Dev nD) (b : Fin 8) (n : Fin (4 * 1024)) (d : Fin 256) :
    (((dat0 (V1 m) c).arrAt 3 cfg0.N : Vec Ideal S8x4096x256 .bf16) (ix3 b n d) : EReal)
      = proj (xA m c) (wvA m c) b n d :=
  congrFun (vArr_eq m c) (ix3 b n d)

end Cert.KernelIdeal.Hand

end
-- ==== Proof.Val.Blocks1.lean ====
/-
  The blocks the attention kernel is handed at a grid point, read at an index: the query block's input rows, the query
  weights, the key block's keys and values (the projection region's results).
-/
import proofs.«402299_j61332132987363_3_alg».proof.Proof.Val.Arrays0

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen
open ValueIdx OnlineSoftmax AttnArr AttnSpec

variable (m : (ℓ : Loc nD τ sig) → Buf (Elt Ideal) ℓ)

/-- The block indices of the four windows the kernel reads, at every grid point. -/
private theorem blockIdx1 : ∀ t : Fin cfg1.N,
    win1_0.index t (0 : Fin 3) = t.val / 16 ∧ win1_0.index t (1 : Fin 3) = t.val / 4 % 4 ∧ win1_0.index t (2 : Fin 3) = 0
    ∧ win1_1.index t (0 : Fin 2) = 0 ∧ win1_1.index t (1 : Fin 2) = 0
    ∧ win1_2.index t (0 : Fin 3) = t.val / 16 ∧ win1_2.index t (1 : Fin 3) = t.val % 4 ∧ win1_2.index t (2 : Fin 3) = 0
    ∧ win1_3.index t (0 : Fin 3) = t.val / 16 ∧ win1_3.index t (1 : Fin 3) = t.val % 4 ∧ win1_3.index t (2 : Fin 3) = 0 :=
  (by decide +kernel : ∀ t : Fin grid1.N, _)

/-- The input rows' array is an input of the projection region, which leaves it as it found it. -/
private theorem V2_v0 (c : Dev nD) : (V2 m c main_v0 : Vec Ideal S8x4096x256 .f32) = V1 m c main_v0 :=
  (W2_arr m c 0).trans (((dat0 (V1 m) c).arrAt_in 0 rfl _).trans (A_eq0 (V1 m) c 0))

/-- The query weights' array is none of the projection region's. -/
private theorem V2_v4 (c : Dev nD) : (V2 m c main_v4 : Vec Ideal S256x256 .bf16) = V1 m c main_v4 :=
  W2_of_ne m c main_v4 (by decide)

/-- The keys' array is the projection region's third window's: what its write-backs leave. -/
private theorem V2_v5_0 (c : Dev nD) : (V2 m c main_v5_0 : Vec Ideal S8x4096x256 .bf16) = (dat0 (V1 m) c).arrAt 2 cfg0.N :=
  W2_arr m c 2

/-- The values' array is its fourth window's. -/
private theorem V2_v5_1 (c : Dev nD) : (V2 m c main_v5_1 : Vec Ideal S8x4096x256 .bf16) = (dat0 (V1 m) c).arrAt 3 cfg0.N :=
  W2_arr m c 3

theorem iblk1_x (c : Dev nD) (t : Fin cfg1.N) (r : Fin 1024) (e : Fin 256) :
    ((iblk1 (V2 m) c 0 t : Vec Ideal S1x1024x256 .f32) (ix3 (0 : Fin 1) r e) : EReal) = xA m c (bOf t) (rowQ t r) e := by
  show (V2 m c main_v0 : Vec Ideal S8x4096x256 .f32) (((cfg1.win 0).blk t).view.emb (ix3 (0 : Fin 1) r e)) = _
  obtain ⟨e0, e1, e2, -⟩ := blockIdx1 t
  have hi : ((cfg1.win 0).blk t).view.emb (ix3 (0 : Fin 1) r e) = ix3 (bOf t) (rowQ t r) e := by
    funext a; apply Fin.ext
    match a with
    | ⟨0, _⟩ => show win1_0.index t (0 : Fin 3) * 1 + 1 * 0 = t.val / 16; omega
    | ⟨1, _⟩ => show win1_0.index t (1 : Fin 3) * 1024 + 1 * r.val = t.val / 4 % 4 * 1024 + r.val; omega
    | ⟨2, _⟩ => show win1_0.index t (2 : Fin 3) * 256 + 1 * e.val = e.val; omega
  rw [hi, V2_v0]
  exact V1_v0_apply m c _ _ _

theorem iblk1_wq (c : Dev nD) (t : Fin cfg1.N) (e cc : Fin 256) :
    ((iblk1 (V2 m) c 1 t : Vec Ideal S256x256 .bf16) (ix2 e cc) : EReal) = wqA m c e cc := by
  show (V2 m c main_v4 : Vec Ideal S256x256 .bf16) (((cfg1.win 1).blk t).view.emb (ix2 e cc)) = _
  obtain ⟨-, -, -, e0, e1, -⟩ := blockIdx1 t
  have hi : ((cfg1.win 1).blk t).view.emb (ix2 e cc) = ix2 e cc := by
    funext a; apply Fin.ext
    match a with
    | ⟨0, _⟩ => show win1_1.index t (0 : Fin 2) * 256 + 1 * e.val = e.val; omega
    | ⟨1, _⟩ => show win1_1.index t (1 : Fin 2) * 256 + 1 * cc.val = cc.val; omega
  rw [hi, V2_v4]
  exact V1_v4_apply m c _ _

theorem iblk1_k (c : Dev nD) (t : Fin cfg1.N) (j : Fin 1024) (cc : Fin 256) :
    ((iblk1 (V2 m) c 2 t : Vec Ideal S1x1024x256 .bf16) (ix3 (0 : Fin 1) j cc) : EReal)
      = proj (xA m c) (wkA m c) (bOf t) (rowK t j) cc := by
  show (V2 m c main_v5_0 : Vec Ideal S8x4096x256 .bf16) (((cfg1.win 2).blk t).view.emb (ix3 (0 : Fin 1) j cc)) = _
  obtain ⟨-, -, -, -, -, e0, e1, e2, -⟩ := blockIdx1 t
  have hi : ((cfg1.win 2).blk t).view.emb (ix3 (0 : Fin 1) j cc) = ix3 (bOf t) (rowK t j) cc := by
    funext a; apply Fin.ext
    match a with
    | ⟨0, _⟩ => show win1_2.index t (0 : Fin 3) * 1 + 1 * 0 = t.val / 16; omega
    | ⟨1, _⟩ => show win1_2.index t (1 : Fin 3) * 1024 + 1 * j.val = t.val % 4 * 1024 + j.val; omega
    | ⟨2, _⟩ => show win1_2.index t (2 : Fin 3) * 256 + 1 * cc.val = cc.val; omega
  rw [hi, V2_v5_0]
  exact kArr_apply m c _ _ _

theorem iblk1_v (c : Dev nD) (t : Fin cfg1.N) (j : Fin 1024) (d : Fin 256) :
    ((iblk1 (V2 m) c 3 t : Vec Ideal S1x1024x256 .bf16) (ix3 (0 : Fin 1) j d) : EReal)
      = proj (xA m c) (wvA m c) (bOf t) (rowK t j) d := by
  show (V2 m c main_v5_1 : Vec Ideal S8x4096x256 .bf16) (((cfg1.win 3).blk t).view.emb (ix3 (0 : Fin 1) j d)) = _
  obtain ⟨-, -, -, -, -, -, -, -, e0, e1, e2⟩ := blockIdx1 t
  have hi : ((cfg1.win 3).blk t).view.emb (ix3 (0 : Fin 1) j d) = ix3 (bOf t) (rowK t j) d := by
    funext a; apply Fin.ext
    match a with
    | ⟨0, _⟩ => show win1_3.index t (0 : Fin 3) * 1 + 1 * 0 = t.val / 16; omega
    | ⟨1, _⟩ => show win1_3.index t (1 : Fin 3) * 1024 + 1 * j.val = t.val % 4 * 1024 + j.val; omega
    | ⟨2, _⟩ => show win1_3.index t (2 : Fin 3) * 256 + 1 * d.val = d.val; omega
  rw [hi, V2_v5_1]
  exact vArr_apply m c _ _ _

end Cert.KernelIdeal.Hand

end
-- ==== Proof.Val.Rows.lean ====
/-
  The attention kernel's scratch after a grid point, row by row: the projected queries, and the online softmax's state and
  running weighted sum over the key blocks seen so far; and the rows written at the last key block: the gate times the
  kernel's attention output.
-/
import proofs.«402299_j61332132987363_3_alg».proof.Proof.Val.Blocks1

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen
open ValueIdx OnlineSoftmax AttnArr AttnSpec

variable (m : (ℓ : Loc nD τ sig) → Buf (Elt Ideal) ℓ)

/-- The three row facts about a scratch state s at grid point t: the queries' rows are the projected input rows of the
    point's query block, the online softmax's state of each row is the one after the key blocks up to the point's own,
    and so is each row's running weighted sum. -/
private abbrev RowsAt (c : Dev nD) (t : Fin cfg1.N) (s : St Ideal) : Prop :=
  (∀ (r : Fin 1024) (cc : Fin 256),
      ((s.1 (ix2 r cc)) : EReal) = proj (xA m c) (wqA m c) (bOf t) (rowQ t r) cc)
  ∧ (∀ r : Fin 1024,
      (((s.2.1 (ix2 r (0 : Fin 1))) : EReal), ((s.2.2.1 (ix2 r (0 : Fin 1))) : EReal))
        = acc (sBlk (xA m c) (wqA m c) (wkA m c) (bOf t) (rowQ t r)) (kOf t + 1))
  ∧ (∀ (r : Fin 1024) (d : Fin 256),
      ((s.2.2.2 (ix2 r d)) : EReal)
        = accA (sBlk (xA m c) (wqA m c) (wkA m c) (bOf t) (rowQ t r)) (vBlk (xA m c) (wvA m c) (bOf t) d) (kOf t + 1))

/-- With the queries' row r the projection of the query block's row r, the scores of that row against the point's key
    block are key block kOf t of the row's scores: key j of the block is key row kOf t · 1024 + j of the batch. -/
private theorem sc_blk (c : Dev nD) (t : Fin cfg1.N) (r : Fin 1024) (q : Vec Ideal S1024x256 .bf16)
    (hq : ∀ cc : Fin 256, ((q (ix2 r cc)) : EReal) = proj (xA m c) (wqA m c) (bOf t) (rowQ t r) cc) :
    sc q (iblk1 (V2 m) c 2 t) r = sBlk (xA m c) (wqA m c) (wkA m c) (bOf t) (rowQ t r) (kOf t) := by
  funext j
  have hk : kOf t < 4 := Nat.mod_lt _ (by norm_num)
  unfold sc sBlk score
  rw [dif_pos hk]
  refine Finset.sum_congr rfl fun cc _ => ?_
  rw [hq cc, iblk1_k]
  rfl

/-- Channel d of the point's value block is key block kOf t of channel d of the values. -/
private theorem v_blk (c : Dev nD) (t : Fin cfg1.N) (d : Fin 256) :
    (fun j : Fin 1024 => (((iblk1 (V2 m) c 3 t : Vec Ideal S1x1024x256 .bf16) (ix3 (0 : Fin 1) j d)) : EReal))
      = vBlk (xA m c) (wvA m c) (bOf t) d (kOf t) := by
  funext j
  have hk : kOf t < 4 := Nat.mod_lt _ (by norm_num)
  unfold vBlk
  rw [dif_pos hk, iblk1_v]
  rfl

/-- One key block's step: from a state holding the projected queries and the online softmax's state and weighted sum
    after the key blocks before the point's own, the step over the point's key block gives the three row facts at the
    point. -/
private theorem step_rows (c : Dev nD) (t : Fin cfg1.N) (s : St Ideal)
    (hq : ∀ (r : Fin 1024) (cc : Fin 256),
      ((s.1 (ix2 r cc)) : EReal) = proj (xA m c) (wqA m c) (bOf t) (rowQ t r) cc)
    (hml : ∀ r : Fin 1024,
      (((s.2.1 (ix2 r (0 : Fin 1))) : EReal), ((s.2.2.1 (ix2 r (0 : Fin 1))) : EReal))
        = acc (sBlk (xA m c) (wqA m c) (wkA m c) (bOf t) (rowQ t r)) (kOf t))
    (ha : ∀ (r : Fin 1024) (d : Fin 256),
      ((s.2.2.2 (ix2 r d)) : EReal)
        = accA (sBlk (xA m c) (wqA m c) (wkA m c) (bOf t) (rowQ t r)) (vBlk (xA m c) (wvA m c) (bOf t) d) (kOf t)) :
    RowsAt m c t (stStep s (iblk1 (V2 m) c 2 t) (iblk1 (V2 m) c 3 t)) := by
  refine ⟨fun r cc => ?_, fun r => ?_, fun r d => ?_⟩
  · rw [stStep_q]
    exact hq r cc
  · rw [stStep_ml, sc_blk m c t r s.1 (hq r), hml r]
    rfl
  · rw [stStep_a, sc_blk m c t r s.1 (hq r), v_blk m c t d, hml r, ha r d]
    rfl

/-- At the first key block of a query block: the reset state holds the projected queries, (-∞, 0) and 0, the state and
    the weighted sum before any block. -/
private theorem first_rows (c : Dev nD) (t : Fin cfg1.N) (h : t.val % 4 = 0) :
    RowsAt m c t
      (stStep (stInit (iblk1 (V2 m) c 0 t) (iblk1 (V2 m) c 1 t)) (iblk1 (V2 m) c 2 t) (iblk1 (V2 m) c 3 t)) := by
  have hk : kOf t = 0 := h
  refine step_rows m c t _ (fun r cc => ?_) (fun r => ?_) (fun r d => ?_)
  · rw [stInit_q]
    unfold proj
    refine Finset.sum_congr rfl fun e _ => ?_
    rw [iblk1_x, iblk1_wq]
  · rw [stInit_m, stInit_l, hk]
    rfl
  · rw [stInit_a, hk]
    rfl

/-- At a later key block: the point before is in the same batch and query block, one key block earlier. -/
private theorem next_rows (c : Dev nD) (t : Fin cfg1.N) (h : ¬ t.val % 4 = 0) (hlt : t.val - 1 < cfg1.N)
    (s : St Ideal) (hp : RowsAt m c ⟨t.val - 1, hlt⟩ s) :
    RowsAt m c t (stStep s (iblk1 (V2 m) c 2 t) (iblk1 (V2 m) c 3 t)) := by
  obtain ⟨hq, hml, ha⟩ := hp
  have hb : bOf (⟨t.val - 1, hlt⟩ : Fin cfg1.N) = bOf t :=
    Fin.ext (by show (t.val - 1) / 16 = t.val / 16; omega)
  have hr : ∀ r : Fin 1024, rowQ (⟨t.val - 1, hlt⟩ : Fin cfg1.N) r = rowQ t r := fun r =>
    Fin.ext (by show (t.val - 1) / 4 % 4 * 1024 + r.val = t.val / 4 % 4 * 1024 + r.val; omega)
  have hk : kOf (⟨t.val - 1, hlt⟩ : Fin cfg1.N) + 1 = kOf t := by
    show (t.val - 1) % 4 + 1 = t.val % 4
    omega
  refine step_rows m c t s (fun r cc => ?_) (fun r => ?_) (fun r d => ?_)
  · rw [hq r cc, hb, hr]
  · rw [hml r, hb, hr, hk]
  · rw [ha r d, hb, hr, hk]

/-- The three row facts at every grid point, by induction along the grid. -/
private theorem stAt_rows_aux (c : Dev nD) :
    ∀ (n : ℕ) (t : Fin cfg1.N), t.val = n → RowsAt m c t (stAt (V2 m) c t.val t.isLt) := by
  intro n
  induction n with
  | zero =>
    intro t ht
    have h : t.val % 4 = 0 := by omega
    rw [stAt_first (V2 m) c t h]
    exact first_rows m c t h
  | succ n ih =>
    intro t ht
    by_cases h : t.val % 4 = 0
    · rw [stAt_first (V2 m) c t h]
      exact first_rows m c t h
    · rw [stAt_next (V2 m) c t h]
      have hlt : t.val - 1 < cfg1.N := Nat.lt_of_le_of_lt (Nat.sub_le _ _) t.isLt
      have ih' := ih ⟨t.val - 1, hlt⟩ (by show t.val - 1 = n; omega)
      exact next_rows m c t h hlt _ ih'

private theorem stAt_rows (c : Dev nD) (t : Fin cfg1.N) : RowsAt m c t (stAt (V2 m) c t.val t.isLt) :=
  stAt_rows_aux m c t.val t rfl

theorem stAt_q (c : Dev nD) (t : Fin cfg1.N) (r : Fin 1024) (cc : Fin 256) :
    (((stAt (V2 m) c t.val t.isLt).1 (ix2 r cc)) : EReal) = proj (xA m c) (wqA m c) (bOf t) (rowQ t r) cc :=
  (stAt_rows m c t).1 r cc

theorem stAt_ml (c : Dev nD) (t : Fin cfg1.N) (r : Fin 1024) :
    ((((stAt (V2 m) c t.val t.isLt).2.1 (ix2 r (0 : Fin 1))) : EReal), (((stAt (V2 m) c t.val t.isLt).2.2.1 (ix2 r (0 : Fin 1))) : EReal))
      = acc (sBlk (xA m c) (wqA m c) (wkA m c) (bOf t) (rowQ t r)) (kOf t + 1) :=
  (stAt_rows m c t).2.1 r

theorem stAt_a (c : Dev nD) (t : Fin cfg1.N) (r : Fin 1024) (d : Fin 256) :
    (((stAt (V2 m) c t.val t.isLt).2.2.2 (ix2 r d)) : EReal)
      = accA (sBlk (xA m c) (wqA m c) (wkA m c) (bOf t) (rowQ t r)) (vBlk (xA m c) (wvA m c) (bOf t) d) (kOf t + 1) :=
  (stAt_rows m c t).2.2 r d

theorem oAt_apply (c : Dev nD) (t : Fin cfg1.N) (h : t.val % 4 = 3) (r : Fin 1024) (d : Fin 256) :
    ((oAt (V2 m) c t (ix3 (0 : Fin 1) r d)) : EReal)
      = xA m c (bOf t) (rowQ t r) d * attnKer (xA m c) (wqA m c) (wkA m c) (wvA m c) (bOf t) (rowQ t r) d := by
  have hk : kOf t + 1 = 4 := by
    show t.val % 4 + 1 = 4
    omega
  have hl : (((stAt (V2 m) c t.val t.isLt).2.2.1 (ix2 r (0 : Fin 1))) : EReal)
      = (acc (sBlk (xA m c) (wqA m c) (wkA m c) (bOf t) (rowQ t r)) (kOf t + 1)).2 :=
    congrArg Prod.snd (stAt_ml m c t r)
  unfold oAt
  rw [outOf_apply, iblk1_x, stAt_a, hl, hk]
  rfl

end Cert.KernelIdeal.Hand

end
-- ==== Proof.KI.Ends.lean ====
/-
  What the last valuation holds at the buffers the claims read: each argument as launched (no host operation writes one,
  no region may change one), the result the closing reshape of what the attention region's write-backs leave.
-/
import proofs.«402299_j61332132987363_3_alg».proof.Proof.KI.Launch
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W4_of (c : Dev nD) (r : Ref sig .tc) (h : r ∉ hostOps2_W) : W4 m c (Proc.devRef .tc r) = W3 m c (Proc.devRef .tc r) :=
  StableHlo.after_of_writes_sub hostOps2 _ hostOps2_writes h

theorem W4_main_arg0 (c : Dev nD) : W4 m c (Proc.devRef .tc main_arg0) = m ((c : Thread nD τ).loc main_arg0) :=
  (W4_of m c main_arg0 (by decide)).trans <| (W3_of_ne m c main_arg0 (by decide)).trans <| (W2_of_ne m c main_arg0 (by decide)).trans <|
    (W1_of m c main_arg0 (by decide)).trans rfl
theorem W4_main_arg1 (c : Dev nD) : W4 m c (Proc.devRef .tc main_arg1) = m ((c : Thread nD τ).loc main_arg1) :=
  (W4_of m c main_arg1 (by decide)).trans <| (W3_of_ne m c main_arg1 (by decide)).trans <| (W2_of_ne m c main_arg1 (by decide)).trans <|
    (W1_of m c main_arg1 (by decide)).trans rfl
theorem W4_main_arg2 (c : Dev nD) : W4 m c (Proc.devRef .tc main_arg2) = m ((c : Thread nD τ).loc main_arg2) :=
  (W4_of m c main_arg2 (by decide)).trans <| (W3_of_ne m c main_arg2 (by decide)).trans <| (W2_of_ne m c main_arg2 (by decide)).trans <|
    (W1_of m c main_arg2 (by decide)).trans rfl
theorem W4_main_arg3 (c : Dev nD) : W4 m c (Proc.devRef .tc main_arg3) = m ((c : Thread nD τ).loc main_arg3) :=
  (W4_of m c main_arg3 (by decide)).trans <| (W3_of_ne m c main_arg3 (by decide)).trans <| (W2_of_ne m c main_arg3 (by decide)).trans <|
    (W1_of m c main_arg3 (by decide)).trans rfl

/-- The result buffer: the closing reshape of the attention region's result array. -/
theorem W4_main_v7 (c : Dev nD) :
    W4 m c (Proc.devRef .tc main_v7)
      = shapeCast S8x64x64x256 ((dat1 (V2 m) c).arrAt 4 cfg1.N) shapeCasts_S8x4096x256_S8x64x64x256 := by
  have e : W4 m c (Proc.devRef .tc main_v7)
      = shapeCast S8x64x64x256 (W3 m c (Proc.devRef .tc main_v6)) shapeCasts_S8x4096x256_S8x64x64x256 := by
    show StableHlo.after hostOps2 (W3 m c) (Proc.devRef .tc main_v7) = _
    after_results
    rfl
  rw [e]
  exact congrArg (fun z => shapeCast S8x64x64x256 z shapeCasts_S8x4096x256_S8x64x64x256) (W3_arr m c 4)

/-- The frame claim's post from the run's. -/
theorem frame_of_run (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.KernelIdeal.Hand

end
-- ==== Proof.Val.Out.lean ====
/-
  What the attention region leaves in its result array, and the program's result: at every pixel the input entry times the
  kernel's attention output of the pixel's batch, row and channel. The result blocks are written back at the last key
  block of each query block; the 32 of them tile the array.
-/
import proofs.«402299_j61332132987363_3_alg».proof.Proof.Val.Rows
import proofs.«402299_j61332132987363_3_alg».proof.Proof.KI.Ends
import Idealize.ShloMosaic.Lib.Pipeline.Value

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen
open ValueIdx OnlineSoftmax AttnArr AttnSpec

variable (m : (ℓ : Loc nD τ sig) → Buf (Elt Ideal) ℓ)

/-- The whole result array as one function of batch, row and channel: the gate times the attention output. -/
def outArr (c : Dev nD) : Vec Ideal S8x4096x256 .f32 := fun i =>
  (xA m c (i 0) (i 1) (i 2) * attnKer (xA m c) (wqA m c) (wkA m c) (wvA m c) (i 0) (i 1) (i 2) : EReal)

/-- The result window's block index at a point: the batch, the query block, and zero along the channels. -/
theorem out_idx : ∀ t : Fin cfg1.N, win1_4.index t (0 : Fin 3) = t.val / 16 ∧ win1_4.index t (1 : Fin 3) = t.val / 4 % 4
    ∧ win1_4.index t (2 : Fin 3) = 0 :=
  (by decide +kernel : ∀ t : Fin grid1.N, win1_4.index t (0 : Fin 3) = t.val / 16 ∧ win1_4.index t (1 : Fin 3) = t.val / 4 % 4
    ∧ win1_4.index t (2 : Fin 3) = 0)

/-- The block written at the last key block of a query block, read at an index of the block, is the whole-array function at
    the index of the array with the point's batch, the block's row offset by the query block, and the same channel. -/
theorem oAt_eq_outArr (c : Dev nD) (t : Fin cfg1.N) (h : t.val % 4 = 3) (y : S1x1024x256.Idx) (i : S8x4096x256.Idx)
    (h0 : (i 0).val = t.val / 16) (h1 : (i 1).val = t.val / 4 % 4 * 1024 + (y 1).val) (h2 : (i 2).val = (y 2).val) :
    oAt (V2 m) c t y = outArr m c i := by
  obtain ⟨p, r, d, rfl⟩ : ∃ (p : Fin 1) (r : Fin 1024) (d : Fin 256), y = ix3 p r d := ⟨y 0, y 1, y 2, eq_ix3 y⟩
  obtain rfl : p = 0 := Subsingleton.elim _ _
  have e0 : i 0 = bOf t := Fin.ext h0
  have e1 : i 1 = rowQ t r := Fin.ext h1
  have e2 : i 2 = d := Fin.ext h2
  refine (oAt_apply m c t h r d).trans ?_
  unfold outArr
  rw [e0, e1, e2]

/-- What a writing point writes back is its block of that function. -/
theorem out_flushed_eq (c : Dev nD) (t : Fin cfg1.N) (hf : (cfg1.win 4).flush t = true) :
    (dat1 (V2 m) c).flushed 4 t = ((cfg1.win 4).blk t).view.read (Elt Ideal) (outArr m c) := by
  have h3 : t.val % 4 = 3 := (flush1_4 t).mp hf
  show (cfg1.win 4).cut (grid1.coords t) ((dat1 (V2 m) c).after 4 t) = _
  rw [after1_4]
  funext j
  obtain ⟨e0, e1, e2⟩ := out_idx t
  show oAt (V2 m) c t j = outArr m c (((cfg1.win 4).blk t).view.emb j)
  refine oAt_eq_outArr m c t h3 j _ ?_ ?_ ?_
  · show win1_4.index t (0 : Fin 3) * 1 + 1 * (j 0).val = t.val / 16
    have hj : (j 0).val < 1 := (j 0).isLt
    omega
  · show win1_4.index t (1 : Fin 3) * 1024 + 1 * (j 1).val = t.val / 4 % 4 * 1024 + (j 1).val
    omega
  · show win1_4.index t (2 : Fin 3) * 256 + 1 * (j 2).val = (j 2).val
    omega

/-- An index of the array is in a point's block iff each coordinate is in the block's range on its axis. -/
theorem mem_out_blk (t : Fin cfg1.N) (i : S8x4096x256.Idx) :
    i ∈ ((cfg1.win 4).blk t).view.set ↔ ∀ a : Fin 3, win1_4.index t a * S1x1024x256.size a ≤ (i a).val
      ∧ (i a).val < win1_4.index t a * S1x1024x256.size a + S1x1024x256.size a := by
  show i ∈ ((View.whole main_v6).slice (win1_4.rect t)).set ↔ _
  rw [View.set_slice_whole, Rect.mem_set_unit]
  exact Iff.rfl

/-- Row n of batch b is written back at the last key block of its query block: the point b·16 + (n / 1024)·4 + 3. -/
theorem out_cover (i : S8x4096x256.Idx) :
    ∃ t : Fin cfg1.N, (cfg1.win 4).flush t = true ∧ i ∈ ((cfg1.win 4).blk t).view.set := by
  have hN : cfg1.N = 128 := N_1
  have hi0 : (i 0).val < 8 := (i 0).isLt
  have hi1 : (i 1).val < 4096 := (i 1).isLt
  have hi2 : (i 2).val < 256 := (i 2).isLt
  let t : Fin cfg1.N := ⟨(i 0).val * 16 + (i 1).val / 1024 * 4 + 3, by rw [hN]; omega⟩
  have ht : t.val = (i 0).val * 16 + (i 1).val / 1024 * 4 + 3 := rfl
  obtain ⟨e0, e1, e2⟩ := out_idx t
  refine ⟨t, (flush1_4 t).mpr (by rw [ht]; omega), ?_⟩
  rw [mem_out_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 256 ≤ (i 2).val ∧ (i 2).val < win1_4.index t (2 : Fin 3) * 256 + 256; omega

/-- The array after all the points is that function. -/
theorem out_arr (c : Dev nD) : (dat1 (V2 m) c).arrAt 4 cfg1.N = outArr m c :=
  (dat1 (V2 m) c).arrAt_eq_of_cover 4 (outArr m c) (out_flushed_eq m c) out_cover

theorem out_apply (c : Dev nD) (b : Fin 8) (n : Fin (4 * 1024)) (d : Fin 256) :
    (((dat1 (V2 m) c).arrAt 4 cfg1.N : Vec Ideal S8x4096x256 .f32) (ix3 b n d) : EReal)
      = xA m c b n d * attnKer (xA m c) (wqA m c) (wkA m c) (wvA m c) b n d := by
  rw [out_arr]
  rfl

/-- The input array and the result buffer on core c, as functions of the pixel. -/
def argX (c : Dev nD) : SX.Idx → EReal := m ((c : Thread nD τ).loc main_arg0)
def resX (c : Dev nD) : SX.Idx → EReal := W4 m c (Proc.devRef .tc main_v7)

theorem result_apply (c : Dev nD) (i : SX.Idx) :
    resX m c i = argX m c i * attnKer (xA m c) (wqA m c) (wkA m c) (wvA m c) (i 0) (rowOf i) (i 3) := by
  unfold resX argX
  rw [W4_main_v7]
  have h0 : (i 0).val < 8 := (i 0).isLt
  have h1 : (i 1).val < 64 := (i 1).isLt
  have h2 : (i 2).val < 64 := (i 2).isLt
  have h3 : (i 3).val < 256 := (i 3).isLt
  refine (shapeCast_apply _ shapeCasts_S8x4096x256_S8x64x64x256 i (ix3 (i 0) (rowOf i) (i 3)) (by
    rewrite [Shape.rowMajor_val_three, Shape.rowMajor_val_four]
    show ((i 0).val * 4096 + ((i 1).val * 64 + (i 2).val)) * 256 + (i 3).val
      = (((i 0).val * 64 + (i 1).val) * 64 + (i 2).val) * 256 + (i 3).val
    omega)).trans ?_
  refine (out_apply m c (i 0) (rowOf i) (i 3)).trans ?_
  unfold xA xOf
  rw [pix_rowOf]

end Cert.KernelIdeal.Hand

end
-- ==== Proof.Val.RefSide.lean ====
/-
  The reference's result read at an index: the gate times the softmax-weighted sum of the value rows, in the shared
  specification's words.
-/
import proofs.«402299_j61332132987363_3_alg».proof.Proof.Gen.ReferenceIdeal.Run
import proofs.«402299_j61332132987363_3_alg».proof.Proof.Gen.ReferenceIdeal.Read
import proofs.«402299_j61332132987363_3_alg».proof.Proof.Val.Spec
import proofs.«402299_j61332132987363_3_alg».proof.Proof.Val.Arr

noncomputable section

namespace Cert.ReferenceIdeal.RefValue

open Cert.ReferenceIdeal Cert.ReferenceIdeal.Gen Idealize.ShloMosaic Idealize.ShloMosaic.TcCoe

/-- The bit pattern of -∞ is the bottom extended real. -/
private theorem ofBits_negInf : Ideal.ofBits .f32 0xFF800000#32 = (⊥ : EReal) := by
  simp [Ideal.ofBits, Ideal.ieee]

/-- A row's product with a weight matrix, read through the first reshape: entry (b, n, c) sums, over the channels e,
    pixel (n / 64, n % 64)'s entry e times the weight's entry (e, c). -/
private theorem proj_at (a0 : (⟨S8x64x64x256, .f32⟩ : BufTy).Contents (Elt Ideal))
    (w : (⟨S256x256, .f32⟩ : BufTy).Contents (Elt Ideal)) (j : S8x4096x256.Idx) :
    (∑ k : Fin 256, Read.val_main_v0 (F := Ideal) a0 (Read.lidx_main_v1 j k) * w (Read.ridx_main_v1 j k) : EReal)
      = AttnSpec.proj (AttnArr.xOf a0) (AttnArr.wOf w) (j 0) (j 1) (j 2) := by
  unfold AttnSpec.proj AttnArr.xOf AttnArr.wOf
  refine Finset.sum_congr rfl fun k _ => ?_
  rw [Read.val_main_v0_apply]
  have h0 : (j 0).val < 8 := (j 0).isLt
  have h1 : (j 1).val < 4096 := (j 1).isLt
  have hk : k.val < 256 := k.isLt
  have e1 : Read.idx_main_v0 (Read.lidx_main_v1 j k) = AttnArr.pix (j 0) (j 1) k := funext fun a => Fin.ext (by
    match a with
    | ⟨0, _⟩ => show (((j 0).val * 4096 + (j 1).val) * 256 + k.val) / 1048576 = (j 0).val; omega
    | ⟨1, _⟩ => show (((j 0).val * 4096 + (j 1).val) * 256 + k.val) / 16384 % 64 = (j 1).val / 64; omega
    | ⟨2, _⟩ => show (((j 0).val * 4096 + (j 1).val) * 256 + k.val) / 256 % 64 = (j 1).val % 64; omega
    | ⟨3, _⟩ => show (((j 0).val * 4096 + (j 1).val) * 256 + k.val) % 256 = k.val; omega)
  have e2 : Read.ridx_main_v1 j k = ValueIdx.ix2 k (j 2) := funext fun a => by
    match a with
    | ⟨0, _⟩ => rfl
    | ⟨1, _⟩ => rfl
  rw [e1, e2]
  rfl

/-- The queries: the first reshape's rows times the first weight matrix. -/
private theorem v1_at (a0 : (⟨S8x64x64x256, .f32⟩ : BufTy).Contents (Elt Ideal))
    (a1 : (⟨S256x256, .f32⟩ : BufTy).Contents (Elt Ideal)) (j : S8x4096x256.Idx) :
    (Read.val_main_v1 (F := Ideal) a0 a1 j : EReal)
      = AttnSpec.proj (AttnArr.xOf a0) (AttnArr.wOf a1) (j 0) (j 1) (j 2) := by
  rw [Read.val_main_v1_apply]
  exact proj_at a0 a1 j

/-- The keys: the rows times the second weight matrix. -/
private theorem v2_at (a0 : (⟨S8x64x64x256, .f32⟩ : BufTy).Contents (Elt Ideal))
    (a2 : (⟨S256x256, .f32⟩ : BufTy).Contents (Elt Ideal)) (j : S8x4096x256.Idx) :
    (Read.val_main_v2 (F := Ideal) a0 a2 j : EReal)
      = AttnSpec.proj (AttnArr.xOf a0) (AttnArr.wOf a2) (j 0) (j 1) (j 2) := by
  rw [Read.val_main_v2_apply]
  exact proj_at a0 a2 j

/-- The values: the rows times the third weight matrix. -/
private theorem v3_at (a0 : (⟨S8x64x64x256, .f32⟩ : BufTy).Contents (Elt Ideal))
    (a3 : (⟨S256x256, .f32⟩ : BufTy).Contents (Elt Ideal)) (j : S8x4096x256.Idx) :
    (Read.val_main_v3 (F := Ideal) a0 a3 j : EReal)
      = AttnSpec.proj (AttnArr.xOf a0) (AttnArr.wOf a3) (j 0) (j 1) (j 2) := by
  rw [Read.val_main_v3_apply]
  exact proj_at a0 a3 j

/-- The scores: entry (b, n, m) is the dot product of query row n and key row m of batch b. -/
private theorem v4_at (a0 : (⟨S8x64x64x256, .f32⟩ : BufTy).Contents (Elt Ideal))
    (a1 a2 : (⟨S256x256, .f32⟩ : BufTy).Contents (Elt Ideal)) (j : S8x4096x4096.Idx) :
    (Read.val_main_v4 (F := Ideal) a0 a1 a2 j : EReal)
      = AttnSpec.score (AttnArr.xOf a0) (AttnArr.wOf a1) (AttnArr.wOf a2) (j 0) (j 1) (j 2) := by
  rw [Read.val_main_v4_apply]
  unfold AttnSpec.score
  refine Finset.sum_congr rfl fun c _ => ?_
  rw [v1_at, v2_at]
  rfl

/-- The score rows' maxima folded from -∞ over the key axis. -/
private theorem v5_at (a0 : (⟨S8x64x64x256, .f32⟩ : BufTy).Contents (Elt Ideal))
    (a1 a2 : (⟨S256x256, .f32⟩ : BufTy).Contents (Elt Ideal)) (j : S8x4096.Idx) :
    (Read.val_main_v5 (F := Ideal) a0 a1 a2 j : EReal)
      = Finset.univ.fold max (⊥ : EReal)
          (fun m : Fin (4 * 1024) => AttnSpec.score (AttnArr.xOf a0) (AttnArr.wOf a1) (AttnArr.wOf a2) (j 0) (j 1) m) := by
  unfold Read.val_main_v5
  have h : S8x4096x4096.Reduces [2] S8x4096 := by decide
  rw [Host.reduce_eq_fold_single FloatOps.maximumf _ _ _ h _ j]
  have hl : ∀ m : Fin 4096, h.lift j m = ValueIdx.ix3 (j 0) (j 1) m := fun m => by
    funext c; apply Fin.ext; fin_cases c <;> rfl
  have hf : (Read.val_main_v4 (F := Ideal) a0 a1 a2 ∘ h.lift j)
      = fun m : Fin (4 * 1024) => AttnSpec.score (AttnArr.xOf a0) (AttnArr.wOf a1) (AttnArr.wOf a2) (j 0) (j 1) m :=
    funext fun m => by
      rw [Function.comp_apply, hl m]
      exact v4_at a0 a1 a2 (ValueIdx.ix3 (j 0) (j 1) m)
  rw [hf]
  have hb : Read.val_main_cst (F := Ideal) (Shape.Idx.first h_S_) = (⊥ : EReal) := ofBits_negInf
  rw [hb]
  rfl

/-- The maxima once more against -∞: the specification's row maximum. -/
private theorem v7_at (a0 : (⟨S8x64x64x256, .f32⟩ : BufTy).Contents (Elt Ideal))
    (a1 a2 : (⟨S256x256, .f32⟩ : BufTy).Contents (Elt Ideal)) (j : S8x4096.Idx) :
    (Read.val_main_v7 (F := Ideal) a0 a1 a2 j : EReal)
      = AttnSpec.rowMax (AttnArr.xOf a0) (AttnArr.wOf a1) (AttnArr.wOf a2) (j 0) (j 1) := by
  rw [Read.val_main_v7_apply, Read.val_main_v6_apply, Read.val_main_cst_0_apply, v5_at]
  unfold AttnSpec.rowMax
  show max (Ideal.ofBits .f32 0xFF800000#32) _ = max ⊥ _
  rw [ofBits_negInf]

/-- The row maximum spread along the key axis. -/
private theorem v9_at (a0 : (⟨S8x64x64x256, .f32⟩ : BufTy).Contents (Elt Ideal))
    (a1 a2 : (⟨S256x256, .f32⟩ : BufTy).Contents (Elt Ideal)) (j : S8x4096x4096.Idx) :
    (Read.val_main_v9 (F := Ideal) a0 a1 a2 j : EReal)
      = AttnSpec.rowMax (AttnArr.xOf a0) (AttnArr.wOf a1) (AttnArr.wOf a2) (j 0) (j 1) := by
  rw [Read.val_main_v9_apply, Read.val_main_v8_apply, v7_at]
  rfl

/-- The exponentials of the scores less their row's maximum. -/
private theorem v11_at (a0 : (⟨S8x64x64x256, .f32⟩ : BufTy).Contents (Elt Ideal))
    (a1 a2 : (⟨S256x256, .f32⟩ : BufTy).Contents (Elt Ideal)) (j : S8x4096x4096.Idx) :
    (Read.val_main_v11 (F := Ideal) a0 a1 a2 j : EReal)
      = Ideal.exp (AttnSpec.score (AttnArr.xOf a0) (AttnArr.wOf a1) (AttnArr.wOf a2) (j 0) (j 1) (j 2)
          - AttnSpec.rowMax (AttnArr.xOf a0) (AttnArr.wOf a1) (AttnArr.wOf a2) (j 0) (j 1)) := by
  rw [Read.val_main_v11_apply, Read.val_main_v10_apply, v4_at, v9_at]
  rfl

/-- The rows' sums of exponentials, from 0. -/
private theorem v12_at (a0 : (⟨S8x64x64x256, .f32⟩ : BufTy).Contents (Elt Ideal))
    (a1 a2 : (⟨S256x256, .f32⟩ : BufTy).Contents (Elt Ideal)) (j : S8x4096.Idx) :
    (Read.val_main_v12 (F := Ideal) a0 a1 a2 j : EReal)
      = (0 : EReal) + ∑ m : Fin (4 * 1024),
          Ideal.exp (AttnSpec.score (AttnArr.xOf a0) (AttnArr.wOf a1) (AttnArr.wOf a2) (j 0) (j 1) m
            - AttnSpec.rowMax (AttnArr.xOf a0) (AttnArr.wOf a1) (AttnArr.wOf a2) (j 0) (j 1)) := by
  rw [Read.val_main_v12_apply, Read.val_main_cst_1_apply]
  show Ideal.ofBits .f32 0x00000000#32 + _ = _
  rw [Ideal.ofBits_zero_f32]
  refine congrArg ((0 : EReal) + ·) (Finset.sum_congr rfl fun m _ => ?_)
  rw [v11_at]
  rfl

/-- The row sums spread along the key axis. -/
private theorem v14_at (a0 : (⟨S8x64x64x256, .f32⟩ : BufTy).Contents (Elt Ideal))
    (a1 a2 : (⟨S256x256, .f32⟩ : BufTy).Contents (Elt Ideal)) (j : S8x4096x4096.Idx) :
    (Read.val_main_v14 (F := Ideal) a0 a1 a2 j : EReal)
      = (0 : EReal) + ∑ m : Fin (4 * 1024),
          Ideal.exp (AttnSpec.score (AttnArr.xOf a0) (AttnArr.wOf a1) (AttnArr.wOf a2) (j 0) (j 1) m
            - AttnSpec.rowMax (AttnArr.xOf a0) (AttnArr.wOf a1) (AttnArr.wOf a2) (j 0) (j 1)) := by
  rw [Read.val_main_v14_apply, Read.val_main_v13_apply, v12_at]
  rfl

/-- The softmax weights: each exponential over its row's sum. -/
private theorem v15_at (a0 : (⟨S8x64x64x256, .f32⟩ : BufTy).Contents (Elt Ideal))
    (a1 a2 : (⟨S256x256, .f32⟩ : BufTy).Contents (Elt Ideal)) (j : S8x4096x4096.Idx) :
    (Read.val_main_v15 (F := Ideal) a0 a1 a2 j : EReal)
      = Ideal.div
          (Ideal.exp (AttnSpec.score (AttnArr.xOf a0) (AttnArr.wOf a1) (AttnArr.wOf a2) (j 0) (j 1) (j 2)
            - AttnSpec.rowMax (AttnArr.xOf a0) (AttnArr.wOf a1) (AttnArr.wOf a2) (j 0) (j 1)))
          ((0 : EReal) + ∑ m : Fin (4 * 1024),
            Ideal.exp (AttnSpec.score (AttnArr.xOf a0) (AttnArr.wOf a1) (AttnArr.wOf a2) (j 0) (j 1) m
              - AttnSpec.rowMax (AttnArr.xOf a0) (AttnArr.wOf a1) (AttnArr.wOf a2) (j 0) (j 1))) := by
  rw [Read.val_main_v15_apply, v11_at, v14_at]
  rfl

/-- The weighted sum of the value rows: the specification's reference attention. -/
private theorem v16_at (a0 : (⟨S8x64x64x256, .f32⟩ : BufTy).Contents (Elt Ideal))
    (a1 a2 a3 : (⟨S256x256, .f32⟩ : BufTy).Contents (Elt Ideal)) (j : S8x4096x256.Idx) :
    (Read.val_main_v16 (F := Ideal) a0 a1 a2 a3 j : EReal)
      = AttnSpec.attnRef (AttnArr.xOf a0) (AttnArr.wOf a1) (AttnArr.wOf a2) (AttnArr.wOf a3) (j 0) (j 1) (j 2) := by
  rw [Read.val_main_v16_apply]
  unfold AttnSpec.attnRef
  refine Finset.sum_congr rfl fun m _ => ?_
  rw [v15_at, v3_at]
  rfl

/-- At pixel i the reference's result is the input entry times the reference attention of the pixel's batch, row and
    channel. -/
theorem ref_apply (a0 : (⟨S8x64x64x256, .f32⟩ : BufTy).Contents (Elt Ideal))
    (a1 a2 a3 : (⟨S256x256, .f32⟩ : BufTy).Contents (Elt Ideal)) (i : S8x64x64x256.Idx) :
    (Read.val_main_v18 (F := Ideal) a0 a1 a2 a3 i : EReal)
      = (a0 i : EReal) * AttnSpec.attnRef (AttnArr.xOf a0) (AttnArr.wOf a1) (AttnArr.wOf a2) (AttnArr.wOf a3)
          (i 0) (AttnArr.rowOf i) (i 3) := by
  rw [Read.val_main_v18_apply, Read.val_main_v17_apply, v16_at]
  have h0 : (i 0).val < 8 := (i 0).isLt
  have h1 : (i 1).val < 64 := (i 1).isLt
  have h2 : (i 2).val < 64 := (i 2).isLt
  have h3 : (i 3).val < 256 := (i 3).isLt
  have e0 : (Read.idx_main_v17 i 0 : Fin 8) = i 0 := Fin.ext (by
    show ((((i 0).val * 64 + (i 1).val) * 64 + (i 2).val) * 256 + (i 3).val) / 1048576 = (i 0).val; omega)
  have e1 : (Read.idx_main_v17 i 1 : Fin (4 * 1024)) = AttnArr.rowOf i := Fin.ext (by
    show ((((i 0).val * 64 + (i 1).val) * 64 + (i 2).val) * 256 + (i 3).val) / 256 % 4096 = (i 1).val * 64 + (i 2).val
    omega)
  have e2 : (Read.idx_main_v17 i 2 : Fin 256) = i 3 := Fin.ext (by
    show ((((i 0).val * 64 + (i 1).val) * 64 + (i 2).val) * 256 + (i 3).val) % 256 = (i 3).val; omega)
  rw [e0, e1, e2]
  rfl

end Cert.ReferenceIdeal.RefValue

end
-- ==== Proof.Val.Finite.lean ====
/-
  The precondition read: every entry of the four inputs is a real number.
-/
import proofs.«402299_j61332132987363_3_alg».proof.Pre_finite_inputs
import proofs.«402299_j61332132987363_3_alg».proof.Proof.Gen.Pre_finite_inputs
import Idealize.ShloMosaic.PureOps.Ideal
import Idealize.ShloMosaic.Lib.ReduceAll
import Idealize.ShloMosaic.Lib.ValueIdx

noncomputable section

namespace Cert.FiniteInputs

open Idealize.ShloMosaic Cert.Pre_finite_inputs

/-- A scalar index type has one element. -/
private instance subsingleton_scalar_idx : Subsingleton S_.Idx := ⟨fun a b => funext fun d => d.elim0⟩

/-- The pattern 0x7F800000 denotes +∞. -/
private theorem inf_bits : Ideal.ofBits .f32 0x7F800000#32 = (⊤ : EReal) := by
  simp [Ideal.ofBits, Ideal.ieee]

/-- An extended real whose absolute value max x (−x) is strictly below +∞ is real: at −∞ and at +∞ the
    absolute value is +∞, which is not below itself. -/
private theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  rw [Ideal.ofBits_def, inf_bits] at h
  change Ideal.cmp .olt (max x (-x)) ⊤ = 1#1 at h
  induction x using EReal.rec with
  | bot => simp [Ideal.cmp] at h
  | coe r => exact ⟨r, rfl⟩
  | top => simp [Ideal.cmp] at h

/-- One all-reduction by conjunction of the elementwise test |a| < +∞ that comes out 1: every entry of a is real. -/
private theorem real_of_all {s : Shape} {axes : List (Fin s.rank)} (a : FVec Ideal s .f32)
    (bc : S_.BroadcastsInDim s (![] : Fin 0 → Fin s.rank)) (hr : s.ReducesTo axes S_) (hu : 0 < S_.numel)
    (e : Host.reduce IntOp.andi
        (cmpf .olt (Host.absf a) (broadcastInDim s ![] bc (constant S_ .f32 0x7F800000#32)))
        (constantI S_ 1 1#1) hr hu ValueIdx.ix0 = 1#1) (i : s.Idx) : ∃ r : ℝ, (a i : EReal) = (r : EReal) :=
  real_of_abs_lt (a i) (Host.reduce_andi_all _ _ hr hu _ e i)

/-- If the printed predicate is all ones on four arrays of extended reals, every entry of each is real: an entry's
    absolute value is below +∞, so the entry is neither infinity. -/
theorem real_of_pre [Cert.Pre_finite_inputs.Facts] (a0 : FVec Ideal S8x64x64x256 .f32) (a1 a2 a3 : FVec Ideal S256x256 .f32)
    (h : Cert.Pre_finite_inputs.fn (F := Ideal) a0 a1 a2 a3 = (fun _ => 1#1)) :
    (∀ i, ∃ r : ℝ, (a0 i : EReal) = (r : EReal)) ∧ (∀ i, ∃ r : ℝ, (a1 i : EReal) = (r : EReal))
      ∧ (∀ i, ∃ r : ℝ, (a2 i : EReal) = (r : EReal)) ∧ (∀ i, ∃ r : ℝ, (a3 i : EReal) = (r : EReal)) := by
  have h0 := congrFun h ValueIdx.ix0
  dsimp only [Cert.Pre_finite_inputs.fn, Cert.Pre_finite_inputs.fn_part1] at h0
  simp only [andi, IntOp.andi_eq_one] at h0
  obtain ⟨⟨⟨e0, e1⟩, e2⟩, e3⟩ := h0
  exact ⟨real_of_all a0 _ _ _ e0, real_of_all a1 _ _ _ e1, real_of_all a2 _ _ _ e2, real_of_all a3 _ _ _ e3⟩

end Cert.FiniteInputs

end
-- ==== Proof.Val.Final.lean ====
/-
  The claims at the ideal instance. Both idealized programs run to the end with their arguments unchanged. The kernel's
  result at a pixel is the input entry times its blocked attention output; the reference's is the input entry times the
  materialised-softmax attention output; the inputs being finite, every entry is real, and the two attention outputs
  are then one number (the online softmax's final state is the plain softmax's maximum and sum, and a real weighted
  sum over a positive real sum is the sum of the weights each divided by it).
-/
import proofs.«402299_j61332132987363_3_alg».proof.Defs
import proofs.«402299_j61332132987363_3_alg».proof.Proof.Gen.KernelIdeal
import proofs.«402299_j61332132987363_3_alg».proof.Proof.Gen.ReferenceIdeal
import proofs.«402299_j61332132987363_3_alg».proof.Proof.Gen.Pre_finite_inputs
import proofs.«402299_j61332132987363_3_alg».proof.Proof.Gen.ReferenceIdeal.Run
import proofs.«402299_j61332132987363_3_alg».proof.Proof.Gen.ReferenceIdeal.Read
import proofs.«402299_j61332132987363_3_alg».proof.Proof.Val.Out
import proofs.«402299_j61332132987363_3_alg».proof.Proof.Val.RefSide
import proofs.«402299_j61332132987363_3_alg».proof.Proof.Val.Finite

noncomputable section

namespace Cert.Proof.IdealClaims

open Idealize.ShloMosaic Idealize.ShloMosaic.TcCoe Idealize.SL.Sem
open AttnArr AttnSpec

theorem frame_ki : Cert.frame_KernelIdeal := fun m ρ _ => Cert.KernelIdeal.Hand.frame_of_run m ρ

theorem frame_ri : Cert.frame_ReferenceIdeal := fun m ρ _ =>
  (θ_run Cert.ReferenceIdeal.defs _ _).mono (fun _ h c => (h c).2) (Cert.ReferenceIdeal.Value.run (F := Ideal) m ρ)

/-- Under the precondition the kernel's attention output is the reference's, at every batch, row and channel. -/
theorem attn_agree (m : (ℓ : Loc Cert.KernelIdeal.nD Cert.KernelIdeal.τ Cert.KernelIdeal.sig) → Buf (Elt Ideal) ℓ)
    (hpre : Cert.Pre_KernelIdeal m) (c : Dev Cert.KernelIdeal.nD) (b : Fin 8) (n : Fin (4 * 1024)) (d : Fin 256) :
    attnKer (Cert.KernelIdeal.Hand.xA m c) (Cert.KernelIdeal.Hand.wqA m c) (Cert.KernelIdeal.Hand.wkA m c) (Cert.KernelIdeal.Hand.wvA m c) b n d
      = attnRef (Cert.KernelIdeal.Hand.xA m c) (Cert.KernelIdeal.Hand.wqA m c) (Cert.KernelIdeal.Hand.wkA m c) (Cert.KernelIdeal.Hand.wvA m c) b n d := by
  obtain ⟨h0, h1, h2, h3⟩ := Cert.FiniteInputs.real_of_pre _ _ _ _ (hpre c)
  exact attn_eq _ _ _ _ (fun b n e => h0 (pix b n e)) (fun e cc => h1 (ValueIdx.ix2 e cc)) (fun e cc => h2 (ValueIdx.ix2 e cc))
    (fun e cc => h3 (ValueIdx.ix2 e cc)) b n d

theorem algebraic : Cert.algebraic_KernelIdeal_ReferenceIdeal := by
  intro m ρ m' ρ' hpre hagree
  refine ⟨fun c => Cert.KernelIdeal.Hand.W4 m c (Proc.devRef .tc Cert.KernelIdeal.main_v7), ?_, ?_⟩
  · refine (θ_run Cert.KernelIdeal.defs _ _).mono (fun _ h c => ?_) (Cert.KernelIdeal.Hand.run_all m ρ)
    exact ⟨h c _ (Cert.KernelIdeal.Hand.mem_uc Cert.KernelIdeal.main_v7 (by decide)),
      (h c _ (Cert.KernelIdeal.Hand.mem_uc Cert.KernelIdeal.main_arg0 (by decide))).trans (Cert.KernelIdeal.Hand.W4_main_arg0 m c),
      (h c _ (Cert.KernelIdeal.Hand.mem_uc Cert.KernelIdeal.main_arg1 (by decide))).trans (Cert.KernelIdeal.Hand.W4_main_arg1 m c),
      (h c _ (Cert.KernelIdeal.Hand.mem_uc Cert.KernelIdeal.main_arg2 (by decide))).trans (Cert.KernelIdeal.Hand.W4_main_arg2 m c),
      (h c _ (Cert.KernelIdeal.Hand.mem_uc Cert.KernelIdeal.main_arg3 (by decide))).trans (Cert.KernelIdeal.Hand.W4_main_arg3 m c)⟩
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v18_eq (F := Ideal) _ _ _ _).trans ?_
    rw [(hagree c).1, (hagree c).2.1, (hagree c).2.2.1, (hagree c).2.2.2]
    funext i
    have hr := Cert.ReferenceIdeal.RefValue.ref_apply
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) i
    have hk := Cert.KernelIdeal.Hand.result_apply m c i
    have ha := attn_agree m hpre c (i 0) (rowOf i) (i 3)
    unfold Cert.KernelIdeal.Hand.resX Cert.KernelIdeal.Hand.argX at hk
    unfold Cert.KernelIdeal.Hand.xA Cert.KernelIdeal.Hand.wqA Cert.KernelIdeal.Hand.wkA Cert.KernelIdeal.Hand.wvA at hk ha
    rw [← ha] at hr
    exact hr.trans hk.symm

end Cert.Proof.IdealClaims

end
-- ==== Proof.lean ====
/-
  The five claims of the certificate.

  The kernel program is a host stretch (the input flattened to rows, the weights changed of format, the key and value
  weights packed side by side), a projection region (keys and values: one matrix product a block of rows), an attention
  region (for each block of 1024 query rows, the 4096 key rows walked in 4 blocks with the online softmax's running
  maximum, running sum and running weighted sum kept in scratch, the quotient taken and gated by the input at the last
  block) and a closing reshape. Its frame, at the word-level instance and at the ideal one, is one text read at both:
  each region's staging buffers hold named contents after every grid point, the scratch's contents are carried in the
  attention region's invariant, and the program's run threads the buffers' contents through the four items. The ideal
  pass rewrote nothing, so the idealization claim is empty. At the ideal instance the kernel's result and the
  reference's agree pixel by pixel for finite inputs: both are the input entry times an attention output, and the blocked
  one equals the materialised-softmax one because, the scores being real, the online softmax ends at the row's maximum
  and sum, and a real weighted sum over a positive real sum is the sum of the weights each divided by it.
-/
import proofs.«402299_j61332132987363_3_alg».proof.Defs
import proofs.«402299_j61332132987363_3_alg».proof.Proof.Gen.Kernel
import proofs.«402299_j61332132987363_3_alg».proof.Proof.Gen.KernelIdeal
import proofs.«402299_j61332132987363_3_alg».proof.Proof.Gen.ReferenceIdeal
import proofs.«402299_j61332132987363_3_alg».proof.Proof.Gen.Pre_finite_inputs
import proofs.«402299_j61332132987363_3_alg».proof.Proof.K.Ends
import proofs.«402299_j61332132987363_3_alg».proof.Proof.Val.Final
import Idealize.ShloMosaic.Adequacy
import Idealize.ShloMosaic.Init

noncomputable section

namespace Cert.Proof

open Idealize.ShloMosaic Idealize.SL.Sem

/-- The word-level program runs to the end, faults nowhere and leaves its arguments unchanged. -/
theorem frame_k : Cert.frame_Kernel := fun m ρ _ => Cert.Kernel.Hand.frame_of_run m ρ

theorem claim : Cert.Claim :=
  ⟨Cert.Kernel.Gen.facts, Cert.KernelIdeal.Gen.facts, Cert.ReferenceIdeal.Gen.facts, Cert.Pre_finite_inputs.Gen.facts,
    frame_k, Cert.Proof.IdealClaims.frame_ki, Cert.Proof.IdealClaims.frame_ri, trivial, Cert.Proof.IdealClaims.algebraic⟩

end Cert.Proof

end
